-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S64x128 : Shape := ⟨2, ![64, 128]⟩
abbrev S50000 : Shape := ⟨1, ![50000]⟩
abbrev S256x100 : Shape := ⟨2, ![256, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S384x100 : Shape := ⟨2, ![384, 100]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S64x128 : S_.BroadcastsInDim S64x128 (![] : Fin 0 → Fin S64x128.rank)
  reducesTo_S64x128_S_d0_1 : S64x128.ReducesTo [0, 1] S_
  bcast_S_S256x100 : S_.BroadcastsInDim S256x100 (![] : Fin 0 → Fin S256x100.rank)
  reducesTo_S256x100_S_d0_1 : S256x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S384x100 : S_.BroadcastsInDim S384x100 (![] : Fin 0 → Fin S384x100.rank)
  reducesTo_S384x100_S_d0_1 : S384x100.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  bcast_S_S50000 : S_.BroadcastsInDim S50000 (![] : Fin 0 → Fin S50000.rank)
  reducesTo_S50000_S_d0 : S50000.ReducesTo [0] S_

variable [Facts]

def fn_part7 {F : FTy → Type} [FloatOps F] (main_arg1 : IVec S2x800000 32) (main_arg4 : IVec S50000 32) (main_v119 : IVec S_ 1) : IVec S_ 1 :=
  let main_v120 : IVec S1x800000 32 := (extractStridedSlice S1x800000 ![0, 0] · slices_S2x800000_S1x800000_0_0) main_arg1
  let main_v121 : IVec S800000 32 := shapeCast S800000 main_v120 shapeCasts_S1x800000_S800000
  let main_c_46 : IVec S_ 32 := constantI S_ 32 50000#32
  let main_v122 : IVec S800000 32 := broadcastInDim S800000 ![] bcast_S_S800000 main_c_46
  let main_v123 : IVec S800000 1 := cmpi .slt main_v121 main_v122
  let main_c_47 : IVec S_ 1 := constantI S_ 1 1#1
  let main_v124 : IVec S_ 1 := (fun x v => Host.reduce IntOp.andi x v reducesTo_S800000_S_d0 h_S_) main_v123 main_c_47
  let main_v125 : IVec S_ 1 := andi main_v119 main_v124
  let main_c_48 : IVec S_ 32 := constantI S_ 32 0#32
  let main_v126 : IVec S50000 32 := broadcastInDim S50000 ![] bcast_S_S50000 main_c_48
  let main_v127 : IVec S50000 1 := cmpi .sge main_arg4 main_v126
  let main_c_49 : IVec S_ 1 := constantI S_ 1 1#1
  let main_v128 : IVec S_ 1 := (fun x v => Host.reduce IntOp.andi x v reducesTo_S50000_S_d0 h_S_) main_v127 main_c_49
  let main_v129 : IVec S_ 1 := andi main_v125 main_v128
  let main_c_50 : IVec S_ 32 := constantI S_ 32 64#32
  let main_v130 : IVec S50000 32 := broadcastInDim S50000 ![] bcast_S_S50000 main_c_50
  let main_v131 : IVec S50000 1 := cmpi .slt main_arg4 main_v130
  let main_c_51 : IVec S_ 1 := constantI S_ 1 1#1
  let main_v132 : IVec S_ 1 := (fun x v => Host.reduce IntOp.andi x v reducesTo_S50000_S_d0 h_S_) main_v131 main_c_51
  let main_v133 : IVec S_ 1 := andi main_v129 main_v132
  main_v133

def fn_part6 {F : FTy → Type} [FloatOps F] (main_arg1 : IVec S2x800000 32) (main_arg4 : IVec S50000 32) (main_arg23 : FVec F S128 .f32) (main_arg24 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : IVec S1x800000 32 := (extractStridedSlice S1x800000 ![0, 0] · slices_S2x800000_S1x800000_0_0) main_arg1
  let main_v115 : IVec S800000 32 := shapeCast S800000 main_v114 shapeCasts_S1x800000_S800000
  let main_c_44 : IVec S_ 32 := constantI S_ 32 0#32
  let main_v116 : IVec S800000 32 := broadcastInDim S800000 ![] bcast_S_S800000 main_c_44
  let main_v117 : IVec S800000 1 := cmpi .sge main_v115 main_v116
  let main_c_45 : IVec S_ 1 := constantI S_ 1 1#1
  let main_v118 : IVec S_ 1 := (fun x v => Host.reduce IntOp.andi x v reducesTo_S800000_S_d0 h_S_) main_v117 main_c_45
  let main_v119 : IVec S_ 1 := andi main_v113 main_v118
  fn_part7 (F := F) main_arg1 main_arg4 main_v119

def fn_part5 {F : FTy → Type} [FloatOps F] (main_arg1 : IVec S2x800000 32) (main_arg4 : IVec S50000 32) (main_arg20 : FVec F S100 .f32) (main_arg21 : FVec F S100x128 .f32) (main_arg22 : FVec F S128 .f32) (main_arg23 : FVec F S128 .f32) (main_arg24 : FVec F S128 .f32) (main_v83 : IVec S_ 1) (main_v84 : FVec F S100x100 .f32) (main_cst_32 : FVec F S_ .f32) : IVec S_ 1 :=
  let main_v85 : FVec F S100x100 .f32 := broadcastInDim S100x100 ![] bcast_S_S100x100 main_cst_32
  let main_v86 : IVec S100x100 1 := cmpf .olt main_v84 main_v85
  let main_c_33 : IVec S_ 1 := constantI S_ 1 1#1
  let main_v87 : IVec S_ 1 := (fun x v => Host.reduce IntOp.andi x v reducesTo_S100x100_S_d0_1 h_S_) main_v86 main_c_33
  let main_v88 : IVec S_ 1 := andi main_v83 main_v87
  let main_v89 : FVec F S100 .f32 := Host.absf main_arg20
  let main_cst_34 : FVec F S_ .f32 := constant S_ .f32 0x7F800000#32
  let main_v90 : FVec F S100 .f32 := broadcastInDim S100 ![] bcast_S_S100 main_cst_34
  let main_v91 : IVec S100 1 := cmpf .olt main_v89 main_v90
  let main_c_35 : IVec S_ 1 := constantI S_ 1 1#1
  let main_v92 : IVec S_ 1 := (fun x v => Host.reduce IntOp.andi x v reducesTo_S100_S_d0 h_S_) main_v91 main_c_35
  let main_v93 : IVec S_ 1 := andi main_v88 main_v92
  let main_v94 : FVec F S100x128 .f32 := Host.absf main_arg21
  let main_cst_36 : FVec F S_ .f32 := constant S_ .f32 0x7F800000#32
  let main_v95 : FVec F S100x128 .f32 := broadcastInDim S100x128 ![] bcast_S_S100x128 main_cst_36
  let main_v96 : IVec S100x128 1 := cmpf .olt main_v94 main_v95
  let main_c_37 : IVec S_ 1 := constantI S_ 1 1#1
  let main_v97 : IVec S_ 1 := (fun x v => Host.reduce IntOp.andi x v reducesTo_S100x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg4 main_arg23 main_arg24 main_v98 main_v101 main_c_39

def fn_part4 {F : FTy → Type} [FloatOps F] (main_arg1 : IVec S2x800000 32) (main_arg4 : IVec S50000 32) (main_arg16 : FVec F S100 .f32) (main_arg17 : FVec F S100x100 .f32) (main_arg18 : FVec F S100 .f32) (main_arg19 : FVec F S100x100 .f32) (main_arg20 : FVec F S100 .f32) (main_arg21 : FVec F S100x128 .f32) (main_arg22 : FVec F S128 .f32) (main_arg23 : FVec F S128 .f32) (main_arg24 : FVec F S128 .f32) (main_v63 : IVec S_ 1) (main_v67 : IVec S_ 1) : IVec S_ 1 :=
  let main_v68 : IVec S_ 1 := andi main_v63 main_v67
  let main_v69 : FVec F S100 .f32 := Host.absf main_arg16
  let main_cst_26 : FVec F S_ .f32 := constant S_ .f32 0x7F800000#32
  let main_v70 : FVec F S100 .f32 := broadcastInDim S100 ![] bcast_S_S100 main_cst_26
  let main_v71 : IVec S100 1 := cmpf .olt main_v69 main_v70
  let main_c_27 : IVec S_ 1 := constantI S_ 1 1#1
  let main_v72 : IVec S_ 1 := (fun x v => Host.reduce IntOp.andi x v reducesTo_S100_S_d0 h_S_) main_v71 main_c_27
  let main_v73 : IVec S_ 1 := andi main_v68 main_v72
  let main_v74 : FVec F S100x100 .f32 := Host.absf main_arg17
  let main_cst_28 : FVec F S_ .f32 := constant S_ .f32 0x7F800000#32
  let main_v75 : FVec F S100x100 .f32 := broadcastInDim S100x100 ![] bcast_S_S100x100 main_cst_28
  let main_v76 : IVec S100x100 1 := cmpf .olt main_v74 main_v75
  let main_c_29 : IVec S_ 1 := constantI S_ 1 1#1
  let main_v77 : IVec S_ 1 := (fun x v => Host.reduce IntOp.andi x v reducesTo_S100x100_S_d0_1 h_S_) main_v76 main_c_29
  let main_v78 : IVec S_ 1 := andi main_v73 main_v77
  let main_v79 : FVec F S100 .f32 := Host.absf main_arg18
  let main_cst_30 : FVec F S_ .f32 := constant S_ .f32 0x7F800000#32
  let main_v80 : FVec F S100 .f32 := broadcastInDim S100 ![] bcast_S_S100 main_cst_30
  let main_v81 : IVec S100 1 := cmpf .olt main_v79 main_v80
  let main_c_31 : IVec S_ 1 := constantI S_ 1 1#1
  let main_v82 : IVec S_ 1 := (fun x v => Host.reduce IntOp.andi x v reducesTo_S100_S_d0 h_S_) main_v81 main_c_31
  let main_v83 : IVec S_ 1 := andi main_v78 main_v82
  let main_v84 : FVec F S100x100 .f32 := Host.absf main_arg19
  let main_cst_32 : FVec F S_ .f32 := constant S_ .f32 0x7F800000#32
  fn_part5 (F := F) main_arg1 main_arg4 main_arg20 main_arg21 main_arg22 main_arg23 main_arg24 main_v83 main_v84 main_cst_32

def fn_part3 {F : FTy → Type} [FloatOps F] (main_arg1 : IVec S2x800000 32) (main_arg4 : IVec S50000 32) (main_arg13 : FVec F S128 .f32) (main_arg14 : FVec F S128 .f32) (main_arg15 : FVec F S384x100 .f32) (main_arg16 : FVec F S100 .f32) (main_arg17 : FVec F S100x100 .f32) (main_arg18 : FVec F S100 .f32) (main_arg19 : FVec F S100x100 .f32) (main_arg20 : FVec F S100 .f32) (main_arg21 : FVec F S100x128 .f32) (main_arg22 : FVec F S128 .f32) (main_arg23 : FVec F S128 .f32) (main_arg24 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S384x100 .f32 := Host.absf main_arg15
  let main_cst_24 : FVec F S_ .f32 := constant S_ .f32 0x7F800000#32
  let main_v65 : FVec F S384x100 .f32 := broadcastInDim S384x100 ![] bcast_S_S384x100 main_cst_24
  let main_v66 : IVec S384x100 1 := cmpf .olt main_v64 main_v65
  let main_c_25 : IVec S_ 1 := constantI S_ 1 1#1
  let main_v67 : IVec S_ 1 := (fun x v => Host.reduce IntOp.andi x v reducesTo_S384x100_S_d0_1 h_S_) main_v66 main_c_25
  fn_part4 (F := F) main_arg1 main_arg4 main_arg16 main_arg17 main_arg18 main_arg19 main_arg20 main_arg21 main_arg22 main_arg23 main_arg24 main_v63 main_v67

def fn_part2 {F : FTy → Type} [FloatOps F] (main_arg1 : IVec S2x800000 32) (main_arg4 : IVec S50000 32) (main_arg9 : FVec F S100x100 .f32) (main_arg10 : FVec F S100 .f32) (main_arg11 : FVec F S100x128 .f32) (main_arg12 : FVec F S128 .f32) (main_arg13 : FVec F S128 .f32) (main_arg14 : FVec F S128 .f32) (main_arg15 : FVec F S384x100 .f32) (main_arg16 : FVec F S100 .f32) (main_arg17 : FVec F S100x100 .f32) (main_arg18 : FVec F S100 .f32) (main_arg19 : FVec F S100x100 .f32) (main_arg20 : FVec F S100 .f32) (main_arg21 : FVec F S100x128 .f32) (main_arg22 : FVec F S128 .f32) (main_arg23 : FVec F S128 .f32) (main_arg24 : FVec F S128 .f32) (main_v33 : IVec S_ 1) : IVec S_ 1 :=
  let main_v34 : FVec F S100x100 .f32 := Host.absf main_arg9
  let main_cst_12 : FVec F S_ .f32 := constant S_ .f32 0x7F800000#32
  let main_v35 : FVec F S100x100 .f32 := broadcastInDim S100x100 ![] bcast_S_S100x100 main_cst_12
  let main_v36 : IVec S100x100 1 := cmpf .olt main_v34 main_v35
  let main_c_13 : IVec S_ 1 := constantI S_ 1 1#1
  let main_v37 : IVec S_ 1 := (fun x v => Host.reduce IntOp.andi x v reducesTo_S100x100_S_d0_1 h_S_) main_v36 main_c_13
  let main_v38 : IVec S_ 1 := andi main_v33 main_v37
  let main_v39 : FVec F S100 .f32 := Host.absf main_arg10
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x128 .f32 := Host.absf main_arg11
  let main_cst_16 : FVec F S_ .f32 := constant S_ .f32 0x7F800000#32
  let main_v45 : FVec F S100x128 .f32 := broadcastInDim S100x128 ![] bcast_S_S100x128 main_cst_16
  let main_v46 : IVec S100x128 1 := cmpf .olt main_v44 main_v45
  let main_c_17 : IVec S_ 1 := constantI S_ 1 1#1
  let main_v47 : IVec S_ 1 := (fun x v => Host.reduce IntOp.andi x v reducesTo_S100x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg4 main_arg13 main_arg14 main_arg15 main_arg16 main_arg17 main_arg18 main_arg19 main_arg20 main_arg21 main_arg22 main_arg23 main_arg24 main_v48 main_v49 main_v50

def fn_part1 {F : FTy → Type} [FloatOps F] (main_arg1 : IVec S2x800000 32) (main_arg4 : IVec S50000 32) (main_arg6 : FVec F S100 .f32) (main_arg7 : FVec F S100x100 .f32) (main_arg8 : FVec F S100 .f32) (main_arg9 : FVec F S100x100 .f32) (main_arg10 : FVec F S100 .f32) (main_arg11 : FVec F S100x128 .f32) (main_arg12 : FVec F S128 .f32) (main_arg13 : FVec F S128 .f32) (main_arg14 : FVec F S128 .f32) (main_arg15 : FVec F S384x100 .f32) (main_arg16 : FVec F S100 .f32) (main_arg17 : FVec F S100x100 .f32) (main_arg18 : FVec F S100 .f32) (main_arg19 : FVec F S100x100 .f32) (main_arg20 : FVec F S100 .f32) (main_arg21 : FVec F S100x128 .f32) (main_arg22 : FVec F S128 .f32) (main_arg23 : FVec F S128 .f32) (main_arg24 : FVec F S128 .f32) (main_v13 : IVec S_ 1) (main_v16 : IVec S256x100 1) : IVec S_ 1 :=
  let main_c_5 : IVec S_ 1 := constantI S_ 1 1#1
  let main_v17 : IVec S_ 1 := (fun x v => Host.reduce IntOp.andi x v reducesTo_S256x100_S_d0_1 h_S_) main_v16 main_c_5
  let main_v18 : IVec S_ 1 := andi main_v13 main_v17
  let main_v19 : FVec F S100 .f32 := Host.absf main_arg6
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg7
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg1 main_arg4 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : FVec F S800000x128 .f32) (main_arg3 : FVec F S64x128 .f32) (main_arg4 : IVec S50000 32) (main_arg5 : FVec F S256x100 .f32) (main_arg6 : FVec F S100 .f32) (main_arg7 : FVec F S100x100 .f32) (main_arg8 : FVec F S100 .f32) (main_arg9 : FVec F S100x100 .f32) (main_arg10 : FVec F S100 .f32) (main_arg11 : FVec F S100x128 .f32) (main_arg12 : FVec F S128 .f32) (main_arg13 : FVec F S128 .f32) (main_arg14 : FVec F S128 .f32) (main_arg15 : FVec F S384x100 .f32) (main_arg16 : FVec F S100 .f32) (main_arg17 : FVec F S100x100 .f32) (main_arg18 : FVec F S100 .f32) (main_arg19 : FVec F S100x100 .f32) (main_arg20 : FVec F S100 .f32) (main_arg21 : FVec F S100x128 .f32) (main_arg22 : FVec F S128 .f32) (main_arg23 : FVec F S128 .f32) (main_arg24 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S256x100 .f32 := Host.absf main_arg5
  let main_cst_4 : FVec F S_ .f32 := constant S_ .f32 0x7F800000#32
  let main_v15 : FVec F S256x100 .f32 := broadcastInDim S256x100 ![] bcast_S_S256x100 main_cst_4
  let main_v16 : IVec S256x100 1 := cmpf .olt main_v14 main_v15
  fn_part1 (F := F) main_arg1 main_arg4 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S64x128 : Shape := ⟨2, ![64, 128]⟩
abbrev S50000 : Shape := ⟨1, ![50000]⟩
abbrev S256x100 : Shape := ⟨2, ![256, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S384x100 : Shape := ⟨2, ![384, 100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S128x100 : Shape := ⟨2, ![128, 100]⟩
abbrev S8000x128 : Shape := ⟨2, ![8000, 128]⟩
abbrev S8000x100 : Shape := ⟨2, ![8000, 100]⟩
abbrev S1x100 : Shape := ⟨2, ![1, 100]⟩
abbrev S1x128 : Shape := ⟨2, ![1, 128]⟩
abbrev S8000 : Shape := ⟨1, ![8000]⟩
abbrev S8000x1 : Shape := ⟨2, ![8000, 1]⟩
abbrev S50000x1 : Shape := ⟨2, ![50000, 1]⟩
abbrev S5000x128 : Shape := ⟨2, ![5000, 128]⟩
abbrev S5000x100 : Shape := ⟨2, ![5000, 100]⟩
abbrev S5000 : Shape := ⟨1, ![5000]⟩
abbrev S5000x1 : Shape := ⟨2, ![5000, 1]⟩

abbrev nBuf : Space → Nat
  | .hbm => 87
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S64x128, .f32⟩
  | .hbm, ⟨4, _⟩ => ⟨S50000, .i32⟩
  | .hbm, ⟨5, _⟩ => ⟨S256x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S100x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S384x100, .f32⟩
  | .hbm, ⟨16, _⟩ => ⟨S100, .f32⟩
  | .hbm, ⟨17, _⟩ => ⟨S100x100, .f32⟩
  | .hbm, ⟨18, _⟩ => ⟨S100, .f32⟩
  | .hbm, ⟨19, _⟩ => ⟨S100x100, .f32⟩
  | .hbm, ⟨20, _⟩ => ⟨S100, .f32⟩
  | .hbm, ⟨21, _⟩ => ⟨S100x128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S1, .i32⟩
  | .hbm, ⟨38, _⟩ => ⟨S_, .i32⟩
  | .hbm, ⟨39, _⟩ => ⟨S800000x1, .i32⟩
  | .hbm, ⟨40, _⟩ => ⟨S800000x1, .i1⟩
  | .hbm, ⟨41, _⟩ => ⟨S1x1, .i32⟩
  | .hbm, ⟨42, _⟩ => ⟨S800000x1, .i32⟩
  | .hbm, ⟨43, _⟩ => ⟨S800000x1, .i1⟩
  | .hbm, ⟨44, _⟩ => ⟨S800000x1, .i1⟩
  | .hbm, ⟨45, _⟩ => ⟨S_, .i1⟩
  | .hbm, ⟨46, _⟩ => ⟨S800000, .i1⟩
  | .hbm, ⟨47, _⟩ => ⟨S800000x128, .f32⟩
  | .hbm, ⟨48, _⟩ => ⟨S800000x128, .i1⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .bf16⟩
  | .hbm, ⟨53, _⟩ => ⟨S128x100, .f32⟩
  | .hbm, ⟨54, _⟩ => ⟨S128x100, .f32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .i32⟩
  | .hbm, ⟨61, _⟩ => ⟨S50000, .i32⟩
  | .hbm, ⟨62, _⟩ => ⟨S50000, .i1⟩
  | .hbm, ⟨63, _⟩ => ⟨S_, .i32⟩
  | .hbm, ⟨64, _⟩ => ⟨S50000, .i32⟩
  | .hbm, ⟨65, _⟩ => ⟨S50000, .i32⟩
  | .hbm, ⟨66, _⟩ => ⟨S50000, .i32⟩
  | .hbm, ⟨67, _⟩ => ⟨S50000x1, .i32⟩
  | .hbm, ⟨68, _⟩ => ⟨S1, .i32⟩
  | .hbm, ⟨69, _⟩ => ⟨S_, .i32⟩
  | .hbm, ⟨70, _⟩ => ⟨S50000x1, .i32⟩
  | .hbm, ⟨71, _⟩ => ⟨S50000x1, .i1⟩
  | .hbm, ⟨72, _⟩ => ⟨S1x1, .i32⟩
  | .hbm, ⟨73, _⟩ => ⟨S50000x1, .i32⟩
  | .hbm, ⟨74, _⟩ => ⟨S50000x1, .i1⟩
  | .hbm, ⟨75, _⟩ => ⟨S50000x1, .i1⟩
  | .hbm, ⟨76, _⟩ => ⟨S_, .i1⟩
  | .hbm, ⟨77, _⟩ => ⟨S50000, .i1⟩
  | .hbm, ⟨78, _⟩ => ⟨S50000x128, .f32⟩
  | .hbm, ⟨79, _⟩ => ⟨S50000x128, .i1⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S128x100, .f32⟩
  | .hbm, ⟨84, _⟩ => ⟨S128x100, .f32⟩
  | .hbm, ⟨85, _⟩ => ⟨S128x100, .f32⟩
  | .hbm, ⟨86, _⟩ => ⟨S50000x128, .f32⟩
  | .local _ .vmem, ⟨0, _⟩ => ⟨S8000x128, .bf16⟩
  | .local _ .vmem, ⟨1, _⟩ => ⟨S8000x128, .bf16⟩
  | .local _ .vmem, ⟨2, _⟩ => ⟨S8000x128, .f32⟩
  | .local _ .vmem, ⟨3, _⟩ => ⟨S8000x128, .f32⟩
  | .local _ .vmem, ⟨4, _⟩ => ⟨S128x100, .f32⟩
  | .local _ .vmem, ⟨5, _⟩ => ⟨S128x100, .f32⟩
  | .local _ .vmem, ⟨6, _⟩ => ⟨S100, .f32⟩
  | .local _ .vmem, ⟨7, _⟩ => ⟨S100x100, .f32⟩
  | .local _ .vmem, ⟨8, _⟩ => ⟨S100, .f32⟩
  | .local _ .vmem, ⟨9, _⟩ => ⟨S100x100, .f32⟩
  | .local _ .vmem, ⟨10, _⟩ => ⟨S100, .f32⟩
  | .local _ .vmem, ⟨11, _⟩ => ⟨S100x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S8000x128, .f32⟩
  | .local _ .vmem, ⟨16, _⟩ => ⟨S8000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x100, .f32⟩
  | .local _ .vmem, ⟨24, _⟩ => ⟨S128x100, .f32⟩
  | .local _ .vmem, ⟨25, _⟩ => ⟨S128x100, .f32⟩
  | .local _ .vmem, ⟨26, _⟩ => ⟨S100, .f32⟩
  | .local _ .vmem, ⟨27, _⟩ => ⟨S100x100, .f32⟩
  | .local _ .vmem, ⟨28, _⟩ => ⟨S100, .f32⟩
  | .local _ .vmem, ⟨29, _⟩ => ⟨S100x100, .f32⟩
  | .local _ .vmem, ⟨30, _⟩ => ⟨S100, .f32⟩
  | .local _ .vmem, ⟨31, _⟩ => ⟨S100x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_v16 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg12_0 : Ref sig .tc := ⟨.vmem, 32, rfl⟩
abbrev cc1_stg13_0 : Ref sig .tc := ⟨.vmem, 33, rfl⟩
abbrev cc1_stg14_0 : Ref sig .tc := ⟨.vmem, 34, rfl⟩
abbrev cc1_stg15_0 : Ref sig .tc := ⟨.vmem, 35, rfl⟩
abbrev cc1_stg15_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem12_0 : DmaSem sig := 32
abbrev cc1_sem13_0 : DmaSem sig := 33
abbrev cc1_sem14_0 : DmaSem sig := 34
abbrev cc1_sem15_0 : DmaSem sig := 35
abbrev cc1_sem15_1 : DmaSem sig := 36

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100x100 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S100 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S100x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S5000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bitsLt_bf16_f32 : FTy.bits .bf16 < FTy.bits .f32
  slices_S256x100_S128x100_0_0 : S256x100.Slices ![0, 0] S128x100
  slices_S256x100_S128x100_128_0 : S256x100.Slices ![128, 0] S128x100
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S100_S100_0 : ∀ a, (![0] : Fin 1 → Nat) a + S100.size a ≤ S100.size a
  h_S100 : 0 < S100.numel
  shapeCasts_S100_S1x100 : S100.ShapeCasts S1x100
  broadcasts_S1x100_S8000x100 : S1x100.Broadcasts S8000x100
  inb_S100x100_S100x100_0_0 : ∀ a, (![0, 0] : Fin 2 → Nat) a + S100x100.size a ≤ S100x100.size a
  h_S100x100 : 0 < S100x100.numel
  inb_S100x128_S100x128_0_0 : ∀ a, (![0, 0] : Fin 2 → Nat) a + S100x128.size a ≤ S100x128.size a
  h_S100x128 : 0 < S100x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  reduces_S8000x128_S8000 : S8000x128.Reduces [1] S8000
  shapeCasts_S8000_S8000x1 : S8000.ShapeCasts S8000x1
  broadcasts_S8000x1_S8000x128 : S8000x1.Broadcasts S8000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x128_0 : S50000.BroadcastsInDim S50000x128 (![0] : Fin 1 → Fin S50000x128.rank)
  slices_S384x100_S128x100_0_0 : S384x100.Slices ![0, 0] S128x100
  slices_S384x100_S128x100_128_0 : S384x100.Slices ![128, 0] S128x100
  slices_S384x100_S128x100_256_0 : S384x100.Slices ![256, 0] S128x100
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x100_S5000x100 : S1x100.Broadcasts S5000x100
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  dot_S8000x128_S128x100_S8000x100_1_0_0_1_n_n_wf : DotDims.WF S8000x128 S128x100 S8000x100 [1] [0] [0] [1] [] []
  dot_S8000x100_S100x100_S8000x100_1_0_0_1_n_n_wf : DotDims.WF S8000x100 S100x100 S8000x100 [1] [0] [0] [1] [] []
  dot_S8000x100_S100x128_S8000x128_1_0_0_1_n_n_wf : DotDims.WF S8000x100 S100x128 S8000x128 [1] [0] [0] [1] [] []
  scatter_S50000x128_S800000x1_S800000x128_1_0_0_1_wf : ScatterDims.WF S50000x128 S800000x1 S800000x128 [1] [0] [0] 1
  gather_S64x128_S50000x1_S50000x128_1_0_n_n_0_1_1128_wf : GatherDims.WF S64x128 S50000x1 S50000x128 [1] [0] [] [0] [] 1 ![1, 128]
  dot_S5000x128_S128x100_S5000x100_1_0_0_1_n_n_wf : DotDims.WF S5000x128 S128x100 S5000x100 [1] [0] [0] [1] [] []
  dot_S5000x100_S100x100_S5000x100_1_0_0_1_n_n_wf : DotDims.WF S5000x100 S100x100 S5000x100 [1] [0] [0] [1] [] []
  dot_S5000x100_S100x128_S5000x128_1_0_0_1_n_n_wf : DotDims.WF S5000x100 S100x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x100.size a ≤ S128x100.size a
  hwx0_2 : ∀ i : grid0.Coords, EltTy.bits .f32 = 32 ∨ (Rect.block (s := S128x100) S128x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x100.size a ≤ S128x100.size a
  hwx0_3 : ∀ i : grid0.Coords, EltTy.bits .f32 = 32 ∨ (Rect.block (s := S128x100) S128x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100.size a ≤ S100.size a
  hwx0_4 : ∀ i : grid0.Coords, EltTy.bits .f32 = 32 ∨ (Rect.block (s := S100) S100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x100.size a ≤ S100x100.size a
  hwx0_5 : ∀ i : grid0.Coords, EltTy.bits .f32 = 32 ∨ (Rect.block (s := S100x100) S100x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100.size a ≤ S100.size a
  hwx0_6 : ∀ i : grid0.Coords, EltTy.bits .f32 = 32 ∨ (Rect.block (s := S100) S100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x100.size a ≤ S100x100.size a
  hwx0_7 : ∀ i : grid0.Coords, EltTy.bits .f32 = 32 ∨ (Rect.block (s := S100x100) S100x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100.size a ≤ S100.size a
  hwx0_8 : ∀ i : grid0.Coords, EltTy.bits .f32 = 32 ∨ (Rect.block (s := S100) S100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S100x128.size a ≤ S100x128.size a
  hwx0_9 : ∀ i : grid0.Coords, EltTy.bits .f32 = 32 ∨ (Rect.block (s := S100x128) S100x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8000x128.size a ≤ S800000x128.size a
  hwx0_13 : ∀ i : grid0.Coords, EltTy.bits .f32 = 32 ∨ (Rect.block (s := S800000x128) S8000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x100.size a ≤ S128x100.size a
  hwx1_3 : ∀ i : grid1.Coords, EltTy.bits .f32 = 32 ∨ (Rect.block (s := S128x100) S128x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x100.size a ≤ S128x100.size a
  hwx1_4 : ∀ i : grid1.Coords, EltTy.bits .f32 = 32 ∨ (Rect.block (s := S128x100) S128x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x100.size a ≤ S128x100.size a
  hwx1_5 : ∀ i : grid1.Coords, EltTy.bits .f32 = 32 ∨ (Rect.block (s := S128x100) S128x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100.size a ≤ S100.size a
  hwx1_6 : ∀ i : grid1.Coords, EltTy.bits .f32 = 32 ∨ (Rect.block (s := S100) S100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x100.size a ≤ S100x100.size a
  hwx1_7 : ∀ i : grid1.Coords, EltTy.bits .f32 = 32 ∨ (Rect.block (s := S100x100) S100x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S100.size a ≤ S100.size a
  hwx1_8 : ∀ i : grid1.Coords, EltTy.bits .f32 = 32 ∨ (Rect.block (s := S100) S100.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100x100.size a ≤ S100x100.size a
  hwx1_9 : ∀ i : grid1.Coords, EltTy.bits .f32 = 32 ∨ (Rect.block (s := S100x100) S100x100.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S100.size a ≤ S100.size a
  hwx1_10 : ∀ i : grid1.Coords, EltTy.bits .f32 = 32 ∨ (Rect.block (s := S100) S100.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S100x128.size a ≤ S100x128.size a
  hwx1_11 : ∀ i : grid1.Coords, EltTy.bits .f32 = 32 ∨ (Rect.block (s := S100x128) S100x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S5000x128.size a ≤ S50000x128.size a
  hwx1_15 : ∀ i : grid1.Coords, EltTy.bits .f32 = 32 ∨ (Rect.block (s := S50000x128) S5000x128.size (cc1_transform_15 i) (hinb1_15 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x100_S8000x100_1_0_0_1_n_n : DotDims S8000x128 S128x100 S8000x100 where
  lhsContracting := [1]
  rhsContracting := [0]
  lhsNonContracting := [0]
  rhsNonContracting := [1]
  lhsBatch := []
  rhsBatch := []
  wf := dot_S8000x128_S128x100_S8000x100_1_0_0_1_n_n_wf
def dot_S8000x100_S100x100_S8000x100_1_0_0_1_n_n : DotDims S8000x100 S100x100 S8000x100 where
  lhsContracting := [1]
  rhsContracting := [0]
  lhsNonContracting := [0]
  rhsNonContracting := [1]
  lhsBatch := []
  rhsBatch := []
  wf := dot_S8000x100_S100x100_S8000x100_1_0_0_1_n_n_wf
def dot_S8000x100_S100x128_S8000x128_1_0_0_1_n_n : DotDims S8000x100 S100x128 S8000x128 where
  lhsContracting := [1]
  rhsContracting := [0]
  lhsNonContracting := [0]
  rhsNonContracting := [1]
  lhsBatch := []
  rhsBatch := []
  wf := dot_S8000x100_S100x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S5000x128_S128x100_S5000x100_1_0_0_1_n_n : DotDims S5000x128 S128x100 S5000x100 where
  lhsContracting := [1]
  rhsContracting := [0]
  lhsNonContracting := [0]
  rhsNonContracting := [1]
  lhsBatch := []
  rhsBatch := []
  wf := dot_S5000x128_S128x100_S5000x100_1_0_0_1_n_n_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf

abbrev win0_0 : Pipeline.Window sig grid0 :=
  Pipeline.Window.ofSpec (Memref.whole main_v5) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S100x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S100x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S100x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S8000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg17) S100x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg18) S100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg19) S100x100.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg20) S100.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg21) S100x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg22) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg23) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg24) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v16) S5000x128.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S64x128 : Shape := ⟨2, ![64, 128]⟩
abbrev S50000 : Shape := ⟨1, ![50000]⟩
abbrev S256x100 : Shape := ⟨2, ![256, 100]⟩
abbrev S100 : Shape := ⟨1, ![100]⟩
abbrev S100x100 : Shape := ⟨2, ![100, 100]⟩
abbrev S100x128 : Shape := ⟨2, ![100, 128]⟩
abbrev S128 : Shape := ⟨1, ![128]⟩
abbrev S384x100 : Shape := ⟨2, ![384, 100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S800000x100 : Shape := ⟨2, ![800000, 100]⟩
abbrev S1x100 : Shape := ⟨2, ![1, 100]⟩
abbrev S1x128 : Shape := ⟨2, ![1, 128]⟩
abbrev S50000x1 : Shape := ⟨2, ![50000, 1]⟩
abbrev S50000x384 : Shape := ⟨2, ![50000, 384]⟩
abbrev S50000x100 : Shape := ⟨2, ![50000, 100]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x800000, .i32⟩
  | 2 => ⟨S800000x128, .f32⟩
  | 3 => ⟨S64x128, .f32⟩
  | 4 => ⟨S50000, .i32⟩
  | 5 => ⟨S256x100, .f32⟩
  | 6 => ⟨S100, .f32⟩
  | 7 => ⟨S100x100, .f32⟩
  | 8 => ⟨S100, .f32⟩
  | 9 => ⟨S100x100, .f32⟩
  | 10 => ⟨S100, .f32⟩
  | 11 => ⟨S100x128, .f32⟩
  | 12 => ⟨S128, .f32⟩
  | 13 => ⟨S128, .f32⟩
  | 14 => ⟨S128, .f32⟩
  | 15 => ⟨S384x100, .f32⟩
  | 16 => ⟨S100, .f32⟩
  | 17 => ⟨S100x100, .f32⟩
  | 18 => ⟨S100, .f32⟩
  | 19 => ⟨S100x100, .f32⟩
  | 20 => ⟨S100, .f32⟩
  | 21 => ⟨S100x128, .f32⟩
  | 22 => ⟨S128, .f32⟩
  | 23 => ⟨S128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x256, .f32⟩
  | 39 => ⟨S800000x100, .f32⟩
  | 40 => ⟨S1x100, .f32⟩
  | 41 => ⟨S800000x100, .f32⟩
  | 42 => ⟨S800000x100, .f32⟩
  | 43 => ⟨S_, .f32⟩
  | 44 => ⟨S800000x100, .f32⟩
  | 45 => ⟨S800000x100, .f32⟩
  | 46 => ⟨S800000x100, .f32⟩
  | 47 => ⟨S1x100, .f32⟩
  | 48 => ⟨S800000x100, .f32⟩
  | 49 => ⟨S800000x100, .f32⟩
  | 50 => ⟨S_, .f32⟩
  | 51 => ⟨S800000x100, .f32⟩
  | 52 => ⟨S800000x100, .f32⟩
  | 53 => ⟨S800000x100, .f32⟩
  | 54 => ⟨S1x100, .f32⟩
  | 55 => ⟨S800000x100, .f32⟩
  | 56 => ⟨S800000x100, .f32⟩
  | 57 => ⟨S_, .f32⟩
  | 58 => ⟨S800000x100, .f32⟩
  | 59 => ⟨S800000x100, .f32⟩
  | 60 => ⟨S800000x128, .f32⟩
  | 61 => ⟨S1x128, .f32⟩
  | 62 => ⟨S800000x128, .f32⟩
  | 63 => ⟨S800000x128, .f32⟩
  | 64 => ⟨S_, .f32⟩
  | 65 => ⟨S800000, .f32⟩
  | 66 => ⟨S800000x1, .f32⟩
  | 67 => ⟨S_, .f32⟩
  | 68 => ⟨S800000x1, .f32⟩
  | 69 => ⟨S800000x1, .f32⟩
  | 70 => ⟨S800000x128, .f32⟩
  | 71 => ⟨S800000x128, .f32⟩
  | 72 => ⟨S800000x128, .f32⟩
  | 73 => ⟨S_, .f32⟩
  | 74 => ⟨S800000, .f32⟩
  | 75 => ⟨S800000x1, .f32⟩
  | 76 => ⟨S_, .f32⟩
  | 77 => ⟨S800000x1, .f32⟩
  | 78 => ⟨S800000x1, .f32⟩
  | 79 => ⟨S800000x128, .f32⟩
  | 80 => ⟨S800000x128, .f32⟩
  | 81 => ⟨S_, .f32⟩
  | 82 => ⟨S800000x1, .f32⟩
  | 83 => ⟨S800000x1, .f32⟩
  | 84 => ⟨S800000x1, .f32⟩
  | 85 => ⟨S800000x128, .f32⟩
  | 86 => ⟨S800000x128, .f32⟩
  | 87 => ⟨S1x128, .f32⟩
  | 88 => ⟨S800000x128, .f32⟩
  | 89 => ⟨S800000x128, .f32⟩
  | 90 => ⟨S1x128, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x128, .f32⟩
  | 106 => ⟨S50000x384, .f32⟩
  | 107 => ⟨S50000x100, .f32⟩
  | 108 => ⟨S1x100, .f32⟩
  | 109 => ⟨S50000x100, .f32⟩
  | 110 => ⟨S50000x100, .f32⟩
  | 111 => ⟨S_, .f32⟩
  | 112 => ⟨S50000x100, .f32⟩
  | 113 => ⟨S50000x100, .f32⟩
  | 114 => ⟨S50000x100, .f32⟩
  | 115 => ⟨S1x100, .f32⟩
  | 116 => ⟨S50000x100, .f32⟩
  | 117 => ⟨S50000x100, .f32⟩
  | 118 => ⟨S_, .f32⟩
  | 119 => ⟨S50000x100, .f32⟩
  | 120 => ⟨S50000x100, .f32⟩
  | 121 => ⟨S50000x100, .f32⟩
  | 122 => ⟨S1x100, .f32⟩
  | 123 => ⟨S50000x100, .f32⟩
  | 124 => ⟨S50000x100, .f32⟩
  | 125 => ⟨S_, .f32⟩
  | 126 => ⟨S50000x100, .f32⟩
  | 127 => ⟨S50000x100, .f32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000, .f32⟩
  | 6 => ⟨S50000x1, .f32⟩
  | 7 => ⟨S_, .f32⟩
  | 8 => ⟨S50000x1, .f32⟩
  | 9 => ⟨S50000x1, .f32⟩
  | 10 => ⟨S50000x128, .f32⟩
  | 11 => ⟨S50000x128, .f32⟩
  | 12 => ⟨S50000x128, .f32⟩
  | 13 => ⟨S_, .f32⟩
  | 14 => ⟨S50000, .f32⟩
  | 15 => ⟨S50000x1, .f32⟩
  | 16 => ⟨S_, .f32⟩
  | 17 => ⟨S50000x1, .f32⟩
  | 18 => ⟨S50000x1, .f32⟩
  | 19 => ⟨S50000x128, .f32⟩
  | 20 => ⟨S50000x128, .f32⟩
  | 21 => ⟨S_, .f32⟩
  | 22 => ⟨S50000x1, .f32⟩
  | 23 => ⟨S50000x1, .f32⟩
  | 24 => ⟨S50000x1, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_call0_cst : Ref sig .tc := ⟨.hbm, 43, rfl⟩
abbrev main_call0_v0 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_cst : Ref sig .tc := ⟨.hbm, 50, rfl⟩
abbrev main_call1_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_call2_cst : Ref sig .tc := ⟨.hbm, 57, rfl⟩
abbrev main_call2_v0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_v31 : Ref sig .tc := ⟨.hbm, 65, rfl⟩
abbrev main_v32 : Ref sig .tc := ⟨.hbm, 66, rfl⟩
abbrev main_cst_1 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_2 : Ref sig .tc := ⟨.hbm, 73, rfl⟩
abbrev main_v38 : Ref sig .tc := ⟨.hbm, 74, rfl⟩
abbrev main_v39 : Ref sig .tc := ⟨.hbm, 75, rfl⟩
abbrev main_cst_3 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_4 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_5 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_c_6 : Ref sig .tc := ⟨.hbm, 97, rfl⟩
abbrev main_v58 : Ref sig .tc := ⟨.hbm, 98, rfl⟩
abbrev main_v59 : Ref sig .tc := ⟨.hbm, 99, rfl⟩
abbrev main_c_7 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_call3_cst : Ref sig .tc := ⟨.hbm, 111, rfl⟩
abbrev main_call3_v0 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_call4_cst : Ref sig .tc := ⟨.hbm, 118, rfl⟩
abbrev main_call4_v0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_call5_cst : Ref sig .tc := ⟨.hbm, 125, rfl⟩
abbrev main_call5_v0 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_8 : Ref sig .tc := ⟨.hbm, 132, rfl⟩
abbrev main_v85 : Ref sig .tc := ⟨.hbm, 133, rfl⟩
abbrev main_v86 : Ref sig .tc := ⟨.hbm, 134, rfl⟩
abbrev main_cst_9 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_10 : Ref sig .tc := ⟨.hbm, 141, rfl⟩
abbrev main_v92 : Ref sig .tc := ⟨.hbm, 142, rfl⟩
abbrev main_v93 : Ref sig .tc := ⟨.hbm, 143, rfl⟩
abbrev main_cst_11 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_12 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S100_S1x100_1 : S100.BroadcastsInDim S1x100 (![1] : Fin 1 → Fin S1x100.rank)
  bcast_S1x100_S800000x100_0_1 : S1x100.BroadcastsInDim S800000x100 (![0, 1] : Fin 2 → Fin S800000x100.rank)
  bcast_S_S800000x100 : S_.BroadcastsInDim S800000x100 (![] : Fin 0 → Fin S800000x100.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x128_S50000x384_d1 : Shape.Concatenates [S50000x128, S50000x128, S50000x128] S50000x384 1
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x100_S800000x100_1_0_0_1_n_n_wf : DotDims.WF S800000x256 S256x100 S800000x100 [1] [0] [0] [1] [] []
  dot_S800000x100_S100x100_S800000x100_1_0_0_1_n_n_wf : DotDims.WF S800000x100 S100x100 S800000x100 [1] [0] [0] [1] [] []
  dot_S800000x100_S100x128_S800000x128_1_0_0_1_n_n_wf : DotDims.WF S800000x100 S100x128 S800000x128 [1] [0] [0] [1] [] []
  scatter_S50000x128_S800000x1_S800000x128_1_0_0_1_wf : ScatterDims.WF S50000x128 S800000x1 S800000x128 [1] [0] [0] 1
  gather_S64x128_S50000x1_S50000x128_1_0_n_n_0_1_1128_wf : GatherDims.WF S64x128 S50000x1 S50000x128 [1] [0] [] [0] [] 1 ![1, 128]
  dot_S50000x384_S384x100_S50000x100_1_0_0_1_n_n_wf : DotDims.WF S50000x384 S384x100 S50000x100 [1] [0] [0] [1] [] []
  dot_S50000x100_S100x100_S50000x100_1_0_0_1_n_n_wf : DotDims.WF S50000x100 S100x100 S50000x100 [1] [0] [0] [1] [] []
  dot_S50000x100_S100x128_S50000x128_1_0_0_1_n_n_wf : DotDims.WF S50000x100 S100x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x100_S800000x100_1_0_0_1_n_n : DotDims S800000x256 S256x100 S800000x100 where
  lhsContracting := [1]
  rhsContracting := [0]
  lhsNonContracting := [0]
  rhsNonContracting := [1]
  lhsBatch := []
  rhsBatch := []
  wf := dot_S800000x256_S256x100_S800000x100_1_0_0_1_n_n_wf
def dot_S800000x100_S100x100_S800000x100_1_0_0_1_n_n : DotDims S800000x100 S100x100 S800000x100 where
  lhsContracting := [1]
  rhsContracting := [0]
  lhsNonContracting := [0]
  rhsNonContracting := [1]
  lhsBatch := []
  rhsBatch := []
  wf := dot_S800000x100_S100x100_S800000x100_1_0_0_1_n_n_wf
def dot_S800000x100_S100x128_S800000x128_1_0_0_1_n_n : DotDims S800000x100 S100x128 S800000x128 where
  lhsContracting := [1]
  rhsContracting := [0]
  lhsNonContracting := [0]
  rhsNonContracting := [1]
  lhsBatch := []
  rhsBatch := []
  wf := dot_S800000x100_S100x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S64x128_S50000x1_S50000x128_1_0_n_n_0_1_1128 : GatherDims S64x128 S50000x1 S50000x128 where
  offsetDims := [1]
  collapsedSliceDims := [0]
  operandBatchingDims := []
  startIndicesBatchingDims := []
  startIndexMap := [0]
  indexVectorDim := 1
  sliceSizes := ![1, 128]
  wf := gather_S64x128_S50000x1_S50000x128_1_0_n_n_0_1_1128_wf
def dot_S50000x384_S384x100_S50000x100_1_0_0_1_n_n : DotDims S50000x384 S384x100 S50000x100 where
  lhsContracting := [1]
  rhsContracting := [0]
  lhsNonContracting := [0]
  rhsNonContracting := [1]
  lhsBatch := []
  rhsBatch := []
  wf := dot_S50000x384_S384x100_S50000x100_1_0_0_1_n_n_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def dot_S50000x100_S100x128_S50000x128_1_0_0_1_n_n : DotDims S50000x100 S100x128 S50000x128 where
  lhsContracting := [1]
  rhsContracting := [0]
  lhsNonContracting := [0]
  rhsNonContracting := [1]
  lhsBatch := []
  rhsBatch := []
  wf := dot_S50000x100_S100x128_S50000x128_1_0_0_1_n_n_wf

class Facts : Prop extends Facts₀ where

variable [Facts]
-- ==== Proof.Spec.lean ====
/-
  The mathematics both programs compute, one row at a time, on the extended reals.

  A row of features goes through three dense layers with a rectified linear unit after each, a fourth dense
  layer, and a layer normalisation over the 128 output features: with h the fourth layer's output,
  mu = (sum_j h_j) / 128, var = (sum_j (h_j - mu)^2) / 128, the result is
  (h_j - mu) * (var + eps)^(-1/2) * g_j + be_j.

  The first layer acts on a row that is the concatenation of two (edge network) or three (node network) rows of
  128 features. A sum over the concatenated 256 or 384 features is the sum of the partial sums over each piece:
  addition on the extended reals is commutative and associative, so this needs no finiteness. The functions below
  take the first layer's pre-bias sums `z` as an argument, so that the two arrangements meet in one statement
  about `z`.
-/
import Idealize.ShloMosaic.PureOps.Ideal
import Idealize.ShloMosaic.Lib.ValueIdx
import Mathlib.Algebra.BigOperators.Fin

noncomputable section

namespace Cert.Spec

open Idealize.ShloMosaic

/-- The f32 words the two programs share, read at the ideal instance: 0, 128 and the normalisation's epsilon. -/
abbrev zeroW : EReal := Ideal.ofBits .f32 0x00000000#32
abbrev n128W : EReal := Ideal.ofBits .f32 0x43000000#32
abbrev epsW : EReal := Ideal.ofBits .f32 0x3727C5AC#32

/-- The rectified linear unit: the larger of `a` and the word 0. -/
def relu (a : EReal) : EReal := max a zeroW

/-- A dense layer on one row: `(sum_k a_k * w_{k j}) + b_j`. -/
def dense {K M : ℕ} (a : Fin K → EReal) (w : Fin K → Fin M → EReal) (b : Fin M → EReal) : Fin M → EReal :=
  fun j => (∑ k : Fin K, a k * w k j) + b j

/-- The mean of 128 features: their sum divided by the word 128. -/
def mean (h : Fin 128 → EReal) : EReal := Ideal.div (∑ j : Fin 128, h j) n128W

/-- Layer normalisation of one row of 128 features with scale `g` and shift `be`. -/
def layerNorm (h g be : Fin 128 → EReal) : Fin 128 → EReal :=
  fun j => (h j - mean h) * Ideal.rsqrt (mean (fun l => (h l - mean h) * (h l - mean h)) + epsW) * g j + be j

/-- Everything after the first layer's sums `z`: bias and unit, two more dense layers with their units, the
    fourth dense layer, the normalisation. -/
def tail (z b0 : Fin 100 → EReal) (w1 : Fin 100 → Fin 100 → EReal) (b1 : Fin 100 → EReal)
    (w2 : Fin 100 → Fin 100 → EReal) (b2 : Fin 100 → EReal) (w3 : Fin 100 → Fin 128 → EReal)
    (b3 g be : Fin 128 → EReal) : Fin 128 → EReal :=
  layerNorm
    (dense (fun n => relu (dense (fun n => relu (dense (fun n => relu (z n + b0 n)) w1 b1 n)) w2 b2 n)) w3 b3)
    g be

/-- The edge network on one row: the first layer's sums are the partial sums over the gathered node row `xr`
    and over the edge row `e`, each against its half of the first weight matrix. -/
def edgeRow (xr e : Fin 128 → EReal) (w0x w0e : Fin 128 → Fin 100 → EReal) (b0 : Fin 100 → EReal)
    (w1 : Fin 100 → Fin 100 → EReal) (b1 : Fin 100 → EReal) (w2 : Fin 100 → Fin 100 → EReal) (b2 : Fin 100 → EReal)
    (w3 : Fin 100 → Fin 128 → EReal) (b3 g be : Fin 128 → EReal) : Fin 128 → EReal :=
  tail (fun n => (∑ k : Fin 128, xr k * w0x k n) + ∑ k : Fin 128, e k * w0e k n) b0 w1 b1 w2 b2 w3 b3 g be

/-- The node network on one row, with the residual: the first layer's sums are the partial sums over the node row
    `x`, the aggregated messages `a` and the graph row `u`, each against its third of the first weight matrix. -/
def nodeRow (x a u : Fin 128 → EReal) (w0x w0a w0u : Fin 128 → Fin 100 → EReal) (b0 : Fin 100 → EReal)
    (w1 : Fin 100 → Fin 100 → EReal) (b1 : Fin 100 → EReal) (w2 : Fin 100 → Fin 100 → EReal) (b2 : Fin 100 → EReal)
    (w3 : Fin 100 → Fin 128 → EReal) (b3 g be : Fin 128 → EReal) : Fin 128 → EReal :=
  fun j => x j + tail (fun n => ((∑ k : Fin 128, x k * w0x k n) + ∑ k : Fin 128, a k * w0a k n)
      + ∑ k : Fin 128, u k * w0u k n) b0 w1 b1 w2 b2 w3 b3 g be j

/-- A sum over 256 = 128 + 128 indices is the sum over the first 128 plus the sum over the last 128. -/
theorem sum_256 (f : Fin 256 → EReal) :
    ∑ c : Fin 256, f c = (∑ k : Fin 128, f (Fin.castAdd 128 k)) + ∑ k : Fin 128, f (Fin.natAdd 128 k) :=
  Fin.sum_univ_add (a := 128) (b := 128) (f : Fin (128 + 128) → EReal)

/-- A sum over 384 = 128 + 128 + 128 indices splits into the sums over the three pieces, in order. -/
theorem sum_384 (f : Fin 384 → EReal) :
    ∑ c : Fin 384, f c = ((∑ k : Fin 128, f (Fin.castAdd 128 (Fin.castAdd 128 k)))
      + ∑ k : Fin 128, f (Fin.castAdd 128 (Fin.natAdd 128 k))) + ∑ k : Fin 128, f (Fin.natAdd 256 k) := by
  have h1 := Fin.sum_univ_add (a := 256) (b := 128) (f : Fin (256 + 128) → EReal)
  have h2 := Fin.sum_univ_add (a := 128) (b := 128) (fun k : Fin (128 + 128) => f (Fin.castAdd 128 k))
  exact h1.trans (congrArg (· + ∑ k : Fin 128, f (Fin.natAdd 256 k)) h2)

end Cert.Spec

end
-- ==== Proof.SpecArrays.lean ====
/-
  The two networks on whole arrays: row `i 0` of the result is the row function of row `i 0` of the row-indexed
  operands. The first weight matrix of each network is taken whole; its row blocks (rows 0–127, 128–255 and, for the
  node network, 256–383) are the pieces the row functions contract the two or three input rows against.
-/
import proofs.«403091_j49546742726708_1_alg».proof.Proof.Spec

noncomputable section

namespace Cert.Spec

open Idealize.ShloMosaic Idealize.ShloMosaic.ValueIdx

/-- An array of extended reals over a literal shape. -/
abbrev Arr1 (a : ℕ) : Type := (⟨1, ![a]⟩ : Shape).Idx → EReal
abbrev Arr2 (a b : ℕ) : Type := (⟨2, ![a, b]⟩ : Shape).Idx → EReal

/-- The messages: the edge network applied to every edge's gathered source row `xr` and feature row `e`. -/
def msgArr (xr e : Arr2 800000 128) (w0 : Arr2 256 100) (b0 : Arr1 100) (w1 : Arr2 100 100) (b1 : Arr1 100)
    (w2 : Arr2 100 100) (b2 : Arr1 100) (w3 : Arr2 100 128) (b3 g be : Arr1 128) : Arr2 800000 128 :=
  fun i => edgeRow (fun k => xr (ix2 (i 0) k)) (fun k => e (ix2 (i 0) k))
    (fun k n => w0 (ix2 (Fin.castAdd 128 k : Fin 256) n)) (fun k n => w0 (ix2 (Fin.natAdd 128 k : Fin 256) n))
    (fun n => b0 (ix1 n)) (fun k n => w1 (ix2 k n)) (fun n => b1 (ix1 n)) (fun k n => w2 (ix2 k n)) (fun n => b2 (ix1 n))
    (fun k n => w3 (ix2 k n)) (fun n => b3 (ix1 n)) (fun n => g (ix1 n)) (fun n => be (ix1 n)) (i 1)

/-- The result: the node network applied to every node's row `x`, aggregated messages `agg` and graph row `ub`,
    plus the node's row. -/
def outArr (x agg ub : Arr2 50000 128) (w0 : Arr2 384 100) (b0 : Arr1 100) (w1 : Arr2 100 100) (b1 : Arr1 100)
    (w2 : Arr2 100 100) (b2 : Arr1 100) (w3 : Arr2 100 128) (b3 g be : Arr1 128) : Arr2 50000 128 :=
  fun i => nodeRow (fun k => x (ix2 (i 0) k)) (fun k => agg (ix2 (i 0) k)) (fun k => ub (ix2 (i 0) k))
    (fun k n => w0 (ix2 (Fin.castAdd 128 (Fin.castAdd 128 k) : Fin 384) n))
    (fun k n => w0 (ix2 (Fin.castAdd 128 (Fin.natAdd 128 k) : Fin 384) n))
    (fun k n => w0 (ix2 (Fin.natAdd 256 k : Fin 384) n))
    (fun n => b0 (ix1 n)) (fun k n => w1 (ix2 k n)) (fun n => b1 (ix1 n)) (fun k n => w2 (ix2 k n)) (fun n => b2 (ix1 n))
    (fun k n => w3 (ix2 k n)) (fun n => b3 (ix1 n)) (fun n => g (ix1 n)) (fun n => be (ix1 n)) (i 1)

/-- The same two networks with the first weight matrix given as its row blocks, each block an array of its own
    (the form in which a program that cuts the matrix before the network runs presents them). -/
def edgeArrK (xr e : Arr2 800000 128) (w0x w0e : Arr2 128 100) (b0 : Arr1 100) (w1 : Arr2 100 100) (b1 : Arr1 100)
    (w2 : Arr2 100 100) (b2 : Arr1 100) (w3 : Arr2 100 128) (b3 g be : Arr1 128) : Arr2 800000 128 :=
  fun i => edgeRow (fun k => xr (ix2 (i 0) k)) (fun k => e (ix2 (i 0) k))
    (fun k n => w0x (ix2 k n)) (fun k n => w0e (ix2 k n))
    (fun n => b0 (ix1 n)) (fun k n => w1 (ix2 k n)) (fun n => b1 (ix1 n)) (fun k n => w2 (ix2 k n)) (fun n => b2 (ix1 n))
    (fun k n => w3 (ix2 k n)) (fun n => b3 (ix1 n)) (fun n => g (ix1 n)) (fun n => be (ix1 n)) (i 1)

def nodeArrK (x agg ub : Arr2 50000 128) (w0x w0a w0u : Arr2 128 100) (b0 : Arr1 100) (w1 : Arr2 100 100) (b1 : Arr1 100)
    (w2 : Arr2 100 100) (b2 : Arr1 100) (w3 : Arr2 100 128) (b3 g be : Arr1 128) : Arr2 50000 128 :=
  fun i => nodeRow (fun k => x (ix2 (i 0) k)) (fun k => agg (ix2 (i 0) k)) (fun k => ub (ix2 (i 0) k))
    (fun k n => w0x (ix2 k n)) (fun k n => w0a (ix2 k n)) (fun k n => w0u (ix2 k n))
    (fun n => b0 (ix1 n)) (fun k n => w1 (ix2 k n)) (fun n => b1 (ix1 n)) (fun k n => w2 (ix2 k n)) (fun n => b2 (ix1 n))
    (fun k n => w3 (ix2 k n)) (fun n => b3 (ix1 n)) (fun n => g (ix1 n)) (fun n => be (ix1 n)) (i 1)

/-- Equal operands give equal arrays (stated once, so that each operand's equation is used as a whole). -/
theorem edgeArrK_congr {xr xr' e e' : Arr2 800000 128} {w0x w0x' w0e w0e' : Arr2 128 100} {b0 b0' : Arr1 100}
    {w1 w1' : Arr2 100 100} {b1 b1' : Arr1 100} {w2 w2' : Arr2 100 100} {b2 b2' : Arr1 100} {w3 w3' : Arr2 100 128}
    {b3 b3' g g' be be' : Arr1 128}
    (h0 : xr = xr') (h1 : e = e') (h2 : w0x = w0x') (h3 : w0e = w0e') (h4 : b0 = b0') (h5 : w1 = w1') (h6 : b1 = b1')
    (h7 : w2 = w2') (h8 : b2 = b2') (h9 : w3 = w3') (h10 : b3 = b3') (h11 : g = g') (h12 : be = be') :
    edgeArrK xr e w0x w0e b0 w1 b1 w2 b2 w3 b3 g be = edgeArrK xr' e' w0x' w0e' b0' w1' b1' w2' b2' w3' b3' g' be' := by
  subst h0 h1 h2 h3 h4 h5 h6 h7 h8 h9 h10 h11 h12; rfl

theorem nodeArrK_congr {x x' agg agg' ub ub' : Arr2 50000 128} {w0x w0x' w0a w0a' w0u w0u' : Arr2 128 100} {b0 b0' : Arr1 100}
    {w1 w1' : Arr2 100 100} {b1 b1' : Arr1 100} {w2 w2' : Arr2 100 100} {b2 b2' : Arr1 100} {w3 w3' : Arr2 100 128}
    {b3 b3' g g' be be' : Arr1 128}
    (h0 : x = x') (h1 : agg = agg') (h2 : ub = ub') (h3 : w0x = w0x') (h4 : w0a = w0a') (h5 : w0u = w0u') (h6 : b0 = b0')
    (h7 : w1 = w1') (h8 : b1 = b1') (h9 : w2 = w2') (h10 : b2 = b2') (h11 : w3 = w3') (h12 : b3 = b3') (h13 : g = g')
    (h14 : be = be') :
    nodeArrK x agg ub w0x w0a w0u b0 w1 b1 w2 b2 w3 b3 g be
      = nodeArrK x' agg' ub' w0x' w0a' w0u' b0' w1' b1' w2' b2' w3' b3' g' be' := by
  subst h0 h1 h2 h3 h4 h5 h6 h7 h8 h9 h10 h11 h12 h13 h14; rfl

/-- Row blocks put back: if `w0x` and `w0e` are rows 0–127 and 128–255 of `w0`, the block form is the whole-matrix form. -/
theorem edgeArrK_blocks (xr e : Arr2 800000 128) (w0 : Arr2 256 100) (w0x w0e : Arr2 128 100)
    (hx : ∀ (k : Fin 128) (n : Fin 100), w0x (ix2 k n) = w0 (ix2 (Fin.castAdd 128 k : Fin 256) n))
    (he : ∀ (k : Fin 128) (n : Fin 100), w0e (ix2 k n) = w0 (ix2 (Fin.natAdd 128 k : Fin 256) n))
    (b0 : Arr1 100) (w1 : Arr2 100 100) (b1 : Arr1 100) (w2 : Arr2 100 100) (b2 : Arr1 100) (w3 : Arr2 100 128)
    (b3 g be : Arr1 128) :
    edgeArrK xr e w0x w0e b0 w1 b1 w2 b2 w3 b3 g be = msgArr xr e w0 b0 w1 b1 w2 b2 w3 b3 g be := by
  funext i
  simp only [edgeArrK, msgArr, hx, he]

/-- The same for the three row blocks 0–127, 128–255, 256–383 of the node network's first matrix. -/
theorem nodeArrK_blocks (x agg ub : Arr2 50000 128) (w0 : Arr2 384 100) (w0x w0a w0u : Arr2 128 100)
    (hx : ∀ (k : Fin 128) (n : Fin 100), w0x (ix2 k n) = w0 (ix2 (Fin.castAdd 128 (Fin.castAdd 128 k) : Fin 384) n))
    (ha : ∀ (k : Fin 128) (n : Fin 100), w0a (ix2 k n) = w0 (ix2 (Fin.castAdd 128 (Fin.natAdd 128 k) : Fin 384) n))
    (hu : ∀ (k : Fin 128) (n : Fin 100), w0u (ix2 k n) = w0 (ix2 (Fin.natAdd 256 k : Fin 384) n))
    (b0 : Arr1 100) (w1 : Arr2 100 100) (b1 : Arr1 100) (w2 : Arr2 100 100) (b2 : Arr1 100) (w3 : Arr2 100 128)
    (b3 g be : Arr1 128) :
    nodeArrK x agg ub w0x w0a w0u b0 w1 b1 w2 b2 w3 b3 g be = outArr x agg ub w0 b0 w1 b1 w2 b2 w3 b3 g be := by
  funext i
  simp only [nodeArrK, outArr, hx, ha, hu]

end Cert.Spec

end
-- ==== Proof.EdgeBlock.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgeBlock

open Cert.KernelIdeal Cert.KernelIdeal.Gen Idealize.ShloMosaic Idealize.ShloMosaic.ValueIdx

/-! # One block of the edge network, entry by entry

Each of the three products of the block is read at an entry (p, j) as the sum over the contracted coordinate of row p of the
left operand times column j of the right one; a bias row broadcast over the rows reads its feature, a per-row column
broadcast over the lanes reads its row, and a sum over the 128 lanes reads as a sum over the lane coordinate. With these the
third layer's pre-activation and then the stored, normalised fourth layer are read at an entry, and the whole-block store
read back gives the block as the row function `Spec.edgeRow` of row p of the inputs. -/

/-! ### The dot record S8000x128 × S128x100 → S8000x100: operand indices, and the product at an entry -/

theorem lhsIn_0 (i : S8000x100.Idx) (q : dot_S8000x128_S128x100_S8000x100_1_0_0_1_n_n.contr.Idx) :
    (dot_S8000x128_S128x100_S8000x100_1_0_0_1_n_n.lhsIdx i q 0).val = (i 0).val := by
  unfold DotDims.lhsIdx
  rw [dif_neg (show ¬(0 : Fin S8000x128.rank) ∈ dot_S8000x128_S128x100_S8000x100_1_0_0_1_n_n.lhsBatch by decide), dif_pos (show (0 : Fin S8000x128.rank) ∈ dot_S8000x128_S128x100_S8000x100_1_0_0_1_n_n.lhsNonContracting by decide)]
  rfl
theorem lhsIn_1 (i : S8000x100.Idx) (q : dot_S8000x128_S128x100_S8000x100_1_0_0_1_n_n.contr.Idx) :
    (dot_S8000x128_S128x100_S8000x100_1_0_0_1_n_n.lhsIdx i q 1).val = (q ⟨0, by decide⟩).val :=
  dot_S8000x128_S128x100_S8000x100_1_0_0_1_n_n.lhsIdx_val_of_single rfl i q
theorem rhsIn_0 (i : S8000x100.Idx) (q : dot_S8000x128_S128x100_S8000x100_1_0_0_1_n_n.contr.Idx) :
    (dot_S8000x128_S128x100_S8000x100_1_0_0_1_n_n.rhsIdx i q 0).val = (q ⟨0, by decide⟩).val :=
  dot_S8000x128_S128x100_S8000x100_1_0_0_1_n_n.rhsIdx_val_of_single rfl i q
theorem rhsIn_1 (i : S8000x100.Idx) (q : dot_S8000x128_S128x100_S8000x100_1_0_0_1_n_n.contr.Idx) :
    (dot_S8000x128_S128x100_S8000x100_1_0_0_1_n_n.rhsIdx i q 1).val = (i 1).val := by
  unfold DotDims.rhsIdx
  rw [dif_neg (show ¬(1 : Fin S128x100.rank) ∈ dot_S8000x128_S128x100_S8000x100_1_0_0_1_n_n.rhsBatch by decide), dif_pos (show (1 : Fin S128x100.rank) ∈ dot_S8000x128_S128x100_S8000x100_1_0_0_1_n_n.rhsNonContracting by decide)]
  rfl

/-- The product into a zero accumulator, at entry (p, j): the sum over the 128 contracted coordinates of the left
    operand's row p times the right operand's column j. -/
theorem matmulIn_apply {φ₁ φ₂ : FTy} (a : FVec Ideal S8000x128 φ₁) (w : FVec Ideal S128x100 φ₂) (p : Fin 8000) (j : Fin 100) :
    matmul dot_S8000x128_S128x100_S8000x100_1_0_0_1_n_n none a w (constant (F := Ideal) S8000x100 .f32 0x00000000#32) (ix2 p j)
      = ∑ k : Fin 128, a (ix2 p k) * w (ix2 k j) := by
  simp only [matmul]
  rw [Ideal.matmul_constant_zero_apply, ← Equiv.sum_comp (contrEquiv1 dot_S8000x128_S128x100_S8000x100_1_0_0_1_n_n 128 rfl rfl).symm]
  refine Finset.sum_congr rfl fun k _ => ?_
  have hk := contrEquiv1_symm_val dot_S8000x128_S128x100_S8000x100_1_0_0_1_n_n 128 rfl rfl k
  have el : dot_S8000x128_S128x100_S8000x100_1_0_0_1_n_n.lhsIdx (ix2 p j) ((contrEquiv1 dot_S8000x128_S128x100_S8000x100_1_0_0_1_n_n 128 rfl rfl).symm k) = ix2 p k := funext fun a => Fin.ext (by
    match a with
    | ⟨0, _⟩ => exact lhsIn_0 _ _
    | ⟨1, _⟩ => exact (lhsIn_1 _ _).trans hk)
  have er : dot_S8000x128_S128x100_S8000x100_1_0_0_1_n_n.rhsIdx (ix2 p j) ((contrEquiv1 dot_S8000x128_S128x100_S8000x100_1_0_0_1_n_n 128 rfl rfl).symm k) = ix2 k j := funext fun a => Fin.ext (by
    match a with
    | ⟨0, _⟩ => exact (rhsIn_0 _ _).trans hk
    | ⟨1, _⟩ => exact rhsIn_1 _ _)
  rw [el, er]

/-! ### The dot record S8000x100 × S100x100 → S8000x100: operand indices, and the product at an entry -/

theorem lhsMid_0 (i : S8000x100.Idx) (q : dot_S8000x100_S100x100_S8000x100_1_0_0_1_n_n.contr.Idx) :
    (dot_S8000x100_S100x100_S8000x100_1_0_0_1_n_n.lhsIdx i q 0).val = (i 0).val := by
  unfold DotDims.lhsIdx
  rw [dif_neg (show ¬(0 : Fin S8000x100.rank) ∈ dot_S8000x100_S100x100_S8000x100_1_0_0_1_n_n.lhsBatch by decide), dif_pos (show (0 : Fin S8000x100.rank) ∈ dot_S8000x100_S100x100_S8000x100_1_0_0_1_n_n.lhsNonContracting by decide)]
  rfl
theorem lhsMid_1 (i : S8000x100.Idx) (q : dot_S8000x100_S100x100_S8000x100_1_0_0_1_n_n.contr.Idx) :
    (dot_S8000x100_S100x100_S8000x100_1_0_0_1_n_n.lhsIdx i q 1).val = (q ⟨0, by decide⟩).val :=
  dot_S8000x100_S100x100_S8000x100_1_0_0_1_n_n.lhsIdx_val_of_single rfl i q
theorem rhsMid_0 (i : S8000x100.Idx) (q : dot_S8000x100_S100x100_S8000x100_1_0_0_1_n_n.contr.Idx) :
    (dot_S8000x100_S100x100_S8000x100_1_0_0_1_n_n.rhsIdx i q 0).val = (q ⟨0, by decide⟩).val :=
  dot_S8000x100_S100x100_S8000x100_1_0_0_1_n_n.rhsIdx_val_of_single rfl i q
theorem rhsMid_1 (i : S8000x100.Idx) (q : dot_S8000x100_S100x100_S8000x100_1_0_0_1_n_n.contr.Idx) :
    (dot_S8000x100_S100x100_S8000x100_1_0_0_1_n_n.rhsIdx i q 1).val = (i 1).val := by
  unfold DotDims.rhsIdx
  rw [dif_neg (show ¬(1 : Fin S100x100.rank) ∈ dot_S8000x100_S100x100_S8000x100_1_0_0_1_n_n.rhsBatch by decide), dif_pos (show (1 : Fin S100x100.rank) ∈ dot_S8000x100_S100x100_S8000x100_1_0_0_1_n_n.rhsNonContracting by decide)]
  rfl

/-- The product into a zero accumulator, at entry (p, j): the sum over the 100 contracted coordinates of the left
    operand's row p times the right operand's column j. -/
theorem matmulMid_apply {φ₁ φ₂ : FTy} (a : FVec Ideal S8000x100 φ₁) (w : FVec Ideal S100x100 φ₂) (p : Fin 8000) (j : Fin 100) :
    matmul dot_S8000x100_S100x100_S8000x100_1_0_0_1_n_n none a w (constant (F := Ideal) S8000x100 .f32 0x00000000#32) (ix2 p j)
      = ∑ k : Fin 100, a (ix2 p k) * w (ix2 k j) := by
  simp only [matmul]
  rw [Ideal.matmul_constant_zero_apply, ← Equiv.sum_comp (contrEquiv1 dot_S8000x100_S100x100_S8000x100_1_0_0_1_n_n 100 rfl rfl).symm]
  refine Finset.sum_congr rfl fun k _ => ?_
  have hk := contrEquiv1_symm_val dot_S8000x100_S100x100_S8000x100_1_0_0_1_n_n 100 rfl rfl k
  have el : dot_S8000x100_S100x100_S8000x100_1_0_0_1_n_n.lhsIdx (ix2 p j) ((contrEquiv1 dot_S8000x100_S100x100_S8000x100_1_0_0_1_n_n 100 rfl rfl).symm k) = ix2 p k := funext fun a => Fin.ext (by
    match a with
    | ⟨0, _⟩ => exact lhsMid_0 _ _
    | ⟨1, _⟩ => exact (lhsMid_1 _ _).trans hk)
  have er : dot_S8000x100_S100x100_S8000x100_1_0_0_1_n_n.rhsIdx (ix2 p j) ((contrEquiv1 dot_S8000x100_S100x100_S8000x100_1_0_0_1_n_n 100 rfl rfl).symm k) = ix2 k j := funext fun a => Fin.ext (by
    match a with
    | ⟨0, _⟩ => exact (rhsMid_0 _ _).trans hk
    | ⟨1, _⟩ => exact rhsMid_1 _ _)
  rw [el, er]

/-! ### The dot record S8000x100 × S100x128 → S8000x128: operand indices, and the product at an entry -/

theorem lhsOut_0 (i : S8000x128.Idx) (q : dot_S8000x100_S100x128_S8000x128_1_0_0_1_n_n.contr.Idx) :
    (dot_S8000x100_S100x128_S8000x128_1_0_0_1_n_n.lhsIdx i q 0).val = (i 0).val := by
  unfold DotDims.lhsIdx
  rw [dif_neg (show ¬(0 : Fin S8000x100.rank) ∈ dot_S8000x100_S100x128_S8000x128_1_0_0_1_n_n.lhsBatch by decide), dif_pos (show (0 : Fin S8000x100.rank) ∈ dot_S8000x100_S100x128_S8000x128_1_0_0_1_n_n.lhsNonContracting by decide)]
  rfl
theorem lhsOut_1 (i : S8000x128.Idx) (q : dot_S8000x100_S100x128_S8000x128_1_0_0_1_n_n.contr.Idx) :
    (dot_S8000x100_S100x128_S8000x128_1_0_0_1_n_n.lhsIdx i q 1).val = (q ⟨0, by decide⟩).val :=
  dot_S8000x100_S100x128_S8000x128_1_0_0_1_n_n.lhsIdx_val_of_single rfl i q
theorem rhsOut_0 (i : S8000x128.Idx) (q : dot_S8000x100_S100x128_S8000x128_1_0_0_1_n_n.contr.Idx) :
    (dot_S8000x100_S100x128_S8000x128_1_0_0_1_n_n.rhsIdx i q 0).val = (q ⟨0, by decide⟩).val :=
  dot_S8000x100_S100x128_S8000x128_1_0_0_1_n_n.rhsIdx_val_of_single rfl i q
theorem rhsOut_1 (i : S8000x128.Idx) (q : dot_S8000x100_S100x128_S8000x128_1_0_0_1_n_n.contr.Idx) :
    (dot_S8000x100_S100x128_S8000x128_1_0_0_1_n_n.rhsIdx i q 1).val = (i 1).val := by
  unfold DotDims.rhsIdx
  rw [dif_neg (show ¬(1 : Fin S100x128.rank) ∈ dot_S8000x100_S100x128_S8000x128_1_0_0_1_n_n.rhsBatch by decide), dif_pos (show (1 : Fin S100x128.rank) ∈ dot_S8000x100_S100x128_S8000x128_1_0_0_1_n_n.rhsNonContracting by decide)]
  rfl

/-- The product into a zero accumulator, at entry (p, j): the sum over the 100 contracted coordinates of the left
    operand's row p times the right operand's column j. -/
theorem matmulOut_apply {φ₁ φ₂ : FTy} (a : FVec Ideal S8000x100 φ₁) (w : FVec Ideal S100x128 φ₂) (p : Fin 8000) (j : Fin 128) :
    matmul dot_S8000x100_S100x128_S8000x128_1_0_0_1_n_n none a w (constant (F := Ideal) S8000x128 .f32 0x00000000#32) (ix2 p j)
      = ∑ k : Fin 100, a (ix2 p k) * w (ix2 k j) := by
  simp only [matmul]
  rw [Ideal.matmul_constant_zero_apply, ← Equiv.sum_comp (contrEquiv1 dot_S8000x100_S100x128_S8000x128_1_0_0_1_n_n 100 rfl rfl).symm]
  refine Finset.sum_congr rfl fun k _ => ?_
  have hk := contrEquiv1_symm_val dot_S8000x100_S100x128_S8000x128_1_0_0_1_n_n 100 rfl rfl k
  have el : dot_S8000x100_S100x128_S8000x128_1_0_0_1_n_n.lhsIdx (ix2 p j) ((contrEquiv1 dot_S8000x100_S100x128_S8000x128_1_0_0_1_n_n 100 rfl rfl).symm k) = ix2 p k := funext fun a => Fin.ext (by
    match a with
    | ⟨0, _⟩ => exact lhsOut_0 _ _
    | ⟨1, _⟩ => exact (lhsOut_1 _ _).trans hk)
  have er : dot_S8000x100_S100x128_S8000x128_1_0_0_1_n_n.rhsIdx (ix2 p j) ((contrEquiv1 dot_S8000x100_S100x128_S8000x128_1_0_0_1_n_n 100 rfl rfl).symm k) = ix2 k j := funext fun a => Fin.ext (by
    match a with
    | ⟨0, _⟩ => exact (rhsOut_0 _ _).trans hk
    | ⟨1, _⟩ => exact rhsOut_1 _ _)
  rw [el, er]

/-! ### Layout operations read at an entry -/

section Layout
variable {α : Type}

/-- A row of `b` features cast to `[1, b]` and broadcast over `a` rows reads, at (p, c), the row's feature c. -/
theorem rowBroadcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- An `[a]` array cast to the column `[a, 1]` reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reciprocal square root of a vector, read at an index, is that of the element. -/
theorem rsqrt_apply {s : Shape} {φ : FTy} (x : FVec Ideal s φ) (i : s.Idx) : rsqrt x i = Ideal.rsqrt (x i) := rfl

/-- The sum over the 128 lanes of a block, read at row p. -/
theorem laneSum_apply (src : FVec Ideal S8000x128 .f32) (h : S8000x128.Reduces [1] S8000)
    (hφ : FTy.f32 = FTy.f32 ∨ FTy.f32 = FTy.bf16) (hacc : (0x00000000#32 : BitVec FTy.f32.bits) = 0x00000000#32) (p : Fin 8000) :
    multiReduction .add [1] S8000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src (funext fun c => Fin.ext ?_)
  match c with
  | ⟨0, _⟩ => rfl
  | ⟨1, _⟩ => rfl

/-! ### The stored payload at an entry -/

/-- The stored payload at (p, q), for any third-layer pre-activation block `v36`: the rectified row p of `v36`
    through the fourth dense layer, then normalised over the 128 lanes. -/
theorem pay1_apply (v36 : FVec Ideal S8000x100 .f32) (x9 : Vec Ideal S100x128 .f32) (x10 x11 x12 : Vec Ideal S128 .f32)
    (p : Fin 8000) (q : Fin 128) :
    k0_pay1 (F := Ideal) v36 (Scalar.ofBits .f32 0x00000000#32) x9 x10 x11 x12 (ix2 p q)
      = Cert.Spec.layerNorm
          (Cert.Spec.dense (fun n => Cert.Spec.relu (v36 (ix2 p n))) (fun k n => x9 (ix2 k n)) (fun n => x10 (ix1 n)))
          (fun n => x11 (ix1 n)) (fun n => x12 (ix1 n)) q := by
  unfold k0_pay1
  simp only [addf_apply, mulf_apply, subf_apply, divf_apply, rsqrt_apply, maximumf_apply, truncf_apply, broadcast_apply,
    rowBroadcast_apply, broadcastTo_a1_ab_apply, shapeCast_a_a1_apply, matmulOut_apply]
  rw [laneSum_apply, laneSum_apply]
  simp only [addf_apply, mulf_apply, subf_apply, divf_apply, rsqrt_apply, maximumf_apply, truncf_apply, broadcast_apply,
    rowBroadcast_apply, broadcastTo_a1_ab_apply, shapeCast_a_a1_apply, matmulOut_apply]
  rw [laneSum_apply]
  simp only [addf_apply, mulf_apply, subf_apply, divf_apply, rsqrt_apply, maximumf_apply, truncf_apply, broadcast_apply,
    rowBroadcast_apply, broadcastTo_a1_ab_apply, shapeCast_a_a1_apply, matmulOut_apply]
  rfl

/-- The third layer's pre-activation at (p, n): the two first-layer products of row p added, bias and unit, the second
    dense layer and unit, the third dense layer. -/
theorem pay2_apply (x0 : Vec Ideal S8000x128 .bf16) (x1 : Vec Ideal S8000x128 .f32) (x2 x3 : Vec Ideal S128x100 .f32)
    (x4 : Vec Ideal S100 .f32) (x5 : Vec Ideal S100x100 .f32) (x6 : Vec Ideal S100 .f32) (x7 : Vec Ideal S100x100 .f32)
    (x8 : Vec Ideal S100 .f32) (p : Fin 8000) (n : Fin 100) :
    k0_pay2 (F := Ideal) x0 x1 x2 x3 x4 x5 x6 x7 x8 (ix2 p n)
      = Cert.Spec.dense (fun m => Cert.Spec.relu (Cert.Spec.dense (fun l => Cert.Spec.relu
            (((∑ k : Fin 128, x0 (ix2 p k) * x2 (ix2 k l)) + ∑ k : Fin 128, x1 (ix2 p k) * x3 (ix2 k l)) + x4 (ix1 l)))
          (fun k n => x5 (ix2 k n)) (fun n => x6 (ix1 n)) m)) (fun k n => x7 (ix2 k n)) (fun n => x8 (ix1 n)) n := by
  unfold k0_pay2
  simp only [shapeCast_self, addf_apply, maximumf_apply, truncf_apply, broadcast_apply, rowBroadcast_apply,
    matmulIn_apply, matmulMid_apply]
  rfl

/-! ### The block -/

/-- A whole-block access of a rank-2 buffer starts at the origin … -/
theorem origin2 : (![0, 0] : Fin 2 → Nat) = fun _ => 0 :=
  funext fun a => by match a with | ⟨0, _⟩ => rfl | ⟨1, _⟩ => rfl
/-- … and so does one of a rank-1 buffer. -/
theorem origin1 : (![0] : Fin 1 → Nat) = fun _ => 0 :=
  funext fun a => by match a with | ⟨0, _⟩ => rfl

/-- One block of the edge network's output, entry by entry: row `p` of the block depends only on row `p` of the two
    input blocks, through the row function `Spec.edgeRow`. -/
theorem block_apply (x0 : Vec Ideal S8000x128 .bf16) (x1 : Vec Ideal S8000x128 .f32) (x2 x3 : Vec Ideal S128x100 .f32)
    (x4 : Vec Ideal S100 .f32) (x5 : Vec Ideal S100x100 .f32) (x6 : Vec Ideal S100 .f32) (x7 : Vec Ideal S100x100 .f32)
    (x8 : Vec Ideal S100 .f32) (x9 : Vec Ideal S100x128 .f32) (x10 x11 x12 : Vec Ideal S128 .f32)
    (p : Fin 8000) (q : Fin 128) :
    out0_13 (F := Ideal) x0 x1 x2 x3 x4 x5 x6 x7 x8 x9 x10 x11 x12 (ix2 p q)
      = Cert.Spec.edgeRow (fun k => x0 (ix2 p k)) (fun k => x1 (ix2 p k)) (fun k n => x2 (ix2 k n)) (fun k n => x3 (ix2 k n))
          (fun n => x4 (ix1 n)) (fun k n => x5 (ix2 k n)) (fun n => x6 (ix1 n)) (fun k n => x7 (ix2 k n)) (fun n => x8 (ix1 n))
          (fun k n => x9 (ix2 k n)) (fun n => x10 (ix1 n)) (fun n => x11 (ix1 n)) (fun n => x12 (ix1 n)) q := by
  unfold out0_13
  rw [View.canon_unit_zero origin2]
  simp only [View.ld_unit_zero (S := S8000x128) origin2, View.ld_unit_zero (S := S128x100) origin2,
    View.ld_unit_zero (S := S100x100) origin2, View.ld_unit_zero (S := S100x128) origin2,
    View.ld_unit_zero (S := S100) origin1, View.ld_unit_zero (S := S128) origin1]
  rw [pay1_apply]
  simp only [pay2_apply]
  rfl

end Cert.KernelIdeal.EdgeBlock

end
-- ==== Proof.EdgeArray.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«403091_j49546742726708_1_alg».proof.Proof.EdgeBlock

noncomputable section

namespace Cert.KernelIdeal.EdgeArray

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The array the edge network leaves: entry (r, j) is feature j of the row function of row r of the two row inputs and of
    the weight arrays. -/
abbrev edgeOut (c : Dev nD) : S800000x128.Idx → EReal := fun i =>
  Cert.Spec.edgeRow (fun k => (V c main_v5 : S800000x128.Idx → EReal) (ix2 (i 0) k))
    (fun k => (V c main_arg2 : S800000x128.Idx → EReal) (ix2 (i 0) k))
    (fun k n => (V c main_v6 : S128x100.Idx → EReal) (ix2 k n)) (fun k n => (V c main_v7 : S128x100.Idx → EReal) (ix2 k n))
    (fun n => (V c main_arg6 : S100.Idx → EReal) (ix1 n)) (fun k n => (V c main_arg7 : S100x100.Idx → EReal) (ix2 k n))
    (fun n => (V c main_arg8 : S100.Idx → EReal) (ix1 n)) (fun k n => (V c main_arg9 : S100x100.Idx → EReal) (ix2 k n))
    (fun n => (V c main_arg10 : S100.Idx → EReal) (ix1 n)) (fun k n => (V c main_arg11 : S100x128.Idx → EReal) (ix2 k n))
    (fun n => (V c main_arg12 : S128.Idx → EReal) (ix1 n)) (fun n => (V c main_arg13 : S128.Idx → EReal) (ix1 n))
    (fun n => (V c main_arg14 : S128.Idx → EReal) (ix1 n)) (i 1)

/-- The block index of every window at grid point t, decided over the 100 points: the output and the two row inputs are at
    block (t, 0); every weight window is at block 0 on every axis. -/
theorem block_index : ∀ t : Fin cfg0.N,
    win0_13.index t (0 : Fin 2) = t.val ∧ win0_13.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 1) = 0
    ∧ win0_12.index t (0 : Fin 1) = 0 :=
  (by decide +kernel : ∀ t : Fin grid0.N, _)

/-- Row p of point t's block of the gathered node rows is row 8000 t + p of the array. -/
theorem xr_block (c : Dev nD) (t : Fin cfg0.N) (p : Fin 8000) (k : Fin 128) (r : Fin 800000) (hr : r.val = t.val * 8000 + p.val) :
    (iblk0 (F := Ideal) V c 0 t : Vec Ideal S8000x128 .bf16) (ix2 p k) = (V c main_v5 : S800000x128.Idx → EReal) (ix2 r k) := by
  obtain ⟨-, -, e0, e1, -⟩ := block_index t
  show (V c main_v5 : S800000x128.Idx → EReal) (((cfg0.win 0).blk t).view.emb (ix2 p k)) = _
  refine congrArg _ ?_
  funext a; apply Fin.ext
  match a with
  | ⟨0, _⟩ => show win0_0.index t (0 : Fin 2) * 8000 + 1 * p.val = r.val; omega
  | ⟨1, _⟩ => show win0_0.index t (1 : Fin 2) * 128 + 1 * k.val = k.val; omega

/-- Row p of point t's block of the edge rows is row 8000 t + p of the array. -/
theorem e_block (c : Dev nD) (t : Fin cfg0.N) (p : Fin 8000) (k : Fin 128) (r : Fin 800000) (hr : r.val = t.val * 8000 + p.val) :
    (iblk0 (F := Ideal) V c 1 t : Vec Ideal S8000x128 .f32) (ix2 p k) = (V c main_arg2 : S800000x128.Idx → EReal) (ix2 r k) := by
  obtain ⟨-, -, -, -, e0, e1, -⟩ := block_index t
  show (V c main_arg2 : S800000x128.Idx → EReal) (((cfg0.win 1).blk t).view.emb (ix2 p k)) = _
  refine congrArg _ ?_
  funext a; apply Fin.ext
  match a with
  | ⟨0, _⟩ => show win0_1.index t (0 : Fin 2) * 8000 + 1 * p.val = r.val; omega
  | ⟨1, _⟩ => show win0_1.index t (1 : Fin 2) * 128 + 1 * k.val = k.val; omega

/-- At every point the block of the node half of the first weight matrix is the whole array. -/
theorem w0x_block (c : Dev nD) (t : Fin cfg0.N) :
    (iblk0 (F := Ideal) V c 2 t : Vec Ideal S128x100 .f32) = (V c main_v6 : S128x100.Idx → EReal) := by
  obtain ⟨-, -, -, -, -, -, e0, e1, -⟩ := block_index t
  funext y
  show (V c main_v6 : S128x100.Idx → EReal) (((cfg0.win 2).blk t).view.emb y) = _
  refine congrArg _ ?_
  funext a; apply Fin.ext
  match a with
  | ⟨0, _⟩ => show win0_2.index t (0 : Fin 2) * 128 + 1 * (y 0).val = (y 0).val; omega
  | ⟨1, _⟩ => show win0_2.index t (1 : Fin 2) * 100 + 1 * (y 1).val = (y 1).val; omega

/-- At every point the block of the edge half of the first weight matrix is the whole array. -/
theorem w0e_block (c : Dev nD) (t : Fin cfg0.N) :
    (iblk0 (F := Ideal) V c 3 t : Vec Ideal S128x100 .f32) = (V c main_v7 : S128x100.Idx → EReal) := by
  obtain ⟨-, -, -, -, -, -, -, -, e0, e1, -⟩ := block_index t
  funext y
  show (V c main_v7 : S128x100.Idx → EReal) (((cfg0.win 3).blk t).view.emb y) = _
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 100 + 1 * (y 1).val = (y 1).val; omega

/-- At every point the block of the first bias is the whole array. -/
theorem b0_block (c : Dev nD) (t : Fin cfg0.N) :
    (iblk0 (F := Ideal) V c 4 t : Vec Ideal S100 .f32) = (V c main_arg6 : S100.Idx → EReal) := by
  obtain ⟨-, -, -, -, -, -, -, -, -, -, e0, -⟩ := block_index t
  funext y
  show (V c main_arg6 : S100.Idx → EReal) (((cfg0.win 4).blk t).view.emb y) = _
  refine congrArg _ ?_
  funext a; apply Fin.ext
  match a with
  | ⟨0, _⟩ => show win0_4.index t (0 : Fin 1) * 100 + 1 * (y 0).val = (y 0).val; omega

/-- At every point the block of the second weight matrix is the whole array. -/
theorem w1_block (c : Dev nD) (t : Fin cfg0.N) :
    (iblk0 (F := Ideal) V c 5 t : Vec Ideal S100x100 .f32) = (V c main_arg7 : S100x100.Idx → EReal) := by
  obtain ⟨-, -, -, -, -, -, -, -, -, -, -, e0, e1, -⟩ := block_index t
  funext y
  show (V c main_arg7 : S100x100.Idx → EReal) (((cfg0.win 5).blk t).view.emb y) = _
  refine congrArg _ ?_
  funext a; apply Fin.ext
  match a with
  | ⟨0, _⟩ => show win0_5.index t (0 : Fin 2) * 100 + 1 * (y 0).val = (y 0).val; omega
  | ⟨1, _⟩ => show win0_5.index t (1 : Fin 2) * 100 + 1 * (y 1).val = (y 1).val; omega

/-- At every point the block of the second bias is the whole array. -/
theorem b1_block (c : Dev nD) (t : Fin cfg0.N) :
    (iblk0 (F := Ideal) V c 6 t : Vec Ideal S100 .f32) = (V c main_arg8 : S100.Idx → EReal) := by
  obtain ⟨-, -, -, -, -, -, -, -, -, -, -, -, -, e0, -⟩ := block_index t
  funext y
  show (V c main_arg8 : S100.Idx → EReal) (((cfg0.win 6).blk t).view.emb y) = _
  refine congrArg _ ?_
  funext a; apply Fin.ext
  match a with
  | ⟨0, _⟩ => show win0_6.index t (0 : Fin 1) * 100 + 1 * (y 0).val = (y 0).val; omega

/-- At every point the block of the third weight matrix is the whole array. -/
theorem w2_block (c : Dev nD) (t : Fin cfg0.N) :
    (iblk0 (F := Ideal) V c 7 t : Vec Ideal S100x100 .f32) = (V c main_arg9 : S100x100.Idx → EReal) := by
  obtain ⟨-, -, -, -, -, -, -, -, -, -, -, -, -, -, e0, e1, -⟩ := block_index t
  funext y
  show (V c main_arg9 : S100x100.Idx → EReal) (((cfg0.win 7).blk t).view.emb y) = _
  refine congrArg _ ?_
  funext a; apply Fin.ext
  match a with
  | ⟨0, _⟩ => show win0_7.index t (0 : Fin 2) * 100 + 1 * (y 0).val = (y 0).val; omega
  | ⟨1, _⟩ => show win0_7.index t (1 : Fin 2) * 100 + 1 * (y 1).val = (y 1).val; omega

/-- At every point the block of the third bias is the whole array. -/
theorem b2_block (c : Dev nD) (t : Fin cfg0.N) :
    (iblk0 (F := Ideal) V c 8 t : Vec Ideal S100 .f32) = (V c main_arg10 : S100.Idx → EReal) := by
  obtain ⟨-, -, -, -, -, -, -, -, -, -, -, -, -, -, -, -, e0, -⟩ := block_index t
  funext y
  show (V c main_arg10 : S100.Idx → EReal) (((cfg0.win 8).blk t).view.emb y) = _
  refine congrArg _ ?_
  funext a; apply Fin.ext
  match a with
  | ⟨0, _⟩ => show win0_8.index t (0 : Fin 1) * 100 + 1 * (y 0).val = (y 0).val; omega

/-- At every point the block of the fourth weight matrix is the whole array. -/
theorem w3_block (c : Dev nD) (t : Fin cfg0.N) :
    (iblk0 (F := Ideal) V c 9 t : Vec Ideal S100x128 .f32) = (V c main_arg11 : S100x128.Idx → EReal) := by
  obtain ⟨-, -, -, -, -, -, -, -, -, -, -, -, -, -, -, -, -, e0, e1, -⟩ := block_index t
  funext y
  show (V c main_arg11 : S100x128.Idx → EReal) (((cfg0.win 9).blk t).view.emb y) = _
  refine congrArg _ ?_
  funext a; apply Fin.ext
  match a with
  | ⟨0, _⟩ => show win0_9.index t (0 : Fin 2) * 100 + 1 * (y 0).val = (y 0).val; omega
  | ⟨1, _⟩ => show win0_9.index t (1 : Fin 2) * 128 + 1 * (y 1).val = (y 1).val; omega

/-- At every point the block of the fourth bias is the whole array. -/
theorem b3_block (c : Dev nD) (t : Fin cfg0.N) :
    (iblk0 (F := Ideal) V c 10 t : Vec Ideal S128 .f32) = (V c main_arg12 : S128.Idx → EReal) := by
  obtain ⟨-, -, -, -, -, -, -, -, -, -, -, -, -, -, -, -, -, -, -, e0, -⟩ := block_index t
  funext y
  show (V c main_arg12 : S128.Idx → EReal) (((cfg0.win 10).blk t).view.emb y) = _
  refine congrArg _ ?_
  funext a; apply Fin.ext
  match a with
  | ⟨0, _⟩ => show win0_10.index t (0 : Fin 1) * 128 + 1 * (y 0).val = (y 0).val; omega

/-- At every point the block of the normalisation's scale is the whole array. -/
theorem g_block (c : Dev nD) (t : Fin cfg0.N) :
    (iblk0 (F := Ideal) V c 11 t : Vec Ideal S128 .f32) = (V c main_arg13 : S128.Idx → EReal) := by
  obtain ⟨-, -, -, -, -, -, -, -, -, -, -, -, -, -, -, -, -, -, -, -, e0, -⟩ := block_index t
  funext y
  show (V c main_arg13 : S128.Idx → EReal) (((cfg0.win 11).blk t).view.emb y) = _
  refine congrArg _ ?_
  funext a; apply Fin.ext
  match a with
  | ⟨0, _⟩ => show win0_11.index t (0 : Fin 1) * 128 + 1 * (y 0).val = (y 0).val; omega

/-- At every point the block of the normalisation's shift is the whole array. -/
theorem be_block (c : Dev nD) (t : Fin cfg0.N) :
    (iblk0 (F := Ideal) V c 12 t : Vec Ideal S128 .f32) = (V c main_arg14 : S128.Idx → EReal) := by
  obtain ⟨-, -, -, -, -, -, -, -, -, -, -, -, -, -, -, -, -, -, -, -, -, e0⟩ := block_index t
  funext y
  show (V c main_arg14 : S128.Idx → EReal) (((cfg0.win 12).blk t).view.emb y) = _
  refine congrArg _ ?_
  funext a; apply Fin.ext
  match a with
  | ⟨0, _⟩ => show win0_12.index t (0 : Fin 1) * 128 + 1 * (y 0).val = (y 0).val; omega

/-- One entry of what the body leaves, from blocks whose row p holds row r of the two row arrays: feature q of the row
    function of that row. -/
theorem row_of_blocks (x0 : Vec Ideal S8000x128 .bf16) (x1 : Vec Ideal S8000x128 .f32) (x2 x3 : Vec Ideal S128x100 .f32) (x4 : Vec Ideal S100 .f32) (x5 : Vec Ideal S100x100 .f32) (x6 : Vec Ideal S100 .f32) (x7 : Vec Ideal S100x100 .f32) (x8 : Vec Ideal S100 .f32) (x9 : Vec Ideal S100x128 .f32) (x10 x11 x12 : Vec Ideal S128 .f32)
    (A0 A1 : S800000x128.Idx → EReal) (p : Fin 8000) (q : Fin 128) (r : Fin 800000)
    (h0 : ∀ k : Fin 128, x0 (ix2 p k) = A0 (ix2 r k)) (h1 : ∀ k : Fin 128, x1 (ix2 p k) = A1 (ix2 r k)) :
    out0_13 (F := Ideal) x0 x1 x2 x3 x4 x5 x6 x7 x8 x9 x10 x11 x12 (ix2 p q)
      = Cert.Spec.edgeRow (fun k => A0 (ix2 r k)) (fun k => A1 (ix2 r k)) (fun k n => x2 (ix2 k n)) (fun k n => x3 (ix2 k n))
          (fun n => x4 (ix1 n)) (fun k n => x5 (ix2 k n)) (fun n => x6 (ix1 n)) (fun k n => x7 (ix2 k n)) (fun n => x8 (ix1 n))
          (fun k n => x9 (ix2 k n)) (fun n => x10 (ix1 n)) (fun n => x11 (ix1 n)) (fun n => x12 (ix1 n)) q := by
  rw [EdgeBlock.block_apply, funext h0, funext h1]

/-- What point t writes back is its block of the array of row functions. -/
theorem flushed_eq (c : Dev nD) (t : Fin cfg0.N) :
    (dat0 (F := Ideal) V c).flushed 13 t = ((cfg0.win 13).blk t).view.read (Elt Ideal) (edgeOut V c) := by
  show (cfg0.win 13).cut (grid0.coords t) ((dat0 (F := Ideal) V c).after 13 t) = _
  rw [after0_13]
  funext y
  obtain ⟨p, q, rfl⟩ : ∃ (p : Fin 8000) (q : Fin 128), y = ix2 p q := ⟨y 0, y 1, eq_ix2 y⟩
  have hN : cfg0.N = 100 := N_0
  have ht : t.val < 100 := hN ▸ t.isLt
  have hp : p.val < 8000 := p.isLt
  have hr : t.val * 8000 + p.val < 800000 := by omega
  obtain ⟨e0, e1, -⟩ := block_index t
  have hemb : ((cfg0.win 13).blk t).view.emb (ix2 p q) = ix2 (⟨t.val * 8000 + p.val, hr⟩ : Fin 800000) q := by
    funext a; apply Fin.ext
    match a with
    | ⟨0, _⟩ => show win0_13.index t (0 : Fin 2) * 8000 + 1 * p.val = t.val * 8000 + p.val; omega
    | ⟨1, _⟩ => show win0_13.index t (1 : Fin 2) * 128 + 1 * q.val = q.val; omega
  show out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q) = edgeOut V c (((cfg0.win 13).blk t).view.emb (ix2 p q))
  rw [hemb]
  refine (row_of_blocks (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (V c main_v5) (V c main_arg2) p q ⟨t.val * 8000 + p.val, hr⟩
    (fun k => xr_block V c t p k _ rfl) (fun k => e_block V c t p k _ rfl)).trans ?_
  rw [w0x_block V c t, w0e_block V c t, b0_block V c t, w1_block V c t, b1_block V c t, w2_block V c t, b2_block V c t,
    w3_block V c t, b3_block V c t, g_block V c t, be_block V c t]

/-- An index of the array is in point t's block iff each coordinate is in the block's range on its axis. -/
theorem mem_block (t : Fin cfg0.N) (i : S800000x128.Idx) :
    i ∈ ((cfg0.win 13).blk t).view.set ↔ ∀ a : Fin 2, win0_13.index t a * S8000x128.size a ≤ (i a).val ∧ (i a).val < win0_13.index t a * S8000x128.size a + S8000x128.size a := by
  show i ∈ ((View.whole main_v8).slice (win0_13.rect t)).set ↔ _
  rw [View.set_slice_whole, Rect.mem_set_unit]
  exact Iff.rfl

/-- The 100 blocks tile the 800000 rows: row r is in the block of point r / 8000. -/
theorem cover (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 100 := N_0
  have hlt : (i 0).val / 8000 < cfg0.N := by rw [hN]; omega
  obtain ⟨e0, e1, -⟩ := block_index ⟨(i 0).val / 8000, hlt⟩
  have e0' : win0_13.index ⟨(i 0).val / 8000, hlt⟩ (0 : Fin 2) = (i 0).val / 8000 := e0
  refine ⟨⟨(i 0).val / 8000, hlt⟩, flush0_13 _, ?_⟩
  rw [mem_block]
  intro a
  match a with
  | ⟨0, _⟩ => show win0_13.index ⟨(i 0).val / 8000, hlt⟩ (0 : Fin 2) * 8000 ≤ (i 0).val ∧ (i 0).val < win0_13.index ⟨(i 0).val / 8000, hlt⟩ (0 : Fin 2) * 8000 + 8000; omega
  | ⟨1, _⟩ => show win0_13.index ⟨(i 0).val / 8000, hlt⟩ (1 : Fin 2) * 128 ≤ (i 1).val ∧ (i 1).val < win0_13.index ⟨(i 0).val / 8000, hlt⟩ (1 : Fin 2) * 128 + 128; omega

/-- The edge region's output array after all 100 grid points, whatever the buffers hold when the region is entered:
    point `t` writes rows 8000 t … 8000 t + 7999, each row the row function of the same row of the two row-blocked
    inputs and of the whole weight arrays; the 100 blocks tile the 800000 rows. -/
theorem edge_array (c : Dev nD) :
    (dat0 (F := Ideal) V c).arrAt 13 cfg0.N = fun i : S800000x128.Idx =>
      Cert.Spec.edgeRow (fun k => (V c main_v5 : S800000x128.Idx → EReal) (ix2 (i 0) k))
        (fun k => (V c main_arg2 : S800000x128.Idx → EReal) (ix2 (i 0) k))
        (fun k n => (V c main_v6 : S128x100.Idx → EReal) (ix2 k n)) (fun k n => (V c main_v7 : S128x100.Idx → EReal) (ix2 k n))
        (fun n => (V c main_arg6 : S100.Idx → EReal) (ix1 n)) (fun k n => (V c main_arg7 : S100x100.Idx → EReal) (ix2 k n))
        (fun n => (V c main_arg8 : S100.Idx → EReal) (ix1 n)) (fun k n => (V c main_arg9 : S100x100.Idx → EReal) (ix2 k n))
        (fun n => (V c main_arg10 : S100.Idx → EReal) (ix1 n)) (fun k n => (V c main_arg11 : S100x128.Idx → EReal) (ix2 k n))
        (fun n => (V c main_arg12 : S128.Idx → EReal) (ix1 n)) (fun n => (V c main_arg13 : S128.Idx → EReal) (ix1 n))
        (fun n => (V c main_arg14 : S128.Idx → EReal) (ix1 n)) (i 1) :=
  (dat0 (F := Ideal) V c).arrAt_eq_of_cover 13 (edgeOut V c) (fun t _ => flushed_eq V c t) cover

end Cert.KernelIdeal.EdgeArray

end
-- ==== Proof.NodeBlock.lean ====
/-
  One block of the node network, read entry by entry.

  The block is one whole-rectangle store of a payload built from the three 5000 × 128 input blocks and the
  weights. Read at row p, column q it is the row function of the specification on row p of the inputs: three
  products over the 128 features added left to right, bias, rectified linear unit; two dense layers over 100
  features with their units; a dense layer into 128 features; the mean and the variance of that row over its
  128 lanes; the normalisation scaled and shifted; plus the node's own row (the residual).

  The lemmas: each product at an entry as a sum over its contraction coordinate; a bias row and a per-row
  column copied over the block; a lane sum as a sum over 128 coordinates; then each payload at an entry, and
  the block.
-/
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeBlock

open Cert.KernelIdeal Cert.KernelIdeal.Gen Idealize.ShloMosaic Idealize.ShloMosaic.ValueIdx

/-! ## The first layer's product: [5000,128] × [128,100] -/

theorem lhs_in_0 (i : S5000x100.Idx) (q : dot_S5000x128_S128x100_S5000x100_1_0_0_1_n_n.contr.Idx) :
    (dot_S5000x128_S128x100_S5000x100_1_0_0_1_n_n.lhsIdx i q 0).val = (i 0).val := by
  unfold DotDims.lhsIdx
  rw [dif_neg (show ¬(0 : Fin S5000x128.rank) ∈ dot_S5000x128_S128x100_S5000x100_1_0_0_1_n_n.lhsBatch by decide), dif_pos (show (0 : Fin S5000x128.rank) ∈ dot_S5000x128_S128x100_S5000x100_1_0_0_1_n_n.lhsNonContracting by decide)]
  rfl
theorem lhs_in_1 (i : S5000x100.Idx) (q : dot_S5000x128_S128x100_S5000x100_1_0_0_1_n_n.contr.Idx) :
    (dot_S5000x128_S128x100_S5000x100_1_0_0_1_n_n.lhsIdx i q 1).val = (q ⟨0, by decide⟩).val :=
  dot_S5000x128_S128x100_S5000x100_1_0_0_1_n_n.lhsIdx_val_of_single rfl i q
theorem rhs_in_0 (i : S5000x100.Idx) (q : dot_S5000x128_S128x100_S5000x100_1_0_0_1_n_n.contr.Idx) :
    (dot_S5000x128_S128x100_S5000x100_1_0_0_1_n_n.rhsIdx i q 0).val = (q ⟨0, by decide⟩).val :=
  dot_S5000x128_S128x100_S5000x100_1_0_0_1_n_n.rhsIdx_val_of_single rfl i q
theorem rhs_in_1 (i : S5000x100.Idx) (q : dot_S5000x128_S128x100_S5000x100_1_0_0_1_n_n.contr.Idx) :
    (dot_S5000x128_S128x100_S5000x100_1_0_0_1_n_n.rhsIdx i q 1).val = (i 1).val := by
  unfold DotDims.rhsIdx
  rw [dif_neg (show ¬(1 : Fin S128x100.rank) ∈ dot_S5000x128_S128x100_S5000x100_1_0_0_1_n_n.rhsBatch by decide), dif_pos (show (1 : Fin S128x100.rank) ∈ dot_S5000x128_S128x100_S5000x100_1_0_0_1_n_n.rhsNonContracting by decide)]
  rfl

/-- Into the zero accumulator the product at row `p`, column `n` is the sum over the 128 contraction positions of
    the left operand's row `p` times the right operand's column `n`. -/
theorem matmul_in_apply {φ₁ φ₂ : FTy} (a : FVec Ideal S5000x128 φ₁) (w : FVec Ideal S128x100 φ₂) (p : Fin 5000) (n : Fin 100) :
    matmul dot_S5000x128_S128x100_S5000x100_1_0_0_1_n_n none a w (constant (F := Ideal) S5000x100 .f32 0x00000000#32) (ix2 p n)
      = ∑ k : Fin 128, a (ix2 p k) * w (ix2 k n) := by
  simp only [matmul]
  rw [Ideal.matmul_constant_zero_apply, ← Equiv.sum_comp (contrEquiv1 dot_S5000x128_S128x100_S5000x100_1_0_0_1_n_n 128 rfl rfl).symm]
  refine Finset.sum_congr rfl fun k _ => ?_
  have hk := contrEquiv1_symm_val dot_S5000x128_S128x100_S5000x100_1_0_0_1_n_n 128 rfl rfl k
  have el : dot_S5000x128_S128x100_S5000x100_1_0_0_1_n_n.lhsIdx (ix2 p n) ((contrEquiv1 dot_S5000x128_S128x100_S5000x100_1_0_0_1_n_n 128 rfl rfl).symm k) = ix2 p k := funext fun c => Fin.ext (by
    match c with
    | ⟨0, _⟩ => exact lhs_in_0 _ _
    | ⟨1, _⟩ => exact (lhs_in_1 _ _).trans hk)
  have er : dot_S5000x128_S128x100_S5000x100_1_0_0_1_n_n.rhsIdx (ix2 p n) ((contrEquiv1 dot_S5000x128_S128x100_S5000x100_1_0_0_1_n_n 128 rfl rfl).symm k) = ix2 k n := funext fun c => Fin.ext (by
    match c with
    | ⟨0, _⟩ => exact (rhs_in_0 _ _).trans hk
    | ⟨1, _⟩ => exact rhs_in_1 _ _)
  rw [el, er]

/-! ## The two hidden layers' product: [5000,100] × [100,100] -/

theorem lhs_hid_0 (i : S5000x100.Idx) (q : dot_S5000x100_S100x100_S5000x100_1_0_0_1_n_n.contr.Idx) :
    (dot_S5000x100_S100x100_S5000x100_1_0_0_1_n_n.lhsIdx i q 0).val = (i 0).val := by
  unfold DotDims.lhsIdx
  rw [dif_neg (show ¬(0 : Fin S5000x100.rank) ∈ dot_S5000x100_S100x100_S5000x100_1_0_0_1_n_n.lhsBatch by decide), dif_pos (show (0 : Fin S5000x100.rank) ∈ dot_S5000x100_S100x100_S5000x100_1_0_0_1_n_n.lhsNonContracting by decide)]
  rfl
theorem lhs_hid_1 (i : S5000x100.Idx) (q : dot_S5000x100_S100x100_S5000x100_1_0_0_1_n_n.contr.Idx) :
    (dot_S5000x100_S100x100_S5000x100_1_0_0_1_n_n.lhsIdx i q 1).val = (q ⟨0, by decide⟩).val :=
  dot_S5000x100_S100x100_S5000x100_1_0_0_1_n_n.lhsIdx_val_of_single rfl i q
theorem rhs_hid_0 (i : S5000x100.Idx) (q : dot_S5000x100_S100x100_S5000x100_1_0_0_1_n_n.contr.Idx) :
    (dot_S5000x100_S100x100_S5000x100_1_0_0_1_n_n.rhsIdx i q 0).val = (q ⟨0, by decide⟩).val :=
  dot_S5000x100_S100x100_S5000x100_1_0_0_1_n_n.rhsIdx_val_of_single rfl i q
theorem rhs_hid_1 (i : S5000x100.Idx) (q : dot_S5000x100_S100x100_S5000x100_1_0_0_1_n_n.contr.Idx) :
    (dot_S5000x100_S100x100_S5000x100_1_0_0_1_n_n.rhsIdx i q 1).val = (i 1).val := by
  unfold DotDims.rhsIdx
  rw [dif_neg (show ¬(1 : Fin S100x100.rank) ∈ dot_S5000x100_S100x100_S5000x100_1_0_0_1_n_n.rhsBatch by decide), dif_pos (show (1 : Fin S100x100.rank) ∈ dot_S5000x100_S100x100_S5000x100_1_0_0_1_n_n.rhsNonContracting by decide)]
  rfl

/-- Into the zero accumulator the product at row `p`, column `n` is the sum over the 100 contraction positions of
    the left operand's row `p` times the right operand's column `n`. -/
theorem matmul_hid_apply {φ₁ φ₂ : FTy} (a : FVec Ideal S5000x100 φ₁) (w : FVec Ideal S100x100 φ₂) (p : Fin 5000) (n : Fin 100) :
    matmul dot_S5000x100_S100x100_S5000x100_1_0_0_1_n_n none a w (constant (F := Ideal) S5000x100 .f32 0x00000000#32) (ix2 p n)
      = ∑ k : Fin 100, a (ix2 p k) * w (ix2 k n) := by
  simp only [matmul]
  rw [Ideal.matmul_constant_zero_apply, ← Equiv.sum_comp (contrEquiv1 dot_S5000x100_S100x100_S5000x100_1_0_0_1_n_n 100 rfl rfl).symm]
  refine Finset.sum_congr rfl fun k _ => ?_
  have hk := contrEquiv1_symm_val dot_S5000x100_S100x100_S5000x100_1_0_0_1_n_n 100 rfl rfl k
  have el : dot_S5000x100_S100x100_S5000x100_1_0_0_1_n_n.lhsIdx (ix2 p n) ((contrEquiv1 dot_S5000x100_S100x100_S5000x100_1_0_0_1_n_n 100 rfl rfl).symm k) = ix2 p k := funext fun c => Fin.ext (by
    match c with
    | ⟨0, _⟩ => exact lhs_hid_0 _ _
    | ⟨1, _⟩ => exact (lhs_hid_1 _ _).trans hk)
  have er : dot_S5000x100_S100x100_S5000x100_1_0_0_1_n_n.rhsIdx (ix2 p n) ((contrEquiv1 dot_S5000x100_S100x100_S5000x100_1_0_0_1_n_n 100 rfl rfl).symm k) = ix2 k n := funext fun c => Fin.ext (by
    match c with
    | ⟨0, _⟩ => exact (rhs_hid_0 _ _).trans hk
    | ⟨1, _⟩ => exact rhs_hid_1 _ _)
  rw [el, er]

/-! ## The fourth layer's product: [5000,100] × [100,128] -/

theorem lhs_out_0 (i : S5000x128.Idx) (q : dot_S5000x100_S100x128_S5000x128_1_0_0_1_n_n.contr.Idx) :
    (dot_S5000x100_S100x128_S5000x128_1_0_0_1_n_n.lhsIdx i q 0).val = (i 0).val := by
  unfold DotDims.lhsIdx
  rw [dif_neg (show ¬(0 : Fin S5000x100.rank) ∈ dot_S5000x100_S100x128_S5000x128_1_0_0_1_n_n.lhsBatch by decide), dif_pos (show (0 : Fin S5000x100.rank) ∈ dot_S5000x100_S100x128_S5000x128_1_0_0_1_n_n.lhsNonContracting by decide)]
  rfl
theorem lhs_out_1 (i : S5000x128.Idx) (q : dot_S5000x100_S100x128_S5000x128_1_0_0_1_n_n.contr.Idx) :
    (dot_S5000x100_S100x128_S5000x128_1_0_0_1_n_n.lhsIdx i q 1).val = (q ⟨0, by decide⟩).val :=
  dot_S5000x100_S100x128_S5000x128_1_0_0_1_n_n.lhsIdx_val_of_single rfl i q
theorem rhs_out_0 (i : S5000x128.Idx) (q : dot_S5000x100_S100x128_S5000x128_1_0_0_1_n_n.contr.Idx) :
    (dot_S5000x100_S100x128_S5000x128_1_0_0_1_n_n.rhsIdx i q 0).val = (q ⟨0, by decide⟩).val :=
  dot_S5000x100_S100x128_S5000x128_1_0_0_1_n_n.rhsIdx_val_of_single rfl i q
theorem rhs_out_1 (i : S5000x128.Idx) (q : dot_S5000x100_S100x128_S5000x128_1_0_0_1_n_n.contr.Idx) :
    (dot_S5000x100_S100x128_S5000x128_1_0_0_1_n_n.rhsIdx i q 1).val = (i 1).val := by
  unfold DotDims.rhsIdx
  rw [dif_neg (show ¬(1 : Fin S100x128.rank) ∈ dot_S5000x100_S100x128_S5000x128_1_0_0_1_n_n.rhsBatch by decide), dif_pos (show (1 : Fin S100x128.rank) ∈ dot_S5000x100_S100x128_S5000x128_1_0_0_1_n_n.rhsNonContracting by decide)]
  rfl

/-- Into the zero accumulator the product at row `p`, column `n` is the sum over the 100 contraction positions of
    the left operand's row `p` times the right operand's column `n`. -/
theorem matmul_out_apply {φ₁ φ₂ : FTy} (a : FVec Ideal S5000x100 φ₁) (w : FVec Ideal S100x128 φ₂) (p : Fin 5000) (n : Fin 128) :
    matmul dot_S5000x100_S100x128_S5000x128_1_0_0_1_n_n none a w (constant (F := Ideal) S5000x128 .f32 0x00000000#32) (ix2 p n)
      = ∑ k : Fin 100, a (ix2 p k) * w (ix2 k n) := by
  simp only [matmul]
  rw [Ideal.matmul_constant_zero_apply, ← Equiv.sum_comp (contrEquiv1 dot_S5000x100_S100x128_S5000x128_1_0_0_1_n_n 100 rfl rfl).symm]
  refine Finset.sum_congr rfl fun k _ => ?_
  have hk := contrEquiv1_symm_val dot_S5000x100_S100x128_S5000x128_1_0_0_1_n_n 100 rfl rfl k
  have el : dot_S5000x100_S100x128_S5000x128_1_0_0_1_n_n.lhsIdx (ix2 p n) ((contrEquiv1 dot_S5000x100_S100x128_S5000x128_1_0_0_1_n_n 100 rfl rfl).symm k) = ix2 p k := funext fun c => Fin.ext (by
    match c with
    | ⟨0, _⟩ => exact lhs_out_0 _ _
    | ⟨1, _⟩ => exact (lhs_out_1 _ _).trans hk)
  have er : dot_S5000x100_S100x128_S5000x128_1_0_0_1_n_n.rhsIdx (ix2 p n) ((contrEquiv1 dot_S5000x100_S100x128_S5000x128_1_0_0_1_n_n 100 rfl rfl).symm k) = ix2 k n := funext fun c => Fin.ext (by
    match c with
    | ⟨0, _⟩ => exact (rhs_out_0 _ _).trans hk
    | ⟨1, _⟩ => exact rhs_out_1 _ _)
  rw [el, er]

/-! ## Rows and columns copied over the block, and the sum over a row's lanes -/

/-- A vector of `b` entries laid as one row and copied down `a` rows reads, at `(p, c)`, its entry `c`. -/
theorem rowBroadcast_apply {α : Type} {a b : ℕ} (v : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ v h) h' (ix2 p c) = v (ix1 c) := by
  rw [broadcastTo_1b_ab_apply, shapeCast_a_1a_apply]

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of row `p`, from the zero word. -/
theorem laneSum_apply (src : FVec Ideal S5000x128 .f32) (h : S5000x128.Reduces [1] S5000)
    (hφ : FTy.f32 = FTy.f32 ∨ FTy.f32 = FTy.bf16) (hacc : (0x00000000#32 : BitVec 32) = 0x00000000#32) (p : Fin 5000) :
    multiReduction (F := Ideal) .add [1] S5000 src 0x00000000#32 h hφ hacc (ix1 p)
      = ∑ k : Fin 128, src (ix2 p k) := by
  refine (Ideal.multiReduction_add_single src 0x00000000#32 h hφ hacc (ix1 p)).trans ?_
  refine Finset.sum_congr rfl fun k _ => congrArg src ?_
  funext c; apply Fin.ext
  fin_cases c <;> rfl

/-! ## The payloads at an entry -/

/-- The reciprocal square root of a vector, entry by entry. -/
theorem rsqrt_apply {s : Shape} {φ : FTy} (a : FVec Ideal s φ) (i : s.Idx) : rsqrt a i = Ideal.rsqrt (a i) := rfl

/-- The second layer before its unit, at row `p`, column `n`: the dense layer over the first layer's 100 outputs,
    each the unit of the three partial sums over the 128 features of row `p` of the three inputs, plus the bias. -/
theorem pay2_apply (v0 v2 v5 : Vec Ideal S5000x128 .f32) (v8 v11 v14 : Vec Ideal S128x100 .f32)
    (v22 : Vec Ideal S100 .f32) (v28 : Vec Ideal S100x100 .f32) (v32 : Vec Ideal S100 .f32) (p : Fin 5000) (n : Fin 100) :
    k1_pay2 (F := Ideal) v0 v2 v5 v8 v11 v14 v22 v28 v32 (ix2 p n)
      = Cert.Spec.dense (fun m => Cert.Spec.relu
          ((((∑ k : Fin 128, v0 (ix2 p k) * v8 (ix2 k m)) + ∑ k : Fin 128, v2 (ix2 p k) * v11 (ix2 k m))
            + ∑ k : Fin 128, v5 (ix2 p k) * v14 (ix2 k m)) + v22 (ix1 m)))
          (fun k m => v28 (ix2 k m)) (fun m => v32 (ix1 m)) n := by
  unfold k1_pay2
  simp only [addf_apply, maximumf_apply, truncf_apply, broadcast_apply, shapeCast_self, rowBroadcast_apply,
    matmul_in_apply, matmul_hid_apply]
  rfl

/-- The second unit's lower bound is the zero word at every entry. -/
theorem pay3_apply (i : S5000x100.Idx) : k1_pay3 (F := Ideal) i = Cert.Spec.zeroW := rfl

/-- The fourth layer's output on one row, from the second layer's values `y` before their unit and that unit's
    lower bounds `z`: the unit, the third dense layer, its unit, the fourth dense layer. -/
def lastRow (y z : Fin 100 → EReal) (w2 : Fin 100 → Fin 100 → EReal) (b2 : Fin 100 → EReal)
    (w3 : Fin 100 → Fin 128 → EReal) (b3 : Fin 128 → EReal) : Fin 128 → EReal :=
  Cert.Spec.dense (fun n => Cert.Spec.relu (Cert.Spec.dense (fun m => max (y m) (z m)) w2 b2 n)) w3 b3

/-- A row of 128 features normalised and scaled, before the shift: `(h_j - mu) * (var + eps)^(-1/2) * g_j`. -/
def scaled (h g : Fin 128 → EReal) (j : Fin 128) : EReal :=
  (h j - Cert.Spec.mean h)
    * Ideal.rsqrt (Cert.Spec.mean (fun l => (h l - Cert.Spec.mean h) * (h l - Cert.Spec.mean h)) + Cert.Spec.epsW) * g j

/-- The normalisation is the scaled row plus the shift. -/
theorem layerNorm_eq (h g be : Fin 128 → EReal) (j : Fin 128) :
    Cert.Spec.layerNorm h g be j = scaled h g j + be j := rfl

/-- Push an entry's index through the pointwise operations, the copied rows and columns and the three products. -/
local macro "push_index" : tactic => `(tactic| simp only [mulf_apply, subf_apply, addf_apply, divf_apply, maximumf_apply,
  truncf_apply, broadcast_apply, rsqrt_apply, shapeCast_self, rowBroadcast_apply, broadcastTo_a1_ab_apply,
  shapeCast_a_a1_apply, matmul_in_apply, matmul_hid_apply, matmul_out_apply])

/-- The normalised and scaled fourth layer, before the shift, at row `p`, column `q`, for any second-layer values
    and any lower bounds of their unit: the two lane sums are the mean and the variance of the row. -/
theorem pay4_apply (v35 v36 : FVec Ideal S5000x100 .f32) (v38 : Vec Ideal S100x100 .f32) (v42 : Vec Ideal S100 .f32)
    (v48 : Vec Ideal S100x128 .f32) (v52 v74 : Vec Ideal S128 .f32) (p : Fin 5000) (q : Fin 128) :
    k1_pay4 (F := Ideal) v35 v36 v38 v42 v48 v52 v74 (ix2 p q)
      = scaled (lastRow (fun m => v35 (ix2 p m)) (fun m => v36 (ix2 p m)) (fun k m => v38 (ix2 k m))
          (fun m => v42 (ix1 m)) (fun k m => v48 (ix2 k m)) (fun m => v52 (ix1 m))) (fun m => v74 (ix1 m)) q := by
  unfold k1_pay4
  push_index
  repeat (rw [laneSum_apply]; try push_index)
  rfl

/-! ## The block -/

/-- One block of the node network's output, entry by entry: row `p` of the block depends only on row `p` of the
    three input blocks, through the row function `Spec.nodeRow` (the residual included). -/
theorem block_apply (x0 x1 x2 : Vec Ideal S5000x128 .f32) (x3 x4 x5 : Vec Ideal S128x100 .f32)
    (x6 : Vec Ideal S100 .f32) (x7 : Vec Ideal S100x100 .f32) (x8 : Vec Ideal S100 .f32) (x9 : Vec Ideal S100x100 .f32)
    (x10 : Vec Ideal S100 .f32) (x11 : Vec Ideal S100x128 .f32) (x12 x13 x14 : Vec Ideal S128 .f32)
    (p : Fin 5000) (q : Fin 128) :
    out1_15 (F := Ideal) x0 x1 x2 x3 x4 x5 x6 x7 x8 x9 x10 x11 x12 x13 x14 (ix2 p q)
      = Cert.Spec.nodeRow (fun k => x0 (ix2 p k)) (fun k => x1 (ix2 p k)) (fun k => x2 (ix2 p k))
          (fun k n => x3 (ix2 k n)) (fun k n => x4 (ix2 k n)) (fun k n => x5 (ix2 k n))
          (fun n => x6 (ix1 n)) (fun k n => x7 (ix2 k n)) (fun n => x8 (ix1 n)) (fun k n => x9 (ix2 k n)) (fun n => x10 (ix1 n))
          (fun k n => x11 (ix2 k n)) (fun n => x12 (ix1 n)) (fun n => x13 (ix1 n)) (fun n => x14 (ix1 n)) q := by
  have hz2 : (![0, 0] : Fin 2 → Nat) = fun _ => 0 := funext fun a => by fin_cases a <;> rfl
  have hz1 : (![0] : Fin 1 → Nat) = fun _ => 0 := funext fun a => by fin_cases a <;> rfl
  unfold out1_15
  rw [View.canon_unit_zero hz2]
  simp only [View.ld_unit_zero (S := S5000x128) hz2, View.ld_unit_zero (S := S128x100) hz2,
    View.ld_unit_zero (S := S100x100) hz2, View.ld_unit_zero (S := S100x128) hz2,
    View.ld_unit_zero (S := S100) hz1, View.ld_unit_zero (S := S128) hz1]
  unfold k1_pay1 k1_pay5
  simp only [addf_apply, rowBroadcast_apply, pay4_apply, pay2_apply, pay3_apply]
  rfl

end Cert.KernelIdeal.NodeBlock

end
-- ==== Proof.NodeArray.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«403091_j49546742726708_1_alg».proof.Proof.NodeBlock

noncomputable section

namespace Cert.KernelIdeal.NodeArray

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- The array the node network leaves: entry (r, j) is feature j of the row function (with the residual) of row r of the
    three row inputs and of the weight arrays. -/
abbrev nodeOut (c : Dev nD) : S50000x128.Idx → EReal := fun i =>
  Cert.Spec.nodeRow (fun k => (V c main_arg0 : S50000x128.Idx → EReal) (ix2 (i 0) k))
    (fun k => (V c main_v11 : S50000x128.Idx → EReal) (ix2 (i 0) k))
    (fun k => (V c main_v12 : S50000x128.Idx → EReal) (ix2 (i 0) k))
    (fun k n => (V c main_v13 : S128x100.Idx → EReal) (ix2 k n)) (fun k n => (V c main_v14 : S128x100.Idx → EReal) (ix2 k n))
    (fun k n => (V c main_v15 : S128x100.Idx → EReal) (ix2 k n))
    (fun n => (V c main_arg16 : S100.Idx → EReal) (ix1 n)) (fun k n => (V c main_arg17 : S100x100.Idx → EReal) (ix2 k n))
    (fun n => (V c main_arg18 : S100.Idx → EReal) (ix1 n)) (fun k n => (V c main_arg19 : S100x100.Idx → EReal) (ix2 k n))
    (fun n => (V c main_arg20 : S100.Idx → EReal) (ix1 n)) (fun k n => (V c main_arg21 : S100x128.Idx → EReal) (ix2 k n))
    (fun n => (V c main_arg22 : S128.Idx → EReal) (ix1 n)) (fun n => (V c main_arg23 : S128.Idx → EReal) (ix1 n))
    (fun n => (V c main_arg24 : S128.Idx → EReal) (ix1 n)) (i 1)

/-- The block index of every window at grid point t, decided over the 10 points: the output and the three row inputs are at
    block (t, 0); every weight window is at block 0 on every axis. -/
theorem block_index : ∀ t : Fin cfg1.N,
    win1_15.index t (0 : Fin 2) = t.val ∧ win1_15.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 2) = 0 ∧ win1_11.index t (1 : Fin 2) = 0
    ∧ win1_12.index t (0 : Fin 1) = 0
    ∧ win1_13.index t (0 : Fin 1) = 0
    ∧ win1_14.index t (0 : Fin 1) = 0 :=
  (by decide +kernel : ∀ t : Fin grid1.N, _)

/-- Row p of point t's block of the node rows is row 5000 t + p of the array. -/
theorem x_block (c : Dev nD) (t : Fin cfg1.N) (p : Fin 5000) (k : Fin 128) (r : Fin 50000) (hr : r.val = t.val * 5000 + p.val) :
    (iblk1 (F := Ideal) V c 0 t : Vec Ideal S5000x128 .f32) (ix2 p k) = (V c main_arg0 : S50000x128.Idx → EReal) (ix2 r k) := by
  obtain ⟨-, -, e0, e1, -⟩ := block_index t
  show (V c main_arg0 : S50000x128.Idx → EReal) (((cfg1.win 0).blk t).view.emb (ix2 p k)) = _
  refine congrArg _ ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- Row p of point t's block of the aggregated messages is row 5000 t + p of the array. -/
theorem a_block (c : Dev nD) (t : Fin cfg1.N) (p : Fin 5000) (k : Fin 128) (r : Fin 50000) (hr : r.val = t.val * 5000 + p.val) :
    (iblk1 (F := Ideal) V c 1 t : Vec Ideal S5000x128 .f32) (ix2 p k) = (V c main_v11 : S50000x128.Idx → EReal) (ix2 r k) := by
  obtain ⟨-, -, -, -, e0, e1, -⟩ := block_index t
  show (V c main_v11 : S50000x128.Idx → EReal) (((cfg1.win 1).blk t).view.emb (ix2 p k)) = _
  refine congrArg _ ?_
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Row p of point t's block of the graph rows is row 5000 t + p of the array. -/
theorem u_block (c : Dev nD) (t : Fin cfg1.N) (p : Fin 5000) (k : Fin 128) (r : Fin 50000) (hr : r.val = t.val * 5000 + p.val) :
    (iblk1 (F := Ideal) V c 2 t : Vec Ideal S5000x128 .f32) (ix2 p k) = (V c main_v12 : S50000x128.Idx → EReal) (ix2 r k) := by
  obtain ⟨-, -, -, -, -, -, e0, e1, -⟩ := block_index t
  show (V c main_v12 : S50000x128.Idx → EReal) (((cfg1.win 2).blk t).view.emb (ix2 p k)) = _
  refine congrArg _ ?_
  funext a; apply Fin.ext
  match a with
  | ⟨0, _⟩ => show win1_2.index t (0 : Fin 2) * 5000 + 1 * p.val = r.val; omega
  | ⟨1, _⟩ => show win1_2.index t (1 : Fin 2) * 128 + 1 * k.val = k.val; omega

/-- At every point the block of the node third of the first weight matrix is the whole array. -/
theorem w0x_block (c : Dev nD) (t : Fin cfg1.N) :
    (iblk1 (F := Ideal) V c 3 t : Vec Ideal S128x100 .f32) = (V c main_v13 : S128x100.Idx → EReal) := by
  obtain ⟨-, -, -, -, -, -, -, -, e0, e1, -⟩ := block_index t
  funext y
  show (V c main_v13 : S128x100.Idx → EReal) (((cfg1.win 3).blk t).view.emb y) = _
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 100 + 1 * (y 1).val = (y 1).val; omega

/-- At every point the block of the message third of the first weight matrix is the whole array. -/
theorem w0a_block (c : Dev nD) (t : Fin cfg1.N) :
    (iblk1 (F := Ideal) V c 4 t : Vec Ideal S128x100 .f32) = (V c main_v14 : S128x100.Idx → EReal) := by
  obtain ⟨-, -, -, -, -, -, -, -, -, -, e0, e1, -⟩ := block_index t
  funext y
  show (V c main_v14 : S128x100.Idx → EReal) (((cfg1.win 4).blk t).view.emb y) = _
  refine congrArg _ ?_
  funext a; apply Fin.ext
  match a with
  | ⟨0, _⟩ => show win1_4.index t (0 : Fin 2) * 128 + 1 * (y 0).val = (y 0).val; omega
  | ⟨1, _⟩ => show win1_4.index t (1 : Fin 2) * 100 + 1 * (y 1).val = (y 1).val; omega

/-- At every point the block of the graph third of the first weight matrix is the whole array. -/
theorem w0u_block (c : Dev nD) (t : Fin cfg1.N) :
    (iblk1 (F := Ideal) V c 5 t : Vec Ideal S128x100 .f32) = (V c main_v15 : S128x100.Idx → EReal) := by
  obtain ⟨-, -, -, -, -, -, -, -, -, -, -, -, e0, e1, -⟩ := block_index t
  funext y
  show (V c main_v15 : S128x100.Idx → EReal) (((cfg1.win 5).blk t).view.emb y) = _
  refine congrArg _ ?_
  funext a; apply Fin.ext
  match a with
  | ⟨0, _⟩ => show win1_5.index t (0 : Fin 2) * 128 + 1 * (y 0).val = (y 0).val; omega
  | ⟨1, _⟩ => show win1_5.index t (1 : Fin 2) * 100 + 1 * (y 1).val = (y 1).val; omega

/-- At every point the block of the first bias is the whole array. -/
theorem b0_block (c : Dev nD) (t : Fin cfg1.N) :
    (iblk1 (F := Ideal) V c 6 t : Vec Ideal S100 .f32) = (V c main_arg16 : S100.Idx → EReal) := by
  obtain ⟨-, -, -, -, -, -, -, -, -, -, -, -, -, -, e0, -⟩ := block_index t
  funext y
  show (V c main_arg16 : S100.Idx → EReal) (((cfg1.win 6).blk t).view.emb y) = _
  refine congrArg _ ?_
  funext a; apply Fin.ext
  match a with
  | ⟨0, _⟩ => show win1_6.index t (0 : Fin 1) * 100 + 1 * (y 0).val = (y 0).val; omega

/-- At every point the block of the second weight matrix is the whole array. -/
theorem w1_block (c : Dev nD) (t : Fin cfg1.N) :
    (iblk1 (F := Ideal) V c 7 t : Vec Ideal S100x100 .f32) = (V c main_arg17 : S100x100.Idx → EReal) := by
  obtain ⟨-, -, -, -, -, -, -, -, -, -, -, -, -, -, -, e0, e1, -⟩ := block_index t
  funext y
  show (V c main_arg17 : S100x100.Idx → EReal) (((cfg1.win 7).blk t).view.emb y) = _
  refine congrArg _ ?_
  funext a; apply Fin.ext
  match a with
  | ⟨0, _⟩ => show win1_7.index t (0 : Fin 2) * 100 + 1 * (y 0).val = (y 0).val; omega
  | ⟨1, _⟩ => show win1_7.index t (1 : Fin 2) * 100 + 1 * (y 1).val = (y 1).val; omega

/-- At every point the block of the second bias is the whole array. -/
theorem b1_block (c : Dev nD) (t : Fin cfg1.N) :
    (iblk1 (F := Ideal) V c 8 t : Vec Ideal S100 .f32) = (V c main_arg18 : S100.Idx → EReal) := by
  obtain ⟨-, -, -, -, -, -, -, -, -, -, -, -, -, -, -, -, -, e0, -⟩ := block_index t
  funext y
  show (V c main_arg18 : S100.Idx → EReal) (((cfg1.win 8).blk t).view.emb y) = _
  refine congrArg _ ?_
  funext a; apply Fin.ext
  match a with
  | ⟨0, _⟩ => show win1_8.index t (0 : Fin 1) * 100 + 1 * (y 0).val = (y 0).val; omega

/-- At every point the block of the third weight matrix is the whole array. -/
theorem w2_block (c : Dev nD) (t : Fin cfg1.N) :
    (iblk1 (F := Ideal) V c 9 t : Vec Ideal S100x100 .f32) = (V c main_arg19 : S100x100.Idx → EReal) := by
  obtain ⟨-, -, -, -, -, -, -, -, -, -, -, -, -, -, -, -, -, -, e0, e1, -⟩ := block_index t
  funext y
  show (V c main_arg19 : S100x100.Idx → EReal) (((cfg1.win 9).blk t).view.emb y) = _
  refine congrArg _ ?_
  funext a; apply Fin.ext
  match a with
  | ⟨0, _⟩ => show win1_9.index t (0 : Fin 2) * 100 + 1 * (y 0).val = (y 0).val; omega
  | ⟨1, _⟩ => show win1_9.index t (1 : Fin 2) * 100 + 1 * (y 1).val = (y 1).val; omega

/-- At every point the block of the third bias is the whole array. -/
theorem b2_block (c : Dev nD) (t : Fin cfg1.N) :
    (iblk1 (F := Ideal) V c 10 t : Vec Ideal S100 .f32) = (V c main_arg20 : S100.Idx → EReal) := by
  obtain ⟨-, -, -, -, -, -, -, -, -, -, -, -, -, -, -, -, -, -, -, -, e0, -⟩ := block_index t
  funext y
  show (V c main_arg20 : S100.Idx → EReal) (((cfg1.win 10).blk t).view.emb y) = _
  refine congrArg _ ?_
  funext a; apply Fin.ext
  match a with
  | ⟨0, _⟩ => show win1_10.index t (0 : Fin 1) * 100 + 1 * (y 0).val = (y 0).val; omega

/-- At every point the block of the fourth weight matrix is the whole array. -/
theorem w3_block (c : Dev nD) (t : Fin cfg1.N) :
    (iblk1 (F := Ideal) V c 11 t : Vec Ideal S100x128 .f32) = (V c main_arg21 : S100x128.Idx → EReal) := by
  obtain ⟨-, -, -, -, -, -, -, -, -, -, -, -, -, -, -, -, -, -, -, -, -, e0, e1, -⟩ := block_index t
  funext y
  show (V c main_arg21 : S100x128.Idx → EReal) (((cfg1.win 11).blk t).view.emb y) = _
  refine congrArg _ ?_
  funext a; apply Fin.ext
  match a with
  | ⟨0, _⟩ => show win1_11.index t (0 : Fin 2) * 100 + 1 * (y 0).val = (y 0).val; omega
  | ⟨1, _⟩ => show win1_11.index t (1 : Fin 2) * 128 + 1 * (y 1).val = (y 1).val; omega

/-- At every point the block of the fourth bias is the whole array. -/
theorem b3_block (c : Dev nD) (t : Fin cfg1.N) :
    (iblk1 (F := Ideal) V c 12 t : Vec Ideal S128 .f32) = (V c main_arg22 : S128.Idx → EReal) := by
  obtain ⟨-, -, -, -, -, -, -, -, -, -, -, -, -, -, -, -, -, -, -, -, -, -, -, e0, -⟩ := block_index t
  funext y
  show (V c main_arg22 : S128.Idx → EReal) (((cfg1.win 12).blk t).view.emb y) = _
  refine congrArg _ ?_
  funext a; apply Fin.ext
  match a with
  | ⟨0, _⟩ => show win1_12.index t (0 : Fin 1) * 128 + 1 * (y 0).val = (y 0).val; omega

/-- At every point the block of the normalisation's scale is the whole array. -/
theorem g_block (c : Dev nD) (t : Fin cfg1.N) :
    (iblk1 (F := Ideal) V c 13 t : Vec Ideal S128 .f32) = (V c main_arg23 : S128.Idx → EReal) := by
  obtain ⟨-, -, -, -, -, -, -, -, -, -, -, -, -, -, -, -, -, -, -, -, -, -, -, -, e0, -⟩ := block_index t
  funext y
  show (V c main_arg23 : S128.Idx → EReal) (((cfg1.win 13).blk t).view.emb y) = _
  refine congrArg _ ?_
  funext a; apply Fin.ext
  match a with
  | ⟨0, _⟩ => show win1_13.index t (0 : Fin 1) * 128 + 1 * (y 0).val = (y 0).val; omega

/-- At every point the block of the normalisation's shift is the whole array. -/
theorem be_block (c : Dev nD) (t : Fin cfg1.N) :
    (iblk1 (F := Ideal) V c 14 t : Vec Ideal S128 .f32) = (V c main_arg24 : S128.Idx → EReal) := by
  obtain ⟨-, -, -, -, -, -, -, -, -, -, -, -, -, -, -, -, -, -, -, -, -, -, -, -, -, e0⟩ := block_index t
  funext y
  show (V c main_arg24 : S128.Idx → EReal) (((cfg1.win 14).blk t).view.emb y) = _
  refine congrArg _ ?_
  funext a; apply Fin.ext
  match a with
  | ⟨0, _⟩ => show win1_14.index t (0 : Fin 1) * 128 + 1 * (y 0).val = (y 0).val; omega

/-- One entry of what the body leaves, from blocks whose row p holds row r of the three row arrays: feature q of the row
    function of that row. -/
theorem row_of_blocks (x0 x1 x2 : Vec Ideal S5000x128 .f32) (x3 x4 x5 : Vec Ideal S128x100 .f32) (x6 : Vec Ideal S100 .f32) (x7 : Vec Ideal S100x100 .f32) (x8 : Vec Ideal S100 .f32) (x9 : Vec Ideal S100x100 .f32) (x10 : Vec Ideal S100 .f32) (x11 : Vec Ideal S100x128 .f32) (x12 x13 x14 : Vec Ideal S128 .f32)
    (A0 A1 A2 : S50000x128.Idx → EReal) (p : Fin 5000) (q : Fin 128) (r : Fin 50000)
    (h0 : ∀ k : Fin 128, x0 (ix2 p k) = A0 (ix2 r k)) (h1 : ∀ k : Fin 128, x1 (ix2 p k) = A1 (ix2 r k))
    (h2 : ∀ k : Fin 128, x2 (ix2 p k) = A2 (ix2 r k)) :
    out1_15 (F := Ideal) x0 x1 x2 x3 x4 x5 x6 x7 x8 x9 x10 x11 x12 x13 x14 (ix2 p q)
      = Cert.Spec.nodeRow (fun k => A0 (ix2 r k)) (fun k => A1 (ix2 r k)) (fun k => A2 (ix2 r k))
          (fun k n => x3 (ix2 k n)) (fun k n => x4 (ix2 k n)) (fun k n => x5 (ix2 k n))
          (fun n => x6 (ix1 n)) (fun k n => x7 (ix2 k n)) (fun n => x8 (ix1 n)) (fun k n => x9 (ix2 k n)) (fun n => x10 (ix1 n))
          (fun k n => x11 (ix2 k n)) (fun n => x12 (ix1 n)) (fun n => x13 (ix1 n)) (fun n => x14 (ix1 n)) q := by
  rw [NodeBlock.block_apply, funext h0, funext h1, funext h2]

/-- What point t writes back is its block of the array of row functions. -/
theorem flushed_eq (c : Dev nD) (t : Fin cfg1.N) :
    (dat1 (F := Ideal) V c).flushed 15 t = ((cfg1.win 15).blk t).view.read (Elt Ideal) (nodeOut V c) := by
  show (cfg1.win 15).cut (grid1.coords t) ((dat1 (F := Ideal) V c).after 15 t) = _
  rw [after1_15]
  funext y
  obtain ⟨p, q, rfl⟩ : ∃ (p : Fin 5000) (q : Fin 128), y = ix2 p q := ⟨y 0, y 1, eq_ix2 y⟩
  have hN : cfg1.N = 10 := N_1
  have ht : t.val < 10 := hN ▸ t.isLt
  have hp : p.val < 5000 := p.isLt
  have hr : t.val * 5000 + p.val < 50000 := by omega
  obtain ⟨e0, e1, -⟩ := block_index t
  have hemb : ((cfg1.win 15).blk t).view.emb (ix2 p q) = ix2 (⟨t.val * 5000 + p.val, hr⟩ : Fin 50000) q := by
    funext a; apply Fin.ext
    match a with
    | ⟨0, _⟩ => show win1_15.index t (0 : Fin 2) * 5000 + 1 * p.val = t.val * 5000 + p.val; omega
    | ⟨1, _⟩ => show win1_15.index t (1 : Fin 2) * 128 + 1 * q.val = q.val; omega
  show out1_15 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (ix2 p q) = nodeOut V c (((cfg1.win 15).blk t).view.emb (ix2 p q))
  rw [hemb]
  refine (row_of_blocks (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (V c main_arg0) (V c main_v11) (V c main_v12) p q ⟨t.val * 5000 + p.val, hr⟩
    (fun k => x_block V c t p k _ rfl) (fun k => a_block V c t p k _ rfl) (fun k => u_block V c t p k _ rfl)).trans ?_
  rw [w0x_block V c t, w0a_block V c t, w0u_block V c t, b0_block V c t, w1_block V c t, b1_block V c t, w2_block V c t,
    b2_block V c t, w3_block V c t, b3_block V c t, g_block V c t, be_block V c t]

/-- An index of the array is in point t's block iff each coordinate is in the block's range on its axis. -/
theorem mem_block (t : Fin cfg1.N) (i : S50000x128.Idx) :
    i ∈ ((cfg1.win 15).blk t).view.set ↔ ∀ a : Fin 2, win1_15.index t a * S5000x128.size a ≤ (i a).val ∧ (i a).val < win1_15.index t a * S5000x128.size a + S5000x128.size a := by
  show i ∈ ((View.whole main_v16).slice (win1_15.rect t)).set ↔ _
  rw [View.set_slice_whole, Rect.mem_set_unit]
  exact Iff.rfl

/-- The 10 blocks tile the 50000 rows: row r is in the block of point r / 5000. -/
theorem cover (i : S50000x128.Idx) :
    ∃ t : Fin cfg1.N, (cfg1.win 15).flush t = true ∧ i ∈ ((cfg1.win 15).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨e0, e1, -⟩ := block_index ⟨(i 0).val / 5000, hlt⟩
  have e0' : win1_15.index ⟨(i 0).val / 5000, hlt⟩ (0 : Fin 2) = (i 0).val / 5000 := e0
  refine ⟨⟨(i 0).val / 5000, hlt⟩, flush1_15 _, ?_⟩
  rw [mem_block]
  intro a
  match a with
  | ⟨0, _⟩ => show win1_15.index ⟨(i 0).val / 5000, hlt⟩ (0 : Fin 2) * 5000 ≤ (i 0).val ∧ (i 0).val < win1_15.index ⟨(i 0).val / 5000, hlt⟩ (0 : Fin 2) * 5000 + 5000; omega
  | ⟨1, _⟩ => show win1_15.index ⟨(i 0).val / 5000, hlt⟩ (1 : Fin 2) * 128 ≤ (i 1).val ∧ (i 1).val < win1_15.index ⟨(i 0).val / 5000, hlt⟩ (1 : Fin 2) * 128 + 128; omega

/-- The node region's output array after all 10 grid points, whatever the buffers hold when the region is entered:
    point `t` writes rows 5000 t … 5000 t + 4999, each row the row function of the same row of the three row-blocked
    inputs and of the whole weight arrays; the 10 blocks tile the 50000 rows. -/
theorem node_array (c : Dev nD) :
    (dat1 (F := Ideal) V c).arrAt 15 cfg1.N = fun i : S50000x128.Idx =>
      Cert.Spec.nodeRow (fun k => (V c main_arg0 : S50000x128.Idx → EReal) (ix2 (i 0) k))
        (fun k => (V c main_v11 : S50000x128.Idx → EReal) (ix2 (i 0) k))
        (fun k => (V c main_v12 : S50000x128.Idx → EReal) (ix2 (i 0) k))
        (fun k n => (V c main_v13 : S128x100.Idx → EReal) (ix2 k n)) (fun k n => (V c main_v14 : S128x100.Idx → EReal) (ix2 k n))
        (fun k n => (V c main_v15 : S128x100.Idx → EReal) (ix2 k n))
        (fun n => (V c main_arg16 : S100.Idx → EReal) (ix1 n)) (fun k n => (V c main_arg17 : S100x100.Idx → EReal) (ix2 k n))
        (fun n => (V c main_arg18 : S100.Idx → EReal) (ix1 n)) (fun k n => (V c main_arg19 : S100x100.Idx → EReal) (ix2 k n))
        (fun n => (V c main_arg20 : S100.Idx → EReal) (ix1 n)) (fun k n => (V c main_arg21 : S100x128.Idx → EReal) (ix2 k n))
        (fun n => (V c main_arg22 : S128.Idx → EReal) (ix1 n)) (fun n => (V c main_arg23 : S128.Idx → EReal) (ix1 n))
        (fun n => (V c main_arg24 : S128.Idx → EReal) (ix1 n)) (i 1) :=
  (dat1 (F := Ideal) V c).arrAt_eq_of_cover 15 (nodeOut V c) (fun t _ => flushed_eq V c t) cover

end Cert.KernelIdeal.NodeArray

end
-- ==== Proof.HostReads.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HostReads

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-! What each region finds in the buffers it reads, as a term of the launch memory `m`: an argument array no host
    operation and no region writes is still the launch contents; a slice of a weight matrix is the slice; the
    aggregated messages are the scatter-add, into zeros, of the edge region's output array at the destination index
    of every edge (row 1 of the index pair array). -/

/-! ## One stretch of host operations at a time

A stretch writes only its operations' result buffers: any other buffer holds after the stretch what it held before.
Each lemma lists the stretch's result buffers; the contents `V` before the stretch are arbitrary. -/

/-- No operation of the stretch `ops` writes the buffer `r`, given `hr : r ∉ [the stretch's result buffers]`. -/
local macro "unwritten" ops:ident hr:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by intro e; subst e; exact $hr (by decide)))))

theorem keep0 (V : Valuation τ sig (Elt Ideal)) (r : Ref sig .tc) (hr : r ∉ [main_v0, main_v1, main_v2, main_v3]) :
    StableHlo.after (hostOps0 (F := Ideal)) V (Proc.devRef .tc r) = V (Proc.devRef .tc r) := by
  unwritten hostOps0 hr

theorem keep0_1 (V : Valuation τ sig (Elt Ideal)) (r : Ref sig .tc)
    (hr : r ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4]) :
    StableHlo.after (hostOps0_1 (F := Ideal)) V (Proc.devRef .tc r) = V (Proc.devRef .tc r) := by
  unwritten hostOps0_1 hr

theorem keep0_2 (V : Valuation τ sig (Elt Ideal)) (r : Ref sig .tc) (hr : r ∉ [main_v5, main_v6, main_v7]) :
    StableHlo.after (hostOps0_2 (F := Ideal)) V (Proc.devRef .tc r) = V (Proc.devRef .tc r) := by
  unwritten hostOps0_2 hr

theorem keep1 (V : Valuation τ sig (Elt Ideal)) (r : Ref sig .tc) (hr : r ∉ [main_cst, main_v9, main_v10, main_v11]) :
    StableHlo.after (hostOps1 (F := Ideal)) V (Proc.devRef .tc r) = V (Proc.devRef .tc r) := by
  unwritten hostOps1 hr

theorem keep1_1 (V : Valuation τ sig (Elt Ideal)) (r : Ref sig .tc)
    (hr : r ∉ [main_call1_c, main_call1_v0, main_call1_v1, main_call1_c_0, main_call1_v2, main_call1_v3, main_call1_v4,
      main_call1_v5, main_call1_c_1, main_call1_c_2, main_call1_v6, main_call1_v7, main_call1_v8, main_call1_v9,
      main_call1_v10, main_call1_v11, main_call1_c_3, main_call1_v12, main_call1_v13, main_call1_v14, main_call1_cst,
      main_call1_v15, main_v12]) :
    StableHlo.after (hostOps1_1 (F := Ideal)) V (Proc.devRef .tc r) = V (Proc.devRef .tc r) := by
  unwritten hostOps1_1 hr

theorem keep1_2 (V : Valuation τ sig (Elt Ideal)) (r : Ref sig .tc) (hr : r ∉ [main_v13, main_v14, main_v15]) :
    StableHlo.after (hostOps1_2 (F := Ideal)) V (Proc.devRef .tc r) = V (Proc.devRef .tc r) := by
  unwritten hostOps1_2 hr

/-- A buffer none of the first three stretches writes holds at the edge region's entry its launch contents. -/
theorem entry0_of (c : Dev nD) (r : Ref sig .tc) (h2 : r ∉ [main_v5, main_v6, main_v7])
    (h1 : r ∉ [main_call0_c, main_call0_v0, main_call0_v1, main_call0_c_0, main_call0_v2, main_call0_v3, main_call0_v4,
      main_call0_v5, main_call0_c_1, main_call0_c_2, main_call0_v6, main_call0_v7, main_call0_v8, main_call0_v9,
      main_call0_v10, main_call0_v11, main_call0_c_3, main_call0_v12, main_call0_v13, main_call0_v14, main_call0_cst,
      main_call0_v15, main_v4])
    (h0 : r ∉ [main_v0, main_v1, main_v2, main_v3]) :
    W3 (F := Ideal) m ρ c (Proc.devRef .tc r) = W0 m ρ c (Proc.devRef .tc r) :=
  (keep0_2 _ r h2).trans ((keep0_1 _ r h1).trans (keep0 _ r h0))

/-! ## The edge region's entry -/

theorem V3_arg2 (c : Dev nD) : V3 (F := Ideal) m ρ c main_arg2 = m ((c.tc : Thread nD τ).loc main_arg2) :=
  entry0_of m ρ c main_arg2 (by decide) (by decide) (by decide)
theorem V3_arg6 (c : Dev nD) : V3 (F := Ideal) m ρ c main_arg6 = m ((c.tc : Thread nD τ).loc main_arg6) :=
  entry0_of m ρ c main_arg6 (by decide) (by decide) (by decide)
theorem V3_arg7 (c : Dev nD) : V3 (F := Ideal) m ρ c main_arg7 = m ((c.tc : Thread nD τ).loc main_arg7) :=
  entry0_of m ρ c main_arg7 (by decide) (by decide) (by decide)
theorem V3_arg8 (c : Dev nD) : V3 (F := Ideal) m ρ c main_arg8 = m ((c.tc : Thread nD τ).loc main_arg8) :=
  entry0_of m ρ c main_arg8 (by decide) (by decide) (by decide)
theorem V3_arg9 (c : Dev nD) : V3 (F := Ideal) m ρ c main_arg9 = m ((c.tc : Thread nD τ).loc main_arg9) :=
  entry0_of m ρ c main_arg9 (by decide) (by decide) (by decide)
theorem V3_arg10 (c : Dev nD) : V3 (F := Ideal) m ρ c main_arg10 = m ((c.tc : Thread nD τ).loc main_arg10) :=
  entry0_of m ρ c main_arg10 (by decide) (by decide) (by decide)
theorem V3_arg11 (c : Dev nD) : V3 (F := Ideal) m ρ c main_arg11 = m ((c.tc : Thread nD τ).loc main_arg11) :=
  entry0_of m ρ c main_arg11 (by decide) (by decide) (by decide)
theorem V3_arg12 (c : Dev nD) : V3 (F := Ideal) m ρ c main_arg12 = m ((c.tc : Thread nD τ).loc main_arg12) :=
  entry0_of m ρ c main_arg12 (by decide) (by decide) (by decide)
theorem V3_arg13 (c : Dev nD) : V3 (F := Ideal) m ρ c main_arg13 = m ((c.tc : Thread nD τ).loc main_arg13) :=
  entry0_of m ρ c main_arg13 (by decide) (by decide) (by decide)
theorem V3_arg14 (c : Dev nD) : V3 (F := Ideal) m ρ c main_arg14 = m ((c.tc : Thread nD τ).loc main_arg14) :=
  entry0_of m ρ c main_arg14 (by decide) (by decide) (by decide)

/-- The third stretch's two slices, at arbitrary contents before the stretch. -/
theorem v6_of (V : Valuation τ sig (Elt Ideal)) :
    (StableHlo.after (hostOps0_2 (F := Ideal)) V (Proc.devRef .tc main_v6) : S128x100.Idx → EReal)
      = extractStridedSlice S128x100 ![0, 0] (V (Proc.devRef .tc main_arg5)) slices_S256x100_S128x100_0_0 := by
  after_results
theorem v7_of (V : Valuation τ sig (Elt Ideal)) :
    (StableHlo.after (hostOps0_2 (F := Ideal)) V (Proc.devRef .tc main_v7) : S128x100.Idx → EReal)
      = extractStridedSlice S128x100 ![128, 0] (V (Proc.devRef .tc main_arg5)) slices_S256x100_S128x100_128_0 := by
  after_results

/-- The first weight matrix of the edge network is as launched when the third stretch slices it. -/
theorem W2_arg5 (c : Dev nD) : W2 (F := Ideal) m ρ c (Proc.devRef .tc main_arg5) = m ((c.tc : Thread nD τ).loc main_arg5) :=
  (keep0_1 _ main_arg5 (by decide)).trans (keep0 _ main_arg5 (by decide))

theorem V3_v6 (c : Dev nD) : (V3 (F := Ideal) m ρ c main_v6 : S128x100.Idx → EReal)
    = extractStridedSlice S128x100 ![0, 0] (m ((c.tc : Thread nD τ).loc main_arg5)) slices_S256x100_S128x100_0_0 :=
  (v6_of _).trans (congrArg (extractStridedSlice S128x100 ![0, 0] · slices_S256x100_S128x100_0_0) (W2_arg5 m ρ c))
theorem V3_v7 (c : Dev nD) : (V3 (F := Ideal) m ρ c main_v7 : S128x100.Idx → EReal)
    = extractStridedSlice S128x100 ![128, 0] (m ((c.tc : Thread nD τ).loc main_arg5)) slices_S256x100_S128x100_128_0 :=
  (v7_of _).trans (congrArg (extractStridedSlice S128x100 ![128, 0] · slices_S256x100_S128x100_128_0) (W2_arg5 m ρ c))

/-! ## The node region's entry -/

theorem V7_arg0 (c : Dev nD) : V7 (F := Ideal) m ρ c main_arg0 = m ((c.tc : Thread nD τ).loc main_arg0) :=
  ((W8_arr m ρ c 0).trans (((dat1 (V7 m ρ) c).arrAt_in 0 rfl _).trans (A_eq1 (V7 m ρ) c 0))).symm.trans (W8_main_arg0 m ρ c)
theorem V7_arg16 (c : Dev nD) : V7 (F := Ideal) m ρ c main_arg16 = m ((c.tc : Thread nD τ).loc main_arg16) :=
  ((W8_arr m ρ c 6).trans (((dat1 (V7 m ρ) c).arrAt_in 6 rfl _).trans (A_eq1 (V7 m ρ) c 6))).symm.trans (W8_main_arg16 m ρ c)
theorem V7_arg17 (c : Dev nD) : V7 (F := Ideal) m ρ c main_arg17 = m ((c.tc : Thread nD τ).loc main_arg17) :=
  ((W8_arr m ρ c 7).trans (((dat1 (V7 m ρ) c).arrAt_in 7 rfl _).trans (A_eq1 (V7 m ρ) c 7))).symm.trans (W8_main_arg17 m ρ c)
theorem V7_arg18 (c : Dev nD) : V7 (F := Ideal) m ρ c main_arg18 = m ((c.tc : Thread nD τ).loc main_arg18) :=
  ((W8_arr m ρ c 8).trans (((dat1 (V7 m ρ) c).arrAt_in 8 rfl _).trans (A_eq1 (V7 m ρ) c 8))).symm.trans (W8_main_arg18 m ρ c)
theorem V7_arg19 (c : Dev nD) : V7 (F := Ideal) m ρ c main_arg19 = m ((c.tc : Thread nD τ).loc main_arg19) :=
  ((W8_arr m ρ c 9).trans (((dat1 (V7 m ρ) c).arrAt_in 9 rfl _).trans (A_eq1 (V7 m ρ) c 9))).symm.trans (W8_main_arg19 m ρ c)
theorem V7_arg20 (c : Dev nD) : V7 (F := Ideal) m ρ c main_arg20 = m ((c.tc : Thread nD τ).loc main_arg20) :=
  ((W8_arr m ρ c 10).trans (((dat1 (V7 m ρ) c).arrAt_in 10 rfl _).trans (A_eq1 (V7 m ρ) c 10))).symm.trans (W8_main_arg20 m ρ c)
theorem V7_arg21 (c : Dev nD) : V7 (F := Ideal) m ρ c main_arg21 = m ((c.tc : Thread nD τ).loc main_arg21) :=
  ((W8_arr m ρ c 11).trans (((dat1 (V7 m ρ) c).arrAt_in 11 rfl _).trans (A_eq1 (V7 m ρ) c 11))).symm.trans (W8_main_arg21 m ρ c)
theorem V7_arg22 (c : Dev nD) : V7 (F := Ideal) m ρ c main_arg22 = m ((c.tc : Thread nD τ).loc main_arg22) :=
  ((W8_arr m ρ c 12).trans (((dat1 (V7 m ρ) c).arrAt_in 12 rfl _).trans (A_eq1 (V7 m ρ) c 12))).symm.trans (W8_main_arg22 m ρ c)
theorem V7_arg23 (c : Dev nD) : V7 (F := Ideal) m ρ c main_arg23 = m ((c.tc : Thread nD τ).loc main_arg23) :=
  ((W8_arr m ρ c 13).trans (((dat1 (V7 m ρ) c).arrAt_in 13 rfl _).trans (A_eq1 (V7 m ρ) c 13))).symm.trans (W8_main_arg23 m ρ c)
theorem V7_arg24 (c : Dev nD) : V7 (F := Ideal) m ρ c main_arg24 = m ((c.tc : Thread nD τ).loc main_arg24) :=
  ((W8_arr m ρ c 14).trans (((dat1 (V7 m ρ) c).arrAt_in 14 rfl _).trans (A_eq1 (V7 m ρ) c 14))).symm.trans (W8_main_arg24 m ρ c)

/-- The last stretch's three slices, at arbitrary contents before the stretch. -/
theorem v13_of (V : Valuation τ sig (Elt Ideal)) :
    (StableHlo.after (hostOps1_2 (F := Ideal)) V (Proc.devRef .tc main_v13) : S128x100.Idx → EReal)
      = extractStridedSlice S128x100 ![0, 0] (V (Proc.devRef .tc main_arg15)) slices_S384x100_S128x100_0_0 := by
  after_results
theorem v14_of (V : Valuation τ sig (Elt Ideal)) :
    (StableHlo.after (hostOps1_2 (F := Ideal)) V (Proc.devRef .tc main_v14) : S128x100.Idx → EReal)
      = extractStridedSlice S128x100 ![128, 0] (V (Proc.devRef .tc main_arg15)) slices_S384x100_S128x100_128_0 := by
  after_results
theorem v15_of (V : Valuation τ sig (Elt Ideal)) :
    (StableHlo.after (hostOps1_2 (F := Ideal)) V (Proc.devRef .tc main_v15) : S128x100.Idx → EReal)
      = extractStridedSlice S128x100 ![256, 0] (V (Proc.devRef .tc main_arg15)) slices_S384x100_S128x100_256_0 := by
  after_results

/-- The first weight matrix of the node network is as launched when the last stretch slices it: it is as launched at
    the return, and neither the node region nor the last stretch writes it. -/
theorem W6_arg15 (c : Dev nD) : W6 (F := Ideal) m ρ c (Proc.devRef .tc main_arg15) = m ((c.tc : Thread nD τ).loc main_arg15) :=
  (keep1_2 _ main_arg15 (by decide)).symm.trans ((W8_of_ne m ρ c main_arg15 (by decide)).symm.trans (W8_main_arg15 m ρ c))

theorem V7_v13 (c : Dev nD) : (V7 (F := Ideal) m ρ c main_v13 : S128x100.Idx → EReal)
    = extractStridedSlice S128x100 ![0, 0] (m ((c.tc : Thread nD τ).loc main_arg15)) slices_S384x100_S128x100_0_0 :=
  (v13_of _).trans (congrArg (extractStridedSlice S128x100 ![0, 0] · slices_S384x100_S128x100_0_0) (W6_arg15 m ρ c))
theorem V7_v14 (c : Dev nD) : (V7 (F := Ideal) m ρ c main_v14 : S128x100.Idx → EReal)
    = extractStridedSlice S128x100 ![128, 0] (m ((c.tc : Thread nD τ).loc main_arg15)) slices_S384x100_S128x100_128_0 :=
  (v14_of _).trans (congrArg (extractStridedSlice S128x100 ![128, 0] · slices_S384x100_S128x100_128_0) (W6_arg15 m ρ c))
theorem V7_v15 (c : Dev nD) : (V7 (F := Ideal) m ρ c main_v15 : S128x100.Idx → EReal)
    = extractStridedSlice S128x100 ![256, 0] (m ((c.tc : Thread nD τ).loc main_arg15)) slices_S384x100_S128x100_256_0 :=
  (v15_of _).trans (congrArg (extractStridedSlice S128x100 ![256, 0] · slices_S384x100_S128x100_256_0) (W6_arg15 m ρ c))

/-- The first stretch's flattened row 1 of the index pair array, at arbitrary contents before the stretch. -/
theorem v3_of (V : Valuation τ sig (Elt Ideal)) :
    (StableHlo.after (hostOps0 (F := Ideal)) V (Proc.devRef .tc main_v3) : (⟨S800000, .i32⟩ : BufTy).Contents (Elt Ideal))
      = shapeCast _ (extractStridedSlice S1x800000 ![1, 0] (V (Proc.devRef .tc main_arg1)) slices_S2x800000_S1x800000_1_0) shapeCasts_S1x800000_S800000 := by
  after_results
  rfl

/-- The scatter-add of the stretch after the edge region, at arbitrary contents before the stretch: into the broadcast
    zero constant, at the broadcast of the flattened destination indices, of the edge region's output array. -/
theorem v11_of (V : Valuation τ sig (Elt Ideal)) :
    (StableHlo.after (hostOps1 (F := Ideal)) V (Proc.devRef .tc main_v11) : S50000x128.Idx → EReal)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (V (Proc.devRef .tc main_v3)))
          (V (Proc.devRef .tc main_v8)) := by
  after_results

/-- The flattened destination indices at the edge region's exit: the region and the second and third stretches leave
    them as the first stretch wrote them, from the launch contents of the index pair array. -/
theorem W4_v3 (c : Dev nD) :
    (W4 (F := Ideal) m ρ c (Proc.devRef .tc main_v3) : (⟨S800000, .i32⟩ : BufTy).Contents (Elt Ideal))
      = shapeCast _ (extractStridedSlice S1x800000 ![1, 0] (m ((c.tc : Thread nD τ).loc main_arg1)) slices_S2x800000_S1x800000_1_0) shapeCasts_S1x800000_S800000 :=
  (W4_of_ne m ρ c main_v3 (by decide)).trans ((keep0_2 _ main_v3 (by decide)).trans ((keep0_1 _ main_v3 (by decide)).trans (v3_of _)))

theorem V7_v11 (c : Dev nD) :
    (V7 (F := Ideal) m ρ c main_v11 : S50000x128.Idx → EReal)
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0
            (shapeCast _ (extractStridedSlice S1x800000 ![1, 0] (m ((c.tc : Thread nD τ).loc main_arg1)) slices_S2x800000_S1x800000_1_0) shapeCasts_S1x800000_S800000))
          ((dat0 (V3 m ρ) c).arrAt 13 cfg0.N) := by
  refine (keep1_2 _ main_v11 (by decide)).trans ((keep1_1 _ main_v11 (by decide)).trans ((v11_of _).trans ?_))
  rw [W4_v3 m ρ c]
  exact congrArg (Host.scatterAdd scatter_S50000x128_S800000x1_S800000x128_1_0_0_1 _ _) (W4_arr m ρ c 13)

end Cert.KernelIdeal.HostReads

end
-- ==== Proof.PreRange.lean ====
import proofs.«403091_j49546742726708_1_alg».proof.Defs
import proofs.«403091_j49546742726708_1_alg».proof.Proof.Gen.KernelIdeal
import proofs.«403091_j49546742726708_1_alg».proof.Proof.Gen.Pre_finite_inputs
import Idealize.ShloMosaic.Lib.ValueIdx
import Idealize.ShloMosaic.Lib.ReduceAll
import Idealize.ShloMosaic.Lib.StableHlo.Predicate

/-!
  The precondition is a one-bit scalar, the conjunction (bitwise and) of 27 one-bit scalars, stated to be 1. Its last
  four conjuncts are reductions by and, over all indices, of elementwise signed comparisons: of row 0 of the index
  pair array with 0 (at least) and with 50000 (below), and of the graph index array with 0 (at least) and with 64
  (below). A conjunction that is 1 has both operands 1; a reduction by and that is 1 met a 1 at every index; a signed
  comparison word that is 1 says the order of the two words read as signed integers. So at every index the source
  index lies in [0, 50000) and the graph index lies in [0, 64).
-/

noncomputable section

namespace Cert.Pre_finite_inputs.Range

open Idealize.ShloMosaic Idealize.ShloMosaic.ValueIdx Cert.Pre_finite_inputs.Facts

variable [Cert.Pre_finite_inputs.Facts]

/-- A scalar array has one index. -/
local instance : Subsingleton S_.Idx := ⟨fun a b => funext fun d => d.elim0⟩

/-- Row 0 of the [2, 800000] index pair array, as a vector of 800000 words. -/
abbrev row (a1 : IVec S2x800000 32) : IVec S800000 32 :=
  shapeCast S800000 (extractStridedSlice S1x800000 ![0, 0] a1 slices_S2x800000_S1x800000_0_0) shapeCasts_S1x800000_S800000

/-- The four range facts: every word of row 0 of the pair array is in [0, 50000), every word of the graph index array
    is in [0, 64), read as signed integers. -/
def InRange (a1 : IVec S2x800000 32) (a4 : IVec S50000 32) : Prop :=
  (∀ i : S800000.Idx, 0 ≤ (row a1 i).toInt ∧ (row a1 i).toInt < 50000)
    ∧ ∀ i : S50000.Idx, 0 ≤ (a4 i).toInt ∧ (a4 i).toInt < 64

/-- An elementwise and that is 1 at an index has both operands 1 there. -/
theorem andi_at {s : Shape} (x y : IVec s 1) (j : s.Idx) (h : andi x y j = 1#1) : x j = 1#1 ∧ y j = 1#1 :=
  IntOp.andi_eq_one.1 h

/-- An elementwise signed "below" that is 1 at an index orders the two words there as integers. -/
theorem slt_at {s : Shape} (x y : IVec s 32) (i : s.Idx) (h : cmpi .slt x y i = 1#1) : (x i).toInt < (y i).toInt :=
  IntOp.cmpi_slt.1 h

/-- An elementwise signed "at least" that is 1 at an index orders the two words there as integers. -/
theorem sge_at {s : Shape} (x y : IVec s 32) (i : s.Idx) (h : cmpi .sge x y i = 1#1) : (y i).toInt ≤ (x i).toInt :=
  IntOp.cmpi_sge.1 h

theorem toInt_0 : (0#32 : BitVec 32).toInt = 0 := by decide
theorem toInt_64 : (64#32 : BitVec 32).toInt = 64 := by decide
theorem toInt_50000 : (50000#32 : BitVec 32).toInt = 50000 := by decide

/-- The last part of the chain: its result 1 says the conjunction so far is 1, row 0 is below 50000, and the graph
    indices are in [0, 64). -/
theorem part7 {F : FTy → Type} [FloatOps F] (a1 : IVec S2x800000 32) (a4 : IVec S50000 32) (v : IVec S_ 1)
    (h : fn_part7 (F := F) a1 a4 v = fun _ => 1#1) :
    v ix0 = 1#1 ∧ (∀ i : S800000.Idx, (row a1 i).toInt < 50000) ∧ ∀ i : S50000.Idx, 0 ≤ (a4 i).toInt ∧ (a4 i).toInt < 64 := by
  have e := congrFun h ix0
  unfold fn_part7 at e
  dsimp only at e
  obtain ⟨e, h132⟩ := andi_at _ _ _ e
  obtain ⟨e, h128⟩ := andi_at _ _ _ e
  obtain ⟨hv, h124⟩ := andi_at _ _ _ e
  have r124 := Host.reduce_andi_all _ _ reducesTo_S800000_S_d0 h_S_ ix0 h124
  have r128 := Host.reduce_andi_all _ _ reducesTo_S50000_S_d0 h_S_ ix0 h128
  have r132 := Host.reduce_andi_all _ _ reducesTo_S50000_S_d0 h_S_ ix0 h132
  refine ⟨hv, fun i => ?_, fun i => ⟨?_, ?_⟩⟩
  · have := slt_at _ _ i (r124 i)
    have hc : (row a1 i).toInt < (50000#32 : BitVec 32).toInt := this
    rwa [toInt_50000] at hc
  · have := sge_at _ _ i (r128 i)
    have hc : (0#32 : BitVec 32).toInt ≤ (a4 i).toInt := this
    rwa [toInt_0] at hc
  · have := slt_at _ _ i (r132 i)
    have hc : (a4 i).toInt < (64#32 : BitVec 32).toInt := this
    rwa [toInt_64] at hc

/-- The part before: it adds that row 0 is at least 0. -/
theorem part6 {F : FTy → Type} [FloatOps F] (a1 : IVec S2x800000 32) (a4 : IVec S50000 32) :
    ∀ a23 a24 v98 v101 c39, fn_part6 (F := F) a1 a4 a23 a24 v98 v101 c39 = (fun _ => 1#1) → InRange a1 a4 := by
  intro a23 a24 v98 v101 c39 h
  unfold fn_part6 at h
  obtain ⟨hv, hlt, h4⟩ := part7 a1 a4 _ h
  obtain ⟨-, h118⟩ := andi_at _ _ _ hv
  have r118 := Host.reduce_andi_all _ _ reducesTo_S800000_S_d0 h_S_ ix0 h118
  refine ⟨fun i => ⟨?_, hlt i⟩, h4⟩
  have := sge_at _ _ i (r118 i)
  have hc : (0#32 : BitVec 32).toInt ≤ (row a1 i).toInt := this
  rwa [toInt_0] at hc

/-! The earlier parts only pass the two index arrays on and extend the conjunction on the left. -/

theorem part5 {F : FTy → Type} [FloatOps F] (a1 : IVec S2x800000 32) (a4 : IVec S50000 32) :
    ∀ a20 a21 a22 a23 a24 v83 v84 c32, fn_part5 (F := F) a1 a4 a20 a21 a22 a23 a24 v83 v84 c32 = (fun _ => 1#1) → InRange a1 a4 :=
  fun _ _ _ _ _ _ _ _ h => part6 (F := F) a1 a4 _ _ _ _ _ h

theorem part4 {F : FTy → Type} [FloatOps F] (a1 : IVec S2x800000 32) (a4 : IVec S50000 32) :
    ∀ a16 a17 a18 a19 a20 a21 a22 a23 a24 v63 v67,
      fn_part4 (F := F) a1 a4 a16 a17 a18 a19 a20 a21 a22 a23 a24 v63 v67 = (fun _ => 1#1) → InRange a1 a4 :=
  fun _ _ _ _ _ _ _ _ _ _ _ h => part5 (F := F) a1 a4 _ _ _ _ _ _ _ _ h

theorem part3 {F : FTy → Type} [FloatOps F] (a1 : IVec S2x800000 32) (a4 : IVec S50000 32) :
    ∀ a13 a14 a15 a16 a17 a18 a19 a20 a21 a22 a23 a24 v48 v49 v50,
      fn_part3 (F := F) a1 a4 a13 a14 a15 a16 a17 a18 a19 a20 a21 a22 a23 a24 v48 v49 v50 = (fun _ => 1#1) → InRange a1 a4 :=
  fun _ _ _ _ _ _ _ _ _ _ _ _ _ _ _ h => part4 (F := F) a1 a4 _ _ _ _ _ _ _ _ _ _ _ h

theorem part2 {F : FTy → Type} [FloatOps F] (a1 : IVec S2x800000 32) (a4 : IVec S50000 32) :
    ∀ a9 a10 a11 a12 a13 a14 a15 a16 a17 a18 a19 a20 a21 a22 a23 a24 v33,
      fn_part2 (F := F) a1 a4 a9 a10 a11 a12 a13 a14 a15 a16 a17 a18 a19 a20 a21 a22 a23 a24 v33 = (fun _ => 1#1) → InRange a1 a4 :=
  fun _ _ _ _ _ _ _ _ _ _ _ _ _ _ _ _ _ h => part3 (F := F) a1 a4 _ _ _ _ _ _ _ _ _ _ _ _ _ _ _ h

theorem part1 {F : FTy → Type} [FloatOps F] (a1 : IVec S2x800000 32) (a4 : IVec S50000 32) :
    ∀ a6 a7 a8 a9 a10 a11 a12 a13 a14 a15 a16 a17 a18 a19 a20 a21 a22 a23 a24 v13 v16,
      fn_part1 (F := F) a1 a4 a6 a7 a8 a9 a10 a11 a12 a13 a14 a15 a16 a17 a18 a19 a20 a21 a22 a23 a24 v13 v16 = (fun _ => 1#1)
        → InRange a1 a4 :=
  fun _ _ _ _ _ _ _ _ _ _ _ _ _ _ _ _ _ _ _ _ _ h => part2 (F := F) a1 a4 _ _ _ _ _ _ _ _ _ _ _ _ _ _ _ _ _ h

/-- The whole predicate: all ones says the four range facts. -/
theorem fn_inRange {F : FTy → Type} [FloatOps F] (a1 : IVec S2x800000 32) (a4 : IVec S50000 32) :
    ∀ a0 a2 a3 a5 a6 a7 a8 a9 a10 a11 a12 a13 a14 a15 a16 a17 a18 a19 a20 a21 a22 a23 a24,
      fn (F := F) a0 a1 a2 a3 a4 a5 a6 a7 a8 a9 a10 a11 a12 a13 a14 a15 a16 a17 a18 a19 a20 a21 a22 a23 a24 = (fun _ => 1#1)
        → InRange a1 a4 :=
  fun _ _ _ _ _ _ _ _ _ _ _ _ _ _ _ _ _ _ _ _ _ _ _ h => part1 (F := F) a1 a4 _ _ _ _ _ _ _ _ _ _ _ _ _ _ _ _ _ _ _ _ _ h

end Cert.Pre_finite_inputs.Range

namespace Cert.KernelIdeal.PreRange

open Cert.KernelIdeal Cert.KernelIdeal.Gen Idealize.ShloMosaic Idealize.ShloMosaic.ValueIdx Idealize.ShloMosaic.TcCoe Idealize.SL.Sem

variable [Cert.Pre_finite_inputs.Facts]
variable (m : (ℓ : Loc nD τ sig) → Buf (Elt Ideal) ℓ)

/-! The precondition's last four conjuncts, read at an index: every edge's source index (row 0 of the index pair
    array) lies in [0, 50000), and every node's graph index lies in [0, 64), as signed 32-bit words. -/

theorem row_range (hpre : Cert.Pre_KernelIdeal m) (c : Dev nD) (i : S800000.Idx) :
    0 ≤ ((shapeCast S800000 (extractStridedSlice S1x800000 ![0, 0] (m ((c.tc : Thread nD τ).loc main_arg1)) slices_S2x800000_S1x800000_0_0) shapeCasts_S1x800000_S800000
          : (⟨S800000, .i32⟩ : BufTy).Contents (Elt Ideal)) i : BitVec 32).toInt
    ∧ ((shapeCast S800000 (extractStridedSlice S1x800000 ![0, 0] (m ((c.tc : Thread nD τ).loc main_arg1)) slices_S2x800000_S1x800000_0_0) shapeCasts_S1x800000_S800000
          : (⟨S800000, .i32⟩ : BufTy).Contents (Elt Ideal)) i : BitVec 32).toInt < 50000 :=
  (Cert.Pre_finite_inputs.Range.fn_inRange (F := Ideal) _ _ _ _ _ _ _ _ _ _ _ _ _ _ _ _ _ _ _ _ _ _ _ _ _ (hpre c)).1 i

theorem batch_range (hpre : Cert.Pre_KernelIdeal m) (c : Dev nD) (i : S50000.Idx) :
    0 ≤ ((m ((c.tc : Thread nD τ).loc main_arg4) : (⟨S50000, .i32⟩ : BufTy).Contents (Elt Ideal)) i : BitVec 32).toInt
    ∧ ((m ((c.tc : Thread nD τ).loc main_arg4) : (⟨S50000, .i32⟩ : BufTy).Contents (Elt Ideal)) i : BitVec 32).toInt < 64 :=
  (Cert.Pre_finite_inputs.Range.fn_inRange (F := Ideal) _ _ _ _ _ _ _ _ _ _ _ _ _ _ _ _ _ _ _ _ _ _ _ _ _ (hpre c)).2 i

end Cert.KernelIdeal.PreRange

end
-- ==== Proof.TakeInRange.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«403091_j49546742726708_1_alg».proof.Defs
import Idealize.ShloMosaic.Lib.ReduceAll
import Idealize.ShloMosaic.Lib.StableHlo.Predicate
import proofs.«403091_j49546742726708_1_alg».proof.Proof.PreRange

noncomputable section

namespace Cert.KernelIdeal.TakeInRange

open Cert.KernelIdeal Cert.KernelIdeal.Gen Idealize.ShloMosaic Idealize.ShloMosaic.ValueIdx Idealize.ShloMosaic.TcCoe Idealize.SL.Sem
open Idealize.ShloMosaic.StableHlo

variable [Cert.Pre_finite_inputs.Facts]
variable (m : (ℓ : Loc nD τ sig) → Buf (Elt Ideal) ℓ) (ρ : Dev nD → PrngReg)

/-! The kernel gathers rows with `take` in its default mode: a negative index is wrapped once, the row is gathered, and
    a row whose wrapped index lies outside the array is replaced by a fill word. Under the precondition every source
    index lies in [0, 50000) and every graph index in [0, 64), so no row is replaced: what the regions read is the
    plain gather at the wrapped index, which is the reference's term. -/

/-! ## Words: the two comparisons of the range test, for a word whose signed value lies in [0, n) -/

/-- A left fold by `and` over one-bit words that starts at 1 and meets only 1s ends at 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_of_all f l _ (IntOp.andi_eq_one.2 ⟨hi, h a List.mem_cons_self⟩)
      fun n hn => h n (List.mem_cons_of_mem _ hn)

/-- A reduction by `and` of an array of 1s, from the initial value 1, is 1 at every result index. -/
theorem reduce_andi_of_all {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_of_all x _ _ (hi _) fun n _ => hx n

/-- A word whose signed value is not negative is not below 0 ... -/
theorem not_slt_zero {a : BitVec 32} (h0 : 0 ≤ a.toInt) : IntOp.cmpi .slt a 0#32 = 0#1 := by
  have hn : ¬ IntOp.cmpi .slt a 0#32 = 1#1 := fun e => by
    have h := IntOp.cmpi_slt.1 e
    have z : (0#32 : BitVec 32).toInt = 0 := by decide
    omega
  revert hn; generalize IntOp.cmpi .slt a 0#32 = b; revert b; decide

/-- ... and is at least 0. -/
theorem sge_zero {a : BitVec 32} (h0 : 0 ≤ a.toInt) : IntOp.cmpi .sge a 0#32 = 1#1 :=
  IntOp.cmpi_sge.2 (by have z : (0#32 : BitVec 32).toInt = 0 := by decide
                       omega)

/-- A word whose signed value is below `n` is at most the word `p` of value `n - 1`. -/
theorem sle_pred {a p : BitVec 32} {n : Int} (hp : p.toInt + 1 = n) (h1 : a.toInt < n) : IntOp.cmpi .sle a p = 1#1 :=
  IntOp.cmpi_sle.2 (by omega)

/-! ## Vectors: the take's range mask is all ones, so its outer `select` returns the gather -/

/-- The wrapped index at a position whose index is not negative is the index itself. -/
theorem wrap_apply {s1 : Shape} (b : (⟨0, ![]⟩ : Shape).BroadcastsInDim s1 ![]) (row : IVec s1 32) (n : BitVec 32) (k : s1.Idx)
    (h0 : 0 ≤ (row k).toInt) :
    select (cmpi .slt row (broadcastInDim s1 ![] b (constantI ⟨0, ![]⟩ 32 0#32)))
      (addi row (broadcastInDim s1 ![] b (constantI ⟨0, ![]⟩ 32 n))) row k = row k := by
  show Scalar.select (IntOp.cmpi .slt (row k) 0#32) _ _ = _
  rw [not_slt_zero h0]; rfl

/-- A `select` whose condition is the broadcast of an all-ones mask returns its first branch. -/
theorem select_bcast_of_all {α : Type} {s1 s3 : Shape} {d : Fin s1.rank → Fin s3.rank} (h : s1.BroadcastsInDim s3 d)
    (mask : IVec s1 1) (hm : ∀ j, mask j = 1#1) (g f : s3.Idx → α) :
    select (broadcastInDim s3 d h mask) g f = g := by
  funext j
  show Scalar.select (mask _) (g j) (f j) = g j
  rw [hm]; rfl

/-- The range mask of a take: when every index lies in [0, p], the reduction by `and` of (index ≥ 0) and (index ≤ p)
    along the unit axis is 1 everywhere. -/
theorem take_mask {s1 s2 sC s11 : Shape} {axes : List (Fin s2.rank)} {d12 : Fin s1.rank → Fin s2.rank}
    {dC : Fin sC.rank → Fin s11.rank} {d112 : Fin s11.rank → Fin s2.rank}
    (b12 : s1.BroadcastsInDim s2 d12) (b02 : (⟨0, ![]⟩ : Shape).BroadcastsInDim s2 ![]) (bC : sC.BroadcastsInDim s11 dC)
    (b112 : s11.BroadcastsInDim s2 d112) (hr : s2.ReducesTo axes s1) (h0 : 0 < (⟨0, ![]⟩ : Shape).numel)
    (idx : IVec s1 32) (p : BitVec 32)
    (hge : ∀ k, IntOp.cmpi .sge (idx k) 0#32 = 1#1) (hle : ∀ k, IntOp.cmpi .sle (idx k) p = 1#1) (j : s1.Idx) :
    Host.reduce IntOp.andi
      (andi (cmpi .sge (broadcastInDim s2 d12 b12 idx) (broadcastInDim s2 ![] b02 (constantI ⟨0, ![]⟩ 32 0#32)))
            (cmpi .sle (broadcastInDim s2 d12 b12 idx) (broadcastInDim s2 d112 b112 (broadcastInDim s11 dC bC (constantI sC 32 p)))))
      (constantI ⟨0, ![]⟩ 1 1#1) hr h0 j = 1#1 :=
  reduce_andi_of_all _ _ hr h0 (fun _ => rfl) (fun i => by
    show IntOp.andi (IntOp.cmpi .sge (idx _) 0#32) (IntOp.cmpi .sle (idx _) p) = 1#1
    exact IntOp.andi_eq_one.2 ⟨hge _, hle _⟩) j

/-- The take in its default mode, for an index vector `row` whose every entry has signed value in [0, n): the wrapped
    index is the index, it passes the range test, and the result is the gather at the wrapped index. -/
theorem take_in_range {α : Type} {sN s1 s2 s3 sC s11 : Shape} {axes : List (Fin s2.rank)} {d12 : Fin s1.rank → Fin s2.rank}
    {dC : Fin sC.rank → Fin s11.rank} {d112 : Fin s11.rank → Fin s2.rank} {d13 : Fin s1.rank → Fin s3.rank}
    (b01 : (⟨0, ![]⟩ : Shape).BroadcastsInDim s1 ![]) (b12 : s1.BroadcastsInDim s2 d12)
    (b02 : (⟨0, ![]⟩ : Shape).BroadcastsInDim s2 ![]) (bC : sC.BroadcastsInDim s11 dC) (b112 : s11.BroadcastsInDim s2 d112)
    (hr : s2.ReducesTo axes s1) (h0 : 0 < (⟨0, ![]⟩ : Shape).numel) (b13 : s1.BroadcastsInDim s3 d13)
    (d : GatherDims sN s2 s3) (x : sN.Idx → α) (fill : s3.Idx → α) (row : IVec s1 32) (n p : BitVec 32) (N : Int)
    (hp : p.toInt + 1 = N) (hrow : ∀ k, 0 ≤ (row k).toInt ∧ (row k).toInt < N) :
    select (broadcastInDim s3 d13 b13
        (Host.reduce IntOp.andi
          (andi (cmpi .sge (broadcastInDim s2 d12 b12 (select (cmpi .slt row (broadcastInDim s1 ![] b01 (constantI ⟨0, ![]⟩ 32 0#32)))
                    (addi row (broadcastInDim s1 ![] b01 (constantI ⟨0, ![]⟩ 32 n))) row))
                  (broadcastInDim s2 ![] b02 (constantI ⟨0, ![]⟩ 32 0#32)))
                (cmpi .sle (broadcastInDim s2 d12 b12 (select (cmpi .slt row (broadcastInDim s1 ![] b01 (constantI ⟨0, ![]⟩ 32 0#32)))
                    (addi row (broadcastInDim s1 ![] b01 (constantI ⟨0, ![]⟩ 32 n))) row))
                  (broadcastInDim s2 d112 b112 (broadcastInDim s11 dC bC (constantI sC 32 p)))))
          (constantI ⟨0, ![]⟩ 1 1#1) hr h0))
      (Host.gather d x (broadcastInDim s2 d12 b12 (select (cmpi .slt row (broadcastInDim s1 ![] b01 (constantI ⟨0, ![]⟩ 32 0#32)))
                    (addi row (broadcastInDim s1 ![] b01 (constantI ⟨0, ![]⟩ 32 n))) row)))
      fill
    = Host.gather d x (broadcastInDim s2 d12 b12 (select (cmpi .slt row (broadcastInDim s1 ![] b01 (constantI ⟨0, ![]⟩ 32 0#32)))
                    (addi row (broadcastInDim s1 ![] b01 (constantI ⟨0, ![]⟩ 32 n))) row)) :=
  select_bcast_of_all b13 _ (take_mask b12 b02 bC b112 hr h0 _ p
    (fun k => by rw [wrap_apply b01 row n k (hrow k).1]; exact sge_zero (hrow k).1)
    (fun k => by rw [wrap_apply b01 row n k (hrow k).1]; exact sle_pred hp (hrow k).2)) _ _

/-! ## Buffers: what the stretches of host operations leave in the two gathered arrays -/

/-- The kernel's take of rows of `x` (50000 of them) at the index vector `row`, as its operations compute it. -/
abbrev take0 (x : S50000x128.Idx → EReal) (row : S800000.Idx → BitVec 32) : S800000x128.Idx → EReal :=
  select (broadcastInDim S800000x128 ![0] bcast_S800000_S800000x128_0
      (Host.reduce IntOp.andi
        (andi (cmpi .sge (broadcastInDim S800000x1 ![0] bcast_S800000_S800000x1_0
                  (select (cmpi .slt row (broadcastInDim S800000 ![] bcast_S_S800000 (constantI S_ 32 0#32)))
                    (addi row (broadcastInDim S800000 ![] bcast_S_S800000 (constantI S_ 32 50000#32))) row))
                (broadcastInDim S800000x1 ![] bcast_S_S800000x1 (constantI S_ 32 0#32)))
              (cmpi .sle (broadcastInDim S800000x1 ![0] bcast_S800000_S800000x1_0
                  (select (cmpi .slt row (broadcastInDim S800000 ![] bcast_S_S800000 (constantI S_ 32 0#32)))
                    (addi row (broadcastInDim S800000 ![] bcast_S_S800000 (constantI S_ 32 50000#32))) row))
                (broadcastInDim S800000x1 ![0, 1] bcast_S1x1_S800000x1_0_1 (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x
      (broadcastInDim S800000x1 ![0] bcast_S800000_S800000x1_0
        (select (cmpi .slt row (broadcastInDim S800000 ![] bcast_S_S800000 (constantI S_ 32 0#32)))
          (addi row (broadcastInDim S800000 ![] bcast_S_S800000 (constantI S_ 32 50000#32))) row)))
    (broadcastInDim S800000x128 ![] bcast_S_S800000x128 (constant (F := Ideal) S_ .f32 0x7FC00000#32))

/-- The kernel's take of rows of `x` (64 of them) at the index vector `row`. -/
abbrev take1 (x : S64x128.Idx → EReal) (row : S50000.Idx → BitVec 32) : S50000x128.Idx → EReal :=
  select (broadcastInDim S50000x128 ![0] bcast_S50000_S50000x128_0
      (Host.reduce IntOp.andi
        (andi (cmpi .sge (broadcastInDim S50000x1 ![0] bcast_S50000_S50000x1_0
                  (select (cmpi .slt row (broadcastInDim S50000 ![] bcast_S_S50000 (constantI S_ 32 0#32)))
                    (addi row (broadcastInDim S50000 ![] bcast_S_S50000 (constantI S_ 32 64#32))) row))
                (broadcastInDim S50000x1 ![] bcast_S_S50000x1 (constantI S_ 32 0#32)))
              (cmpi .sle (broadcastInDim S50000x1 ![0] bcast_S50000_S50000x1_0
                  (select (cmpi .slt row (broadcastInDim S50000 ![] bcast_S_S50000 (constantI S_ 32 0#32)))
                    (addi row (broadcastInDim S50000 ![] bcast_S_S50000 (constantI S_ 32 64#32))) row))
                (broadcastInDim S50000x1 ![0, 1] bcast_S1x1_S50000x1_0_1 (broadcastInDim S1x1 ![1] bcast_S1_S1x1_1 (constantI S1 32 63#32)))))
        (constantI S_ 1 1#1) reducesTo_S50000x1_S50000_d1 h_S_))
    (Host.gather gather_S64x128_S50000x1_S50000x128_1_0_n_n_0_1_1128 x
      (broadcastInDim S50000x1 ![0] bcast_S50000_S50000x1_0
        (select (cmpi .slt row (broadcastInDim S50000 ![] bcast_S_S50000 (constantI S_ 32 0#32)))
          (addi row (broadcastInDim S50000 ![] bcast_S_S50000 (constantI S_ 32 64#32))) row)))
    (broadcastInDim S50000x128 ![] bcast_S_S50000x128 (constant (F := Ideal) S_ .f32 0x7FC00000#32))

section Reads
variable (V : Valuation τ sig (Elt Ideal))

/-- Reads one buffer after a literal stretch (or a literal piece of one): each operation's result at its own buffer is
    its function of its operands' contents, any other buffer keeps what it held. -/
local macro "read_stretch" ops:ident : tactic =>
  `(tactic| (simp only [$ops:ident, List.take_succ_cons, List.take_zero, List.drop_succ_cons, List.drop_zero]
             after_results_simp <;> simp only [TRef.ofBuf, TRef.toBuf, cast_eq]))

/-! ### The first take, in three pieces: the wrapped index column, the range mask, the guarded gather -/

theorem a0_v5 : (StableHlo.after ((hostOps0_1 (F := Ideal)).take 8) V (Proc.devRef .tc main_call0_v5) : S800000x1.Idx → BitVec 32)
      = broadcastInDim S800000x1 ![0] bcast_S800000_S800000x1_0
          (select (cmpi .slt (V (Proc.devRef .tc main_v1) : S800000.Idx → BitVec 32) (broadcastInDim S800000 ![] bcast_S_S800000 (constantI S_ 32 0#32)))
            (addi (V (Proc.devRef .tc main_v1) : S800000.Idx → BitVec 32) (broadcastInDim S800000 ![] bcast_S_S800000 (constantI S_ 32 50000#32)))
            (V (Proc.devRef .tc main_v1))) := by read_stretch hostOps0_1
theorem a0_arg0 : StableHlo.after ((hostOps0_1 (F := Ideal)).take 8) V (Proc.devRef .tc main_arg0) = V (Proc.devRef .tc main_arg0) := by
  read_stretch hostOps0_1

theorem b0_v12 : (StableHlo.after (((hostOps0_1 (F := Ideal)).drop 8).take 10) V (Proc.devRef .tc main_call0_v12) : S800000.Idx → BitVec 1)
      = Host.reduce IntOp.andi
          (andi (cmpi .sge (V (Proc.devRef .tc main_call0_v5) : S800000x1.Idx → BitVec 32) (broadcastInDim S800000x1 ![] bcast_S_S800000x1 (constantI S_ 32 0#32)))
            (cmpi .sle (V (Proc.devRef .tc main_call0_v5) : S800000x1.Idx → BitVec 32) (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_ := by read_stretch hostOps0_1
theorem b0_v5 : StableHlo.after (((hostOps0_1 (F := Ideal)).drop 8).take 10) V (Proc.devRef .tc main_call0_v5) = V (Proc.devRef .tc main_call0_v5) := by
  read_stretch hostOps0_1
theorem b0_arg0 : StableHlo.after (((hostOps0_1 (F := Ideal)).drop 8).take 10) V (Proc.devRef .tc main_arg0) = V (Proc.devRef .tc main_arg0) := by
  read_stretch hostOps0_1

theorem c0_v4 : (StableHlo.after ((hostOps0_1 (F := Ideal)).drop 18) V (Proc.devRef .tc main_v4) : S800000x128.Idx → EReal)
      = select (broadcastInDim S800000x128 ![0] bcast_S800000_S800000x128_0 (V (Proc.devRef .tc main_call0_v12) : S800000.Idx → BitVec 1))
          (Host.gather gather_S50000x128_S800000x1_S800000x128_1_0_n_n_0_1_1128 (V (Proc.devRef .tc main_arg0) : S50000x128.Idx → EReal)
            (V (Proc.devRef .tc main_call0_v5) : S800000x1.Idx → BitVec 32))
          (broadcastInDim S800000x128 ![] bcast_S_S800000x128 (constant (F := Ideal) S_ .f32 0x7FC00000#32)) := by read_stretch hostOps0_1

/-- The first take's result buffer after its stretch, from any contents. -/
theorem take0_v4 : (StableHlo.after (hostOps0_1 (F := Ideal)) V (Proc.devRef .tc main_v4) : S800000x128.Idx → EReal)
      = take0 (V (Proc.devRef .tc main_arg0)) (V (Proc.devRef .tc main_v1)) := by
  show StableHlo.after ((hostOps0_1 (F := Ideal)).take 8 ++ (((hostOps0_1 (F := Ideal)).drop 8).take 10 ++ (hostOps0_1 (F := Ideal)).drop 18)) V _ = _
  rw [StableHlo.after_append, StableHlo.after_append, c0_v4, b0_v12, b0_v5, b0_arg0, a0_v5, a0_arg0]

/-! ### The second take, in the same three pieces -/

theorem a1_v5 : (StableHlo.after ((hostOps1_1 (F := Ideal)).take 8) V (Proc.devRef .tc main_call1_v5) : S50000x1.Idx → BitVec 32)
      = broadcastInDim S50000x1 ![0] bcast_S50000_S50000x1_0
          (select (cmpi .slt (V (Proc.devRef .tc main_arg4) : S50000.Idx → BitVec 32) (broadcastInDim S50000 ![] bcast_S_S50000 (constantI S_ 32 0#32)))
            (addi (V (Proc.devRef .tc main_arg4) : S50000.Idx → BitVec 32) (broadcastInDim S50000 ![] bcast_S_S50000 (constantI S_ 32 64#32)))
            (V (Proc.devRef .tc main_arg4))) := by read_stretch hostOps1_1
theorem a1_arg3 : StableHlo.after ((hostOps1_1 (F := Ideal)).take 8) V (Proc.devRef .tc main_arg3) = V (Proc.devRef .tc main_arg3) := by
  read_stretch hostOps1_1

theorem b1_v12 : (StableHlo.after (((hostOps1_1 (F := Ideal)).drop 8).take 10) V (Proc.devRef .tc main_call1_v12) : S50000.Idx → BitVec 1)
      = Host.reduce IntOp.andi
          (andi (cmpi .sge (V (Proc.devRef .tc main_call1_v5) : S50000x1.Idx → BitVec 32) (broadcastInDim S50000x1 ![] bcast_S_S50000x1 (constantI S_ 32 0#32)))
            (cmpi .sle (V (Proc.devRef .tc main_call1_v5) : S50000x1.Idx → BitVec 32) (broadcastInDim S50000x1 ![0, 1] bcast_S1x1_S50000x1_0_1 (broadcastInDim S1x1 ![1] bcast_S1_S1x1_1 (constantI S1 32 63#32)))))
          (constantI S_ 1 1#1) reducesTo_S50000x1_S50000_d1 h_S_ := by read_stretch hostOps1_1
theorem b1_v5 : StableHlo.after (((hostOps1_1 (F := Ideal)).drop 8).take 10) V (Proc.devRef .tc main_call1_v5) = V (Proc.devRef .tc main_call1_v5) := by
  read_stretch hostOps1_1
theorem b1_arg3 : StableHlo.after (((hostOps1_1 (F := Ideal)).drop 8).take 10) V (Proc.devRef .tc main_arg3) = V (Proc.devRef .tc main_arg3) := by
  read_stretch hostOps1_1

theorem c1_v12 : (StableHlo.after ((hostOps1_1 (F := Ideal)).drop 18) V (Proc.devRef .tc main_v12) : S50000x128.Idx → EReal)
      = select (broadcastInDim S50000x128 ![0] bcast_S50000_S50000x128_0 (V (Proc.devRef .tc main_call1_v12) : S50000.Idx → BitVec 1))
          (Host.gather gather_S64x128_S50000x1_S50000x128_1_0_n_n_0_1_1128 (V (Proc.devRef .tc main_arg3) : S64x128.Idx → EReal)
            (V (Proc.devRef .tc main_call1_v5) : S50000x1.Idx → BitVec 32))
          (broadcastInDim S50000x128 ![] bcast_S_S50000x128 (constant (F := Ideal) S_ .f32 0x7FC00000#32)) := by read_stretch hostOps1_1

/-- The second take's result buffer after its stretch, from any contents. -/
theorem take1_v12 : (StableHlo.after (hostOps1_1 (F := Ideal)) V (Proc.devRef .tc main_v12) : S50000x128.Idx → EReal)
      = take1 (V (Proc.devRef .tc main_arg3)) (V (Proc.devRef .tc main_arg4)) := by
  show StableHlo.after ((hostOps1_1 (F := Ideal)).take 8 ++ (((hostOps1_1 (F := Ideal)).drop 8).take 10 ++ (hostOps1_1 (F := Ideal)).drop 18)) V _ = _
  rw [StableHlo.after_append, StableHlo.after_append, c1_v12, b1_v12, b1_v5, b1_arg3, a1_v5, a1_arg3]

/-! ### The other stretches: the index row and the conversion they write, the arguments they keep -/

theorem h0_v1 : (StableHlo.after (hostOps0 (F := Ideal)) V (Proc.devRef .tc main_v1) : S800000.Idx → BitVec 32)
      = shapeCast S800000 (extractStridedSlice S1x800000 ![0, 0] (V (Proc.devRef .tc main_arg1) : S2x800000.Idx → BitVec 32) slices_S2x800000_S1x800000_0_0) shapeCasts_S1x800000_S800000 := by
  after_results_simp
  rfl
theorem h2_v5 : (StableHlo.after (hostOps0_2 (F := Ideal)) V (Proc.devRef .tc main_v5) : S800000x128.Idx → EReal)
      = (V (Proc.devRef .tc main_v4) : S800000x128.Idx → EReal) := by
  after_results_simp
  rfl
theorem k0_arg0 : StableHlo.after (hostOps0 (F := Ideal)) V (Proc.devRef .tc main_arg0) = V (Proc.devRef .tc main_arg0) := by after_results_simp
theorem k0_arg3 : StableHlo.after (hostOps0 (F := Ideal)) V (Proc.devRef .tc main_arg3) = V (Proc.devRef .tc main_arg3) := by after_results_simp
theorem k0_arg4 : StableHlo.after (hostOps0 (F := Ideal)) V (Proc.devRef .tc main_arg4) = V (Proc.devRef .tc main_arg4) := by after_results_simp
theorem k01_arg3 : StableHlo.after (hostOps0_1 (F := Ideal)) V (Proc.devRef .tc main_arg3) = V (Proc.devRef .tc main_arg3) := by after_results_simp
theorem k01_arg4 : StableHlo.after (hostOps0_1 (F := Ideal)) V (Proc.devRef .tc main_arg4) = V (Proc.devRef .tc main_arg4) := by after_results_simp
theorem k02_arg3 : StableHlo.after (hostOps0_2 (F := Ideal)) V (Proc.devRef .tc main_arg3) = V (Proc.devRef .tc main_arg3) := by after_results_simp
theorem k02_arg4 : StableHlo.after (hostOps0_2 (F := Ideal)) V (Proc.devRef .tc main_arg4) = V (Proc.devRef .tc main_arg4) := by after_results_simp
theorem k1_arg3 : StableHlo.after (hostOps1 (F := Ideal)) V (Proc.devRef .tc main_arg3) = V (Proc.devRef .tc main_arg3) := by after_results_simp
theorem k1_arg4 : StableHlo.after (hostOps1 (F := Ideal)) V (Proc.devRef .tc main_arg4) = V (Proc.devRef .tc main_arg4) := by after_results_simp
theorem k12_v12 : StableHlo.after (hostOps1_2 (F := Ideal)) V (Proc.devRef .tc main_v12) = V (Proc.devRef .tc main_v12) := by after_results_simp

end Reads

/-! ## The two statements -/

/-- The edge region's first operand is the gather of the node rows at each edge's (wrapped) source index. -/
theorem xrow_eq (hpre : Cert.Pre_KernelIdeal m) (c : Dev nD) :
    (V3 (F := Ideal) m ρ c main_v5 : S800000x128.Idx → EReal)
      = Host.gather gather_S50000x128_S800000x1_S800000x128_1_0_n_n_0_1_1128 (m ((c.tc : Thread nD τ).loc main_arg0))
          (broadcastInDim S800000x1 ![0] bcast_S800000_S800000x1_0
            (select (cmpi .slt (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 0#32)))
              (addi (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 50000#32)))
              (shapeCast _ (extractStridedSlice S1x800000 ![0, 0] (m ((c.tc : Thread nD τ).loc main_arg1)) slices_S2x800000_S1x800000_0_0) shapeCasts_S1x800000_S800000))) :=
  calc (V3 (F := Ideal) m ρ c main_v5 : S800000x128.Idx → EReal)
      = (W2 (F := Ideal) m ρ c (Proc.devRef .tc main_v4) : S800000x128.Idx → EReal) := h2_v5 (W2 m ρ c)
    _ = take0 (W1 (F := Ideal) m ρ c (Proc.devRef .tc main_arg0)) (W1 (F := Ideal) m ρ c (Proc.devRef .tc main_v1)) := take0_v4 (W1 m ρ c)
    _ = take0 (m ((c.tc : Thread nD τ).loc main_arg0))
          (shapeCast S800000 (extractStridedSlice S1x800000 ![0, 0] (m ((c.tc : Thread nD τ).loc main_arg1)) slices_S2x800000_S1x800000_0_0) shapeCasts_S1x800000_S800000) :=
        congrArg₂ take0 (k0_arg0 (W0 m ρ c)) (h0_v1 (W0 m ρ c))
    _ = _ := take_in_range bcast_S_S800000 bcast_S800000_S800000x1_0 bcast_S_S800000x1 bcast_S1_S1x1_1 bcast_S1x1_S800000x1_0_1
        reducesTo_S800000x1_S800000_d1 h_S_ bcast_S800000_S800000x128_0 gather_S50000x128_S800000x1_S800000x128_1_0_n_n_0_1_1128 _ _ _
        50000#32 49999#32 50000 (by decide) (fun k => Cert.KernelIdeal.PreRange.row_range m hpre c k)

/-- The node region's third operand is the gather of the graph rows at each node's (wrapped) graph index. -/
theorem ub_eq (hpre : Cert.Pre_KernelIdeal m) (c : Dev nD) :
    (V7 (F := Ideal) m ρ c main_v12 : S50000x128.Idx → EReal)
      = Host.gather gather_S64x128_S50000x1_S50000x128_1_0_n_n_0_1_1128 (m ((c.tc : Thread nD τ).loc main_arg3))
          (broadcastInDim S50000x1 ![0] bcast_S50000_S50000x1_0
            (select (cmpi .slt (m ((c.tc : Thread nD τ).loc main_arg4)) (broadcastInDim S50000 ![] bcast_S_S50000 (constantI S_ 32 0#32)))
              (addi (m ((c.tc : Thread nD τ).loc main_arg4)) (broadcastInDim S50000 ![] bcast_S_S50000 (constantI S_ 32 64#32))) (m ((c.tc : Thread nD τ).loc main_arg4)))) := by
  have e3 : W5 (F := Ideal) m ρ c (Proc.devRef .tc main_arg3) = m ((c.tc : Thread nD τ).loc main_arg3) :=
    (k1_arg3 (W4 m ρ c)).trans ((W4_of_ne m ρ c main_arg3 (by decide)).trans ((k02_arg3 (W2 m ρ c)).trans
      ((k01_arg3 (W1 m ρ c)).trans (k0_arg3 (W0 m ρ c)))))
  have e4 : W5 (F := Ideal) m ρ c (Proc.devRef .tc main_arg4) = m ((c.tc : Thread nD τ).loc main_arg4) :=
    (k1_arg4 (W4 m ρ c)).trans ((W4_of_ne m ρ c main_arg4 (by decide)).trans ((k02_arg4 (W2 m ρ c)).trans
      ((k01_arg4 (W1 m ρ c)).trans (k0_arg4 (W0 m ρ c)))))
  exact
  calc (V7 (F := Ideal) m ρ c main_v12 : S50000x128.Idx → EReal)
      = (W6 (F := Ideal) m ρ c (Proc.devRef .tc main_v12) : S50000x128.Idx → EReal) := k12_v12 (W6 m ρ c)
    _ = take1 (W5 (F := Ideal) m ρ c (Proc.devRef .tc main_arg3)) (W5 (F := Ideal) m ρ c (Proc.devRef .tc main_arg4)) := take1_v12 (W5 m ρ c)
    _ = take1 (m ((c.tc : Thread nD τ).loc main_arg3)) (m ((c.tc : Thread nD τ).loc main_arg4)) := congrArg₂ take1 e3 e4
    _ = _ := take_in_range bcast_S_S50000 bcast_S50000_S50000x1_0 bcast_S_S50000x1 bcast_S1_S1x1_1 bcast_S1x1_S50000x1_0_1
        reducesTo_S50000x1_S50000_d1 h_S_ bcast_S50000_S50000x128_0 gather_S64x128_S50000x1_S50000x128_1_0_n_n_0_1_1128 _ _ _
        64#32 63#32 64 (by decide) (fun k => Cert.KernelIdeal.PreRange.batch_range m hpre c k)

end Cert.KernelIdeal.TakeInRange

end
-- ==== Proof.KernelValue.lean ====
import proofs.«403091_j49546742726708_1_alg».proof.Proof.Gen.KernelIdeal.Frame
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«403091_j49546742726708_1_alg».proof.Defs
import proofs.«403091_j49546742726708_1_alg».proof.Proof.SpecArrays
import proofs.«403091_j49546742726708_1_alg».proof.Proof.EdgeArray
import proofs.«403091_j49546742726708_1_alg».proof.Proof.NodeArray
import proofs.«403091_j49546742726708_1_alg».proof.Proof.HostReads
import proofs.«403091_j49546742726708_1_alg».proof.Proof.TakeInRange

noncomputable section

namespace Cert.KernelIdeal.KernelValue

open Cert.KernelIdeal Cert.KernelIdeal.Gen Idealize.ShloMosaic Idealize.ShloMosaic.ValueIdx Idealize.ShloMosaic.TcCoe Idealize.SL.Sem

/-! ## Row blocks of the first weight matrices, read at an index

The host code cuts the first weight matrix of each network into row blocks of 128 rows; entry (k, n) of the block
that starts at row `off` is entry (off + k, n) of the matrix. -/

theorem w0e_lo (A : (⟨S256x100, .f32⟩ : BufTy).Contents (Elt Ideal)) (k : Fin 128) (n : Fin 100) :
    extractStridedSlice S128x100 ![0, 0] A slices_S256x100_S128x100_0_0 (ix2 k n) = A (ix2 (Fin.castAdd 128 k : Fin 256) n) :=
  extractStridedSlice_apply ![0, 0] A slices_S256x100_S128x100_0_0 (ix2 k n) (ix2 (Fin.castAdd 128 k : Fin 256) n) (fun a => match a with
    | ⟨0, _⟩ => by show (Fin.castAdd 128 k : Fin 256).val = 0 + k.val; simp only [Fin.coe_castAdd, Fin.coe_natAdd]; omega
    | ⟨1, _⟩ => by show n.val = 0 + n.val; omega)
theorem w0e_hi (A : (⟨S256x100, .f32⟩ : BufTy).Contents (Elt Ideal)) (k : Fin 128) (n : Fin 100) :
    extractStridedSlice S128x100 ![128, 0] A slices_S256x100_S128x100_128_0 (ix2 k n) = A (ix2 (Fin.natAdd 128 k : Fin 256) n) :=
  extractStridedSlice_apply ![128, 0] A slices_S256x100_S128x100_128_0 (ix2 k n) (ix2 (Fin.natAdd 128 k : Fin 256) n) (fun a => match a with
    | ⟨0, _⟩ => by show (Fin.natAdd 128 k : Fin 256).val = 128 + k.val; simp only [Fin.coe_castAdd, Fin.coe_natAdd]
    | ⟨1, _⟩ => by show n.val = 0 + n.val; omega)
theorem w0n_lo (A : (⟨S384x100, .f32⟩ : BufTy).Contents (Elt Ideal)) (k : Fin 128) (n : Fin 100) :
    extractStridedSlice S128x100 ![0, 0] A slices_S384x100_S128x100_0_0 (ix2 k n) = A (ix2 (Fin.castAdd 128 (Fin.castAdd 128 k) : Fin 384) n) :=
  extractStridedSlice_apply ![0, 0] A slices_S384x100_S128x100_0_0 (ix2 k n) (ix2 (Fin.castAdd 128 (Fin.castAdd 128 k) : Fin 384) n) (fun a => match a with
    | ⟨0, _⟩ => by show (Fin.castAdd 128 (Fin.castAdd 128 k) : Fin 384).val = 0 + k.val; simp only [Fin.coe_castAdd, Fin.coe_natAdd]; omega
    | ⟨1, _⟩ => by show n.val = 0 + n.val; omega)
theorem w0n_mid (A : (⟨S384x100, .f32⟩ : BufTy).Contents (Elt Ideal)) (k : Fin 128) (n : Fin 100) :
    extractStridedSlice S128x100 ![128, 0] A slices_S384x100_S128x100_128_0 (ix2 k n) = A (ix2 (Fin.castAdd 128 (Fin.natAdd 128 k) : Fin 384) n) :=
  extractStridedSlice_apply ![128, 0] A slices_S384x100_S128x100_128_0 (ix2 k n) (ix2 (Fin.castAdd 128 (Fin.natAdd 128 k) : Fin 384) n) (fun a => match a with
    | ⟨0, _⟩ => by show (Fin.castAdd 128 (Fin.natAdd 128 k) : Fin 384).val = 128 + k.val; simp only [Fin.coe_castAdd, Fin.coe_natAdd]
    | ⟨1, _⟩ => by show n.val = 0 + n.val; omega)
theorem w0n_hi (A : (⟨S384x100, .f32⟩ : BufTy).Contents (Elt Ideal)) (k : Fin 128) (n : Fin 100) :
    extractStridedSlice S128x100 ![256, 0] A slices_S384x100_S128x100_256_0 (ix2 k n) = A (ix2 (Fin.natAdd 256 k : Fin 384) n) :=
  extractStridedSlice_apply ![256, 0] A slices_S384x100_S128x100_256_0 (ix2 k n) (ix2 (Fin.natAdd 256 k : Fin 384) n) (fun a => match a with
    | ⟨0, _⟩ => by show (Fin.natAdd 256 k : Fin 384).val = 256 + k.val; simp only [Fin.coe_castAdd, Fin.coe_natAdd]
    | ⟨1, _⟩ => by show n.val = 0 + n.val; omega)

/-! ## The two networks with the weight blocks cut by the host: the whole-matrix form -/

theorem edge_blocks (xr e : (⟨S800000x128, .f32⟩ : BufTy).Contents (Elt Ideal)) (w0 : (⟨S256x100, .f32⟩ : BufTy).Contents (Elt Ideal)) (b0 : (⟨S100, .f32⟩ : BufTy).Contents (Elt Ideal)) (w1 : (⟨S100x100, .f32⟩ : BufTy).Contents (Elt Ideal))
    (b1 : (⟨S100, .f32⟩ : BufTy).Contents (Elt Ideal)) (w2 : (⟨S100x100, .f32⟩ : BufTy).Contents (Elt Ideal)) (b2 : (⟨S100, .f32⟩ : BufTy).Contents (Elt Ideal)) (w3 : (⟨S100x128, .f32⟩ : BufTy).Contents (Elt Ideal)) (b3 g be : (⟨S128, .f32⟩ : BufTy).Contents (Elt Ideal)) :
    Cert.Spec.edgeArrK xr e (extractStridedSlice S128x100 ![0, 0] w0 slices_S256x100_S128x100_0_0)
        (extractStridedSlice S128x100 ![128, 0] w0 slices_S256x100_S128x100_128_0) b0 w1 b1 w2 b2 w3 b3 g be
      = Cert.Spec.msgArr xr e w0 b0 w1 b1 w2 b2 w3 b3 g be := by
  apply Cert.Spec.edgeArrK_blocks
  · exact w0e_lo w0
  · exact w0e_hi w0

theorem node_blocks (x agg ub : (⟨S50000x128, .f32⟩ : BufTy).Contents (Elt Ideal)) (w0 : (⟨S384x100, .f32⟩ : BufTy).Contents (Elt Ideal)) (b0 : (⟨S100, .f32⟩ : BufTy).Contents (Elt Ideal)) (w1 : (⟨S100x100, .f32⟩ : BufTy).Contents (Elt Ideal))
    (b1 : (⟨S100, .f32⟩ : BufTy).Contents (Elt Ideal)) (w2 : (⟨S100x100, .f32⟩ : BufTy).Contents (Elt Ideal)) (b2 : (⟨S100, .f32⟩ : BufTy).Contents (Elt Ideal)) (w3 : (⟨S100x128, .f32⟩ : BufTy).Contents (Elt Ideal)) (b3 g be : (⟨S128, .f32⟩ : BufTy).Contents (Elt Ideal)) :
    Cert.Spec.nodeArrK x agg ub (extractStridedSlice S128x100 ![0, 0] w0 slices_S384x100_S128x100_0_0)
        (extractStridedSlice S128x100 ![128, 0] w0 slices_S384x100_S128x100_128_0)
        (extractStridedSlice S128x100 ![256, 0] w0 slices_S384x100_S128x100_256_0) b0 w1 b1 w2 b2 w3 b3 g be
      = Cert.Spec.outArr x agg ub w0 b0 w1 b1 w2 b2 w3 b3 g be := by
  apply Cert.Spec.nodeArrK_blocks
  · exact w0n_lo w0
  · exact w0n_mid w0
  · exact w0n_hi w0

/-! ## The regions' output arrays in the named form, at any entry contents -/

section
variable (V : (c : Dev nD) → (b : Ref sig .tc) → Buf (Elt Ideal) ((c : Thread nD τ).loc b))

theorem edge_form (c : Dev nD) :
    (dat0 (F := Ideal) V c).arrAt 13 cfg0.N
      = Cert.Spec.edgeArrK (V c main_v5) (V c main_arg2) (V c main_v6) (V c main_v7) (V c main_arg6) (V c main_arg7)
          (V c main_arg8) (V c main_arg9) (V c main_arg10) (V c main_arg11) (V c main_arg12) (V c main_arg13) (V c main_arg14) :=
  EdgeArray.edge_array V c

theorem node_form (c : Dev nD) :
    (dat1 (F := Ideal) V c).arrAt 15 cfg1.N
      = Cert.Spec.nodeArrK (V c main_arg0) (V c main_v11) (V c main_v12) (V c main_v13) (V c main_v14) (V c main_v15)
          (V c main_arg16) (V c main_arg17) (V c main_arg18) (V c main_arg19) (V c main_arg20) (V c main_arg21)
          (V c main_arg22) (V c main_arg23) (V c main_arg24) :=
  NodeArray.node_array V c
end

variable [Cert.Pre_finite_inputs.Facts]
variable (m : (ℓ : Loc nD τ sig) → Buf (Elt Ideal) ℓ) (ρ : Dev nD → PrngReg)

/-- The messages the edge region leaves, as a term of the launch memory: its operands read back through the host
    operations, the `take` a plain gather under the precondition, the two weight blocks put back into the matrix. -/
theorem msg_eq (hpre : Cert.Pre_KernelIdeal m) (c : Dev nD) :
    (dat0 (F := Ideal) (V3 m ρ) c).arrAt 13 cfg0.N
      = Cert.Spec.msgArr
          (Host.gather gather_S50000x128_S800000x1_S800000x128_1_0_n_n_0_1_1128 (m ((c.tc : Thread nD τ).loc main_arg0))
            (broadcastInDim S800000x1 ![0] bcast_S800000_S800000x1_0
              (select (cmpi .slt (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 0#32)))
                (addi (shapeCast _ (extractStridedSlice S1x800000 ![0, 0] (m ((c.tc : Thread nD τ).loc main_arg1)) slices_S2x800000_S1x800000_0_0) shapeCasts_S1x800000_S800000) (broadcastInDim S800000 ![] bcast_S_S800000 (constantI S_ 32 50000#32))) (shapeCast _ (extractStridedSlice S1x800000 ![0, 0] (m ((c.tc : Thread nD τ).loc main_arg1)) slices_S2x800000_S1x800000_0_0) shapeCasts_S1x800000_S800000))))
          (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (edge_form (V3 m ρ) c).trans
    ((Cert.Spec.edgeArrK_congr (TakeInRange.xrow_eq m ρ hpre c) (HostReads.V3_arg2 m ρ c) (HostReads.V3_v6 m ρ c)
        (HostReads.V3_v7 m ρ c) (HostReads.V3_arg6 m ρ c) (HostReads.V3_arg7 m ρ c) (HostReads.V3_arg8 m ρ c)
        (HostReads.V3_arg9 m ρ c) (HostReads.V3_arg10 m ρ c) (HostReads.V3_arg11 m ρ c) (HostReads.V3_arg12 m ρ c)
        (HostReads.V3_arg13 m ρ c) (HostReads.V3_arg14 m ρ c)).trans
      (edge_blocks _ _ _ _ _ _ _ _ _ _ _ _))

/-- The kernel program's result as a function of the 25 argument arrays: the node network of the node rows, of the scatter-add into zeros of the messages (the edge network of the gathered source rows and the edge rows) at every edge's destination index, and of the gathered graph rows. -/
def kerOut (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S64x128, .f32⟩ : BufTy).Contents (Elt Ideal)) (x4 : (⟨S50000, .i32⟩ : BufTy).Contents (Elt Ideal)) (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S384x100, .f32⟩ : BufTy).Contents (Elt Ideal)) (x16 : (⟨S100, .f32⟩ : BufTy).Contents (Elt Ideal)) (x17 : (⟨S100x100, .f32⟩ : BufTy).Contents (Elt Ideal)) (x18 : (⟨S100, .f32⟩ : BufTy).Contents (Elt Ideal)) (x19 : (⟨S100x100, .f32⟩ : BufTy).Contents (Elt Ideal)) (x20 : (⟨S100, .f32⟩ : BufTy).Contents (Elt Ideal)) (x21 : (⟨S100x128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) : Cert.Spec.Arr2 50000 128 :=
  Cert.Spec.outArr (x0)
        (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (shapeCast _ (extractStridedSlice S1x800000 ![1, 0] x1 slices_S2x800000_S1x800000_1_0) shapeCasts_S1x800000_S800000))
          (Cert.Spec.msgArr
            (Host.gather gather_S50000x128_S800000x1_S800000x128_1_0_n_n_0_1_1128 (x0)
              (broadcastInDim S800000x1 ![0] bcast_S800000_S800000x1_0
                (select (cmpi .slt (shapeCast _ (extractStridedSlice S1x800000 ![0, 0] x1 slices_S2x800000_S1x800000_0_0) shapeCasts_S1x800000_S800000) (broadcastInDim S800000 ![] bcast_S_S800000 (constantI S_ 32 0#32)))
                  (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))
            (x2) (x5) (x6) (x7) (x8) (x9)
            (x10) (x11) (x12) (x13) (x14)))
        (Host.gather gather_S64x128_S50000x1_S50000x128_1_0_n_n_0_1_1128 (x3)
          (broadcastInDim S50000x1 ![0] bcast_S50000_S50000x1_0
            (select (cmpi .slt (x4) (broadcastInDim S50000 ![] bcast_S_S50000 (constantI S_ 32 0#32)))
              (addi (x4) (broadcastInDim S50000 ![] bcast_S_S50000 (constantI S_ 32 64#32))) (x4))))
        (x15) (x16) (x17) (x18) (x19)
        (x20) (x21) (x22) (x23) (x24)

/-- What the run leaves in the result buffer is that function of the launch memory's argument arrays. -/
theorem result_eq (hpre : Cert.Pre_KernelIdeal m) (c : Dev nD) :
    (W8 (F := Ideal) m ρ c (Proc.devRef .tc main_v16) : S50000x128.Idx → EReal)
      = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (W8_arr m ρ c 15).trans ((node_form (V7 m ρ) c).trans
    ((Cert.Spec.nodeArrK_congr (HostReads.V7_arg0 m ρ c)
        ((HostReads.V7_v11 m ρ c).trans (congrArg _ (msg_eq m ρ hpre c)))
        (TakeInRange.ub_eq m ρ hpre c) (HostReads.V7_v13 m ρ c) (HostReads.V7_v14 m ρ c) (HostReads.V7_v15 m ρ c)
        (HostReads.V7_arg16 m ρ c) (HostReads.V7_arg17 m ρ c) (HostReads.V7_arg18 m ρ c) (HostReads.V7_arg19 m ρ c)
        (HostReads.V7_arg20 m ρ c) (HostReads.V7_arg21 m ρ c) (HostReads.V7_arg22 m ρ c) (HostReads.V7_arg23 m ρ c)
        (HostReads.V7_arg24 m ρ c)).trans
      (node_blocks _ _ _ _ _ _ _ _ _ _ _ _ _)))

end Cert.KernelIdeal.KernelValue

end
-- ==== Proof.RefEdge.lean ====
import proofs.«403091_j49546742726708_1_alg».proof.Proof.Gen.ReferenceIdeal.Read
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

/-!
  The reference's edge network read one entry at a time: row `r` of each stage, from the concatenated row through the
  four dense layers to the layer normalisation, is the corresponding function of `Cert.Spec` of row `r` of the gathered
  node features and of the edge features.
-/

namespace Cert.ReferenceIdeal.RefEdge

open Cert.ReferenceIdeal Cert.ReferenceIdeal.Read Idealize.ShloMosaic Idealize.ShloMosaic.ValueIdx

/-- Two indices of rank two, or of rank one, with the same coordinates are the same index. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

section Rows

variable (x0 : (⟨S50000x128, .f32⟩ : BufTy).Contents (Elt Ideal)) (x1 : (⟨S2x800000, .i32⟩ : BufTy).Contents (Elt Ideal)) (x2 : (⟨S800000x128, .f32⟩ : BufTy).Contents (Elt Ideal))
    (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal))
    (x9 : (⟨S100x100, .f32⟩ : BufTy).Contents (Elt Ideal)) (x10 : (⟨S100, .f32⟩ : BufTy).Contents (Elt Ideal)) (x11 : (⟨S100x128, .f32⟩ : BufTy).Contents (Elt Ideal))
    (x12 x13 x14 : (⟨S128, .f32⟩ : BufTy).Contents (Elt Ideal))

/-! ### The row functions

Row `r` of each stage of the edge network, written with the functions of `Cert.Spec`. -/

/-- The first layer's sums on row `r`, before the bias: the partial sum over the gathered node row plus the partial
    sum over the edge row, each against its half of the first weight matrix. -/
def z (r : Fin 800000) (n : Fin 100) : EReal :=
  (∑ k : Fin 128, val_main_v10 (F := Ideal) x0 x1 (ix2 r k) * x5 (ix2 (Fin.castAdd 128 k : Fin 256) n))
    + ∑ k : Fin 128, x2 (ix2 r k) * x5 (ix2 (Fin.natAdd 128 k : Fin 256) n)

/-- The first layer's output on row `r`: bias, then the rectified linear unit. -/
def h1 (r : Fin 800000) (n : Fin 100) : EReal := Cert.Spec.relu (z x0 x1 x2 x5 r n + x6 (ix1 n))

/-- The second layer's output on row `r`. -/
def h2 (r : Fin 800000) (n : Fin 100) : EReal :=
  Cert.Spec.relu (Cert.Spec.dense (h1 x0 x1 x2 x5 x6 r) (fun k n => x7 (ix2 k n)) (fun n => x8 (ix1 n)) n)

/-- The third layer's output on row `r`. -/
def h3 (r : Fin 800000) (n : Fin 100) : EReal :=
  Cert.Spec.relu (Cert.Spec.dense (h2 x0 x1 x2 x5 x6 x7 x8 r) (fun k n => x9 (ix2 k n)) (fun n => x10 (ix1 n)) n)

/-- The fourth layer's output on row `r`: the 128 features that are normalised. -/
def h4 (r : Fin 800000) : Fin 128 → EReal :=
  Cert.Spec.dense (h3 x0 x1 x2 x5 x6 x7 x8 x9 x10 r) (fun k n => x11 (ix2 k n)) (fun n => x12 (ix1 n))

/-! ### The concatenated row at an index -/

/-- The concatenated row at one of its first 128 positions is the gathered node row there. -/
theorem cat_left (r : Fin 800000) (k : Fin 128) :
    val_main_v11 (F := Ideal) x0 x1 x2 (ix2 r (Fin.castAdd 128 k : Fin 256)) = val_main_v10 (F := Ideal) x0 x1 (ix2 r k) := by
  unfold val_main_v11
  exact concatenate_pair_apply_left 1 (val_main_v10 (F := Ideal) x0 x1) x2 _ (ix2 r (Fin.castAdd 128 k : Fin 256)) rfl (ix2 r k)
    (fun b => match b with | ⟨0, _⟩ => rfl | ⟨1, _⟩ => rfl)

/-- The concatenated row at one of its last 128 positions is the edge row at that position less 128. -/
theorem cat_right (r : Fin 800000) (k : Fin 128) :
    val_main_v11 (F := Ideal) x0 x1 x2 (ix2 r (Fin.natAdd 128 k : Fin 256)) = x2 (ix2 r k) := by
  unfold val_main_v11
  exact concatenate_pair_apply_right 1 (val_main_v10 (F := Ideal) x0 x1) x2 _ (ix2 r (Fin.natAdd 128 k : Fin 256)) rfl rfl (ix2 r k)
    (fun b hb => match b, hb with | ⟨0, _⟩, _ => rfl | ⟨1, _⟩, hb => absurd rfl hb)
    (by show k.val + 128 = 128 + k.val; omega)

/-! ### The four dense layers, one entry at a time -/

/-- The first contraction runs over the 256 concatenated features; split at 128 it is the two partial sums. -/
theorem z_apply (r : Fin 800000) (n : Fin 100) :
    val_main_v12 (F := Ideal) x0 x1 x2 x5 (ix2 r n) = z x0 x1 x2 x5 r n := by
  have e : (∑ c : Fin 256, val_main_v11 (F := Ideal) x0 x1 x2 (lidx_main_v12 (ix2 r n) c) * x5 (ridx_main_v12 (ix2 r n) c))
      = ∑ c : Fin 256, val_main_v11 (F := Ideal) x0 x1 x2 (ix2 r c) * x5 (ix2 c n) :=
    Finset.sum_congr rfl fun c _ => by
      rw [show lidx_main_v12 (ix2 r n) c = ix2 r c by idx2, show ridx_main_v12 (ix2 r n) c = ix2 c n by idx2]
  rw [val_main_v12_apply, e, Cert.Spec.sum_256]
  exact congrArg₂ (· + ·)
    (Finset.sum_congr rfl fun k _ => by rw [cat_left])
    (Finset.sum_congr rfl fun k _ => by rw [cat_right])

theorem h1_apply (r : Fin 800000) (n : Fin 100) :
    val_main_v16 (F := Ideal) x0 x1 x2 x5 x6 (ix2 r n) = h1 x0 x1 x2 x5 x6 r n := by
  rw [val_main_v16_apply, val_main_v15_apply, z_apply, val_main_v14_apply, val_main_v13_apply,
    show idx_main_v13 (idx_main_v14 (ix2 r n)) = ix1 n by idx1, val_main_call0_v0_apply, val_main_call0_cst_apply]
  rfl

theorem h2_apply (r : Fin 800000) (n : Fin 100) :
    val_main_v21 (F := Ideal) x0 x1 x2 x5 x6 x7 x8 (ix2 r n) = h2 x0 x1 x2 x5 x6 x7 x8 r n := by
  have e : val_main_v17 (F := Ideal) x0 x1 x2 x5 x6 x7 (ix2 r n) = ∑ k : Fin 100, h1 x0 x1 x2 x5 x6 r k * x7 (ix2 k n) := by
    rw [val_main_v17_apply]
    exact Finset.sum_congr rfl fun k _ => by
      rw [show lidx_main_v17 (ix2 r n) k = ix2 r k by idx2, show ridx_main_v17 (ix2 r n) k = ix2 k n by idx2, h1_apply]
  rw [val_main_v21_apply, val_main_v20_apply, e, val_main_v19_apply, val_main_v18_apply,
    show idx_main_v18 (idx_main_v19 (ix2 r n)) = ix1 n by idx1, val_main_call1_v0_apply, val_main_call1_cst_apply]
  rfl

theorem h3_apply (r : Fin 800000) (n : Fin 100) :
    val_main_v26 (F := Ideal) x0 x1 x2 x5 x6 x7 x8 x9 x10 (ix2 r n) = h3 x0 x1 x2 x5 x6 x7 x8 x9 x10 r n := by
  have e : val_main_v22 (F := Ideal) x0 x1 x2 x5 x6 x7 x8 x9 (ix2 r n) = ∑ k : Fin 100, h2 x0 x1 x2 x5 x6 x7 x8 r k * x9 (ix2 k n) := by
    rw [val_main_v22_apply]
    exact Finset.sum_congr rfl fun k _ => by
      rw [show lidx_main_v22 (ix2 r n) k = ix2 r k by idx2, show ridx_main_v22 (ix2 r n) k = ix2 k n by idx2, h2_apply]
  rw [val_main_v26_apply, val_main_v25_apply, e, val_main_v24_apply, val_main_v23_apply,
    show idx_main_v23 (idx_main_v24 (ix2 r n)) = ix1 n by idx1, val_main_call2_v0_apply, val_main_call2_cst_apply]
  rfl

theorem h4_apply (r : Fin 800000) (j : Fin 128) :
    val_main_v30 (F := Ideal) x0 x1 x2 x5 x6 x7 x8 x9 x10 x11 x12 (ix2 r j) = h4 x0 x1 x2 x5 x6 x7 x8 x9 x10 x11 x12 r j := by
  have e : val_main_v27 (F := Ideal) x0 x1 x2 x5 x6 x7 x8 x9 x10 x11 (ix2 r j) = ∑ k : Fin 100, h3 x0 x1 x2 x5 x6 x7 x8 x9 x10 r k * x11 (ix2 k j) := by
    rw [val_main_v27_apply]
    exact Finset.sum_congr rfl fun k _ => by
      rw [show lidx_main_v27 (ix2 r j) k = ix2 r k by idx2, show ridx_main_v27 (ix2 r j) k = ix2 k j by idx2, h3_apply]
  rw [val_main_v30_apply, e, val_main_v29_apply, val_main_v28_apply,
    show idx_main_v28 (idx_main_v29 (ix2 r j)) = ix1 j by idx1]
  rfl

/-! ### The normalisation's mean and variance of row `r` -/

/-- The sum over the row from the zero word, divided by the word 128, is the mean of the row. -/
theorem mean_apply (r : Fin 800000) :
    val_main_v34 (F := Ideal) x0 x1 x2 x5 x6 x7 x8 x9 x10 x11 x12 (ix2 r (0 : Fin 1)) = Cert.Spec.mean (h4 x0 x1 x2 x5 x6 x7 x8 x9 x10 x11 x12 r) := by
  have e : val_main_v31 (F := Ideal) x0 x1 x2 x5 x6 x7 x8 x9 x10 x11 x12 (ix1 r) = ∑ k : Fin 128, h4 x0 x1 x2 x5 x6 x7 x8 x9 x10 x11 x12 r k := by
    rw [val_main_v31_apply, val_main_cst_apply, Ideal.ofBits_def, Ideal.ofBits_zero_f32, zero_add]
    exact Finset.sum_congr rfl fun k _ => by
      rw [show idx_main_v31 (ix1 r) k = ix2 r k by idx2, h4_apply]
  rw [val_main_v34_apply, val_main_v32_apply, show idx_main_v32 (ix2 r (0 : Fin 1)) = ix1 r by idx1, e,
    val_main_v33_apply, val_main_cst_1_apply]
  rfl

/-- An entry of the row less the row's mean. -/
theorem cen_apply (r : Fin 800000) (j : Fin 128) :
    val_main_v36 (F := Ideal) x0 x1 x2 x5 x6 x7 x8 x9 x10 x11 x12 (ix2 r j) = h4 x0 x1 x2 x5 x6 x7 x8 x9 x10 x11 x12 r j - Cert.Spec.mean (h4 x0 x1 x2 x5 x6 x7 x8 x9 x10 x11 x12 r) := by
  rw [val_main_v36_apply, h4_apply, val_main_v35_apply, show idx_main_v35 (ix2 r j) = ix2 r (0 : Fin 1) by idx2, mean_apply]
  rfl

/-- The mean of the squared deviations, each square written as a product. -/
theorem var_apply (r : Fin 800000) :
    val_main_v41 (F := Ideal) x0 x1 x2 x5 x6 x7 x8 x9 x10 x11 x12 (ix2 r (0 : Fin 1))
      = Cert.Spec.mean (fun l => (h4 x0 x1 x2 x5 x6 x7 x8 x9 x10 x11 x12 r l - Cert.Spec.mean (h4 x0 x1 x2 x5 x6 x7 x8 x9 x10 x11 x12 r)) * (h4 x0 x1 x2 x5 x6 x7 x8 x9 x10 x11 x12 r l - Cert.Spec.mean (h4 x0 x1 x2 x5 x6 x7 x8 x9 x10 x11 x12 r))) := by
  have e : val_main_v38 (F := Ideal) x0 x1 x2 x5 x6 x7 x8 x9 x10 x11 x12 (ix1 r)
      = ∑ k : Fin 128, (h4 x0 x1 x2 x5 x6 x7 x8 x9 x10 x11 x12 r k - Cert.Spec.mean (h4 x0 x1 x2 x5 x6 x7 x8 x9 x10 x11 x12 r)) * (h4 x0 x1 x2 x5 x6 x7 x8 x9 x10 x11 x12 r k - Cert.Spec.mean (h4 x0 x1 x2 x5 x6 x7 x8 x9 x10 x11 x12 r)) := by
    rw [val_main_v38_apply, val_main_cst_2_apply, Ideal.ofBits_def, Ideal.ofBits_zero_f32, zero_add]
    exact Finset.sum_congr rfl fun k _ => by
      rw [show idx_main_v38 (ix1 r) k = ix2 r k by idx2, val_main_v37_apply, cen_apply]
      rfl
  rw [val_main_v41_apply, val_main_v39_apply, show idx_main_v39 (ix2 r (0 : Fin 1)) = ix1 r by idx1, e,
    val_main_v40_apply, val_main_cst_3_apply]
  rfl

end Rows

/-- The reference's messages, entry by entry: row `r` of the normalised edge network's output depends only on row `r`
    of the gathered node features and of the edge features, through the row function `Spec.edgeRow`. The first layer
    contracts the concatenated row of 256 features against the whole first weight matrix; a sum over 256 is the sum
    over the first 128 plus the sum over the last 128 (`Spec.sum_256`), which is the form `Spec.edgeRow` has. -/
theorem msg_apply (x0 : (⟨S50000x128, .f32⟩ : BufTy).Contents (Elt Ideal)) (x1 : (⟨S2x800000, .i32⟩ : BufTy).Contents (Elt Ideal)) (x2 : (⟨S800000x128, .f32⟩ : BufTy).Contents (Elt Ideal))
    (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal))
    (x9 : (⟨S100x100, .f32⟩ : BufTy).Contents (Elt Ideal)) (x10 : (⟨S100, .f32⟩ : BufTy).Contents (Elt Ideal)) (x11 : (⟨S100x128, .f32⟩ : BufTy).Contents (Elt Ideal))
    (x12 x13 x14 : (⟨S128, .f32⟩ : BufTy).Contents (Elt Ideal)) (r : Fin 800000) (q : Fin 128) :
    val_main_v54 (F := Ideal) x0 x1 x2 x5 x6 x7 x8 x9 x10 x11 x12 x13 x14 (ix2 r q)
      = Cert.Spec.edgeRow (fun k => val_main_v10 (F := Ideal) x0 x1 (ix2 r k)) (fun k => x2 (ix2 r k))
          (fun k n => x5 (ix2 (Fin.castAdd 128 k : Fin 256) n)) (fun k n => x5 (ix2 (Fin.natAdd 128 k : Fin 256) n))
          (fun n => x6 (ix1 n)) (fun k n => x7 (ix2 k n)) (fun n => x8 (ix1 n)) (fun k n => x9 (ix2 k n)) (fun n => x10 (ix1 n))
          (fun k n => x11 (ix2 k n)) (fun n => x12 (ix1 n)) (fun n => x13 (ix1 n)) (fun n => x14 (ix1 n)) q := by
  rw [val_main_v54_apply, val_main_v51_apply, val_main_v48_apply, val_main_v43_apply, h4_apply, val_main_v42_apply,
    show idx_main_v42 (ix2 r q) = ix2 r (0 : Fin 1) by idx2, mean_apply, val_main_v47_apply,
    show idx_main_v47 (ix2 r q) = ix2 r (0 : Fin 1) by idx2, val_main_v46_apply, val_main_v45_apply, var_apply,
    val_main_v44_apply, val_main_cst_4_apply, val_main_v50_apply, val_main_v49_apply,
    show idx_main_v49 (idx_main_v50 (ix2 r q)) = ix1 q by idx1, val_main_v53_apply, val_main_v52_apply,
    show idx_main_v52 (idx_main_v53 (ix2 r q)) = ix1 q by idx1]
  rfl

end Cert.ReferenceIdeal.RefEdge

end
-- ==== Proof.RefNode.lean ====
import proofs.«403091_j49546742726708_1_alg».proof.Proof.Gen.ReferenceIdeal.Read
import proofs.«403091_j49546742726708_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefNode

open Cert.ReferenceIdeal Cert.ReferenceIdeal.Read Idealize.ShloMosaic Idealize.ShloMosaic.ValueIdx

/-! The reference's node network read one entry at a time. Row `r` of the result is `Spec.nodeRow` of row `r` of the node
features, of the aggregated messages and of the gathered graph features. The lemmas below read one layer each at an
arbitrary entry: the concatenated row of 384 features piece by piece, the first layer's sum over 384 as the three partial
sums over 128, each dense layer as its sum plus the bias under the rectified linear unit, the mean and the variance of the
fourth layer's row, and last the normalised row with the residual. -/

section Layers

variable (x0 : (⟨S50000x128, .f32⟩ : BufTy).Contents (Elt Ideal)) (x1 : (⟨S2x800000, .i32⟩ : BufTy).Contents (Elt Ideal)) (x2 : (⟨S800000x128, .f32⟩ : BufTy).Contents (Elt Ideal))
    (x3 : (⟨S64x128, .f32⟩ : BufTy).Contents (Elt Ideal)) (x4 : (⟨S50000, .i32⟩ : BufTy).Contents (Elt Ideal))
    (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal))
    (x9 : (⟨S100x100, .f32⟩ : BufTy).Contents (Elt Ideal)) (x10 : (⟨S100, .f32⟩ : BufTy).Contents (Elt Ideal)) (x11 : (⟨S100x128, .f32⟩ : BufTy).Contents (Elt Ideal))
    (x12 x13 x14 : (⟨S128, .f32⟩ : BufTy).Contents (Elt Ideal))
    (x15 : (⟨S384x100, .f32⟩ : BufTy).Contents (Elt Ideal)) (x16 : (⟨S100, .f32⟩ : BufTy).Contents (Elt Ideal)) (x17 : (⟨S100x100, .f32⟩ : BufTy).Contents (Elt Ideal)) (x18 : (⟨S100, .f32⟩ : BufTy).Contents (Elt Ideal))
    (x19 : (⟨S100x100, .f32⟩ : BufTy).Contents (Elt Ideal)) (x20 : (⟨S100, .f32⟩ : BufTy).Contents (Elt Ideal)) (x21 : (⟨S100x128, .f32⟩ : BufTy).Contents (Elt Ideal))
    (x22 x23 x24 : (⟨S128, .f32⟩ : BufTy).Contents (Elt Ideal))

local notation "V57" => val_main_v57 (F := Ideal) x0 x1 x2 x5 x6 x7 x8 x9 x10 x11 x12 x13 x14
local notation "V64" => val_main_v64 (F := Ideal) x3 x4
local notation "V65" => val_main_v65 (F := Ideal) x0 x1 x2 x3 x4 x5 x6 x7 x8 x9 x10 x11 x12 x13 x14
local notation "V66" => val_main_v66 (F := Ideal) x0 x1 x2 x3 x4 x5 x6 x7 x8 x9 x10 x11 x12 x13 x14 x15
local notation "V70" => val_main_v70 (F := Ideal) x0 x1 x2 x3 x4 x5 x6 x7 x8 x9 x10 x11 x12 x13 x14 x15 x16
local notation "V71" => val_main_v71 (F := Ideal) x0 x1 x2 x3 x4 x5 x6 x7 x8 x9 x10 x11 x12 x13 x14 x15 x16 x17
local notation "V75" => val_main_v75 (F := Ideal) x0 x1 x2 x3 x4 x5 x6 x7 x8 x9 x10 x11 x12 x13 x14 x15 x16 x17 x18
local notation "V76" => val_main_v76 (F := Ideal) x0 x1 x2 x3 x4 x5 x6 x7 x8 x9 x10 x11 x12 x13 x14 x15 x16 x17 x18 x19
local notation "V80" => val_main_v80 (F := Ideal) x0 x1 x2 x3 x4 x5 x6 x7 x8 x9 x10 x11 x12 x13 x14 x15 x16 x17 x18 x19 x20
local notation "V81" => val_main_v81 (F := Ideal) x0 x1 x2 x3 x4 x5 x6 x7 x8 x9 x10 x11 x12 x13 x14 x15 x16 x17 x18 x19 x20 x21
local notation "V84" => val_main_v84 (F := Ideal) x0 x1 x2 x3 x4 x5 x6 x7 x8 x9 x10 x11 x12 x13 x14 x15 x16 x17 x18 x19 x20 x21 x22
local notation "V88" => val_main_v88 (F := Ideal) x0 x1 x2 x3 x4 x5 x6 x7 x8 x9 x10 x11 x12 x13 x14 x15 x16 x17 x18 x19 x20 x21 x22
local notation "V91" => val_main_v91 (F := Ideal) x0 x1 x2 x3 x4 x5 x6 x7 x8 x9 x10 x11 x12 x13 x14 x15 x16 x17 x18 x19 x20 x21 x22
local notation "V95" => val_main_v95 (F := Ideal) x0 x1 x2 x3 x4 x5 x6 x7 x8 x9 x10 x11 x12 x13 x14 x15 x16 x17 x18 x19 x20 x21 x22

/-! ### The concatenated row, piece by piece -/

/-- The first 128 features of the concatenated row are the node's own. -/
theorem cat_x (r : Fin 50000) (k : Fin 128) :
    V65 (ix2 r (Fin.castAdd 128 (Fin.castAdd 128 k) : Fin 384)) = x0 (ix2 r k) := by
  unfold val_main_v65
  refine concatenate_apply_piece (t := S50000x384) 1 _ _ _ 0 ?_ S50000x128 (x0) ?_ rfl 0 ?_ (ix2 r k) ?_ ?_
  · show 0 < 3; omega
  · rfl
  · rfl
  · intro b hb
    match b, hb with
    | ⟨0, _⟩, _ => rfl
    | ⟨1, _⟩, hb => exact absurd rfl hb
  · show 0 + k.val = k.val; omega

/-- The middle 128 features are the aggregated messages. -/
theorem cat_a (r : Fin 50000) (k : Fin 128) :
    V65 (ix2 r (Fin.castAdd 128 (Fin.natAdd 128 k) : Fin 384)) = V57 (ix2 r k) := by
  unfold val_main_v65
  refine concatenate_apply_piece (t := S50000x384) 1 _ _ _ 1 ?_ S50000x128 (V57) ?_ rfl 128 ?_ (ix2 r k) ?_ ?_
  · show 1 < 3; omega
  · rfl
  · rfl
  · intro b hb
    match b, hb with
    | ⟨0, _⟩, _ => rfl
    | ⟨1, _⟩, hb => exact absurd rfl hb
  · rfl

/-- The last 128 features are the gathered graph features. -/
theorem cat_u (r : Fin 50000) (k : Fin 128) :
    V65 (ix2 r (Fin.natAdd 256 k : Fin 384)) = V64 (ix2 r k) := by
  unfold val_main_v65
  refine concatenate_apply_piece (t := S50000x384) 1 _ _ _ 2 ?_ S50000x128 (V64) ?_ rfl 256 ?_ (ix2 r k) ?_ ?_
  · show 2 < 3; omega
  · rfl
  · rfl
  · intro b hb
    match b, hb with
    | ⟨0, _⟩, _ => rfl
    | ⟨1, _⟩, hb => exact absurd rfl hb
  · rfl

/-! ### The first layer: a sum over 384 features is three sums over 128 -/

/-- The first layer's sums for row `r`: the three partial sums, each piece against its third of the weight matrix. -/
def firstSums (r : Fin 50000) : Fin 100 → EReal := fun n =>
  ((∑ k : Fin 128, x0 (ix2 r k) * x15 (ix2 (Fin.castAdd 128 (Fin.castAdd 128 k) : Fin 384) n))
    + ∑ k : Fin 128, V57 (ix2 r k) * x15 (ix2 (Fin.castAdd 128 (Fin.natAdd 128 k) : Fin 384) n))
    + ∑ k : Fin 128, V64 (ix2 r k) * x15 (ix2 (Fin.natAdd 256 k : Fin 384) n)

local notation "Z" => firstSums x0 x1 x2 x3 x4 x5 x6 x7 x8 x9 x10 x11 x12 x13 x14 x15

theorem z_apply (r : Fin 50000) (n : Fin 100) : V66 (ix2 r n) = Z r n := by
  have el : ∀ c : Fin 384, lidx_main_v66 (ix2 r n) c = ix2 r c := fun c => funext fun a => Fin.ext (by match a with | ⟨0, _⟩ => rfl | ⟨1, _⟩ => rfl)
  have er : ∀ c : Fin 384, ridx_main_v66 (ix2 r n) c = ix2 c n := fun c => funext fun a => Fin.ext (by match a with | ⟨0, _⟩ => rfl | ⟨1, _⟩ => rfl)
  rw [val_main_v66_apply]
  refine (Cert.Spec.sum_384 _).trans ?_
  unfold firstSums
  refine congrArg₂ (· + ·) (congrArg₂ (· + ·) ?_ ?_) ?_
  · exact Finset.sum_congr rfl fun k _ => by rw [el, er, cat_x]
  · exact Finset.sum_congr rfl fun k _ => by rw [el, er, cat_a]
  · exact Finset.sum_congr rfl fun k _ => by rw [el, er, cat_u]

/-! ### The hidden layers -/

/-- The first hidden layer of row `r`. -/
def hidden1 (r : Fin 50000) : Fin 100 → EReal := fun n => Cert.Spec.relu (Z r n + x16 (ix1 n))

local notation "H1" => hidden1 x0 x1 x2 x3 x4 x5 x6 x7 x8 x9 x10 x11 x12 x13 x14 x15 x16

theorem h1_apply (r : Fin 50000) (n : Fin 100) : V70 (ix2 r n) = H1 r n := by
  rw [val_main_v70_apply, val_main_v69_apply, z_apply, val_main_v68_apply, val_main_v67_apply,
    val_main_call3_v0_apply, val_main_call3_cst_apply,
    show idx_main_v67 (idx_main_v68 (ix2 r n)) = ix1 n from funext fun a => Fin.ext (by match a with | ⟨0, _⟩ => rfl)]
  rfl

/-- The second hidden layer of row `r`. -/
def hidden2 (r : Fin 50000) : Fin 100 → EReal := fun n =>
  Cert.Spec.relu (Cert.Spec.dense (H1 r) (fun k n => x17 (ix2 k n)) (fun n => x18 (ix1 n)) n)

local notation "H2" => hidden2 x0 x1 x2 x3 x4 x5 x6 x7 x8 x9 x10 x11 x12 x13 x14 x15 x16 x17 x18

theorem h2_apply (r : Fin 50000) (n : Fin 100) : V75 (ix2 r n) = H2 r n := by
  have hs : V71 (ix2 r n) = ∑ k : Fin 100, H1 r k * x17 (ix2 k n) := by
    rw [val_main_v71_apply]
    exact Finset.sum_congr rfl fun k _ => by
      rw [show lidx_main_v71 (ix2 r n) k = ix2 r k from funext fun a => Fin.ext (by match a with | ⟨0, _⟩ => rfl | ⟨1, _⟩ => rfl),
        show ridx_main_v71 (ix2 r n) k = ix2 k n from funext fun a => Fin.ext (by match a with | ⟨0, _⟩ => rfl | ⟨1, _⟩ => rfl), h1_apply]
  rw [val_main_v75_apply, val_main_v74_apply, hs, val_main_v73_apply, val_main_v72_apply,
    val_main_call4_v0_apply, val_main_call4_cst_apply,
    show idx_main_v72 (idx_main_v73 (ix2 r n)) = ix1 n from funext fun a => Fin.ext (by match a with | ⟨0, _⟩ => rfl)]
  rfl

/-- The third hidden layer of row `r`. -/
def hidden3 (r : Fin 50000) : Fin 100 → EReal := fun n =>
  Cert.Spec.relu (Cert.Spec.dense (H2 r) (fun k n => x19 (ix2 k n)) (fun n => x20 (ix1 n)) n)

local notation "H3" => hidden3 x0 x1 x2 x3 x4 x5 x6 x7 x8 x9 x10 x11 x12 x13 x14 x15 x16 x17 x18 x19 x20

theorem h3_apply (r : Fin 50000) (n : Fin 100) : V80 (ix2 r n) = H3 r n := by
  have hs : V76 (ix2 r n) = ∑ k : Fin 100, H2 r k * x19 (ix2 k n) := by
    rw [val_main_v76_apply]
    exact Finset.sum_congr rfl fun k _ => by
      rw [show lidx_main_v76 (ix2 r n) k = ix2 r k from funext fun a => Fin.ext (by match a with | ⟨0, _⟩ => rfl | ⟨1, _⟩ => rfl),
        show ridx_main_v76 (ix2 r n) k = ix2 k n from funext fun a => Fin.ext (by match a with | ⟨0, _⟩ => rfl | ⟨1, _⟩ => rfl), h2_apply]
  rw [val_main_v80_apply, val_main_v79_apply, hs, val_main_v78_apply, val_main_v77_apply,
    val_main_call5_v0_apply, val_main_call5_cst_apply,
    show idx_main_v77 (idx_main_v78 (ix2 r n)) = ix1 n from funext fun a => Fin.ext (by match a with | ⟨0, _⟩ => rfl)]
  rfl

/-- The fourth layer's output for row `r`, the row the normalisation acts on. -/
def preNorm (r : Fin 50000) : Fin 128 → EReal :=
  Cert.Spec.dense (H3 r) (fun k n => x21 (ix2 k n)) (fun n => x22 (ix1 n))

local notation "H4" => preNorm x0 x1 x2 x3 x4 x5 x6 x7 x8 x9 x10 x11 x12 x13 x14 x15 x16 x17 x18 x19 x20 x21 x22

theorem h4_apply (r : Fin 50000) (j : Fin 128) : V84 (ix2 r j) = H4 r j := by
  have hs : V81 (ix2 r j) = ∑ k : Fin 100, H3 r k * x21 (ix2 k j) := by
    rw [val_main_v81_apply]
    exact Finset.sum_congr rfl fun k _ => by
      rw [show lidx_main_v81 (ix2 r j) k = ix2 r k from funext fun a => Fin.ext (by match a with | ⟨0, _⟩ => rfl | ⟨1, _⟩ => rfl),
        show ridx_main_v81 (ix2 r j) k = ix2 k j from funext fun a => Fin.ext (by match a with | ⟨0, _⟩ => rfl | ⟨1, _⟩ => rfl), h3_apply]
  rw [val_main_v84_apply, hs, val_main_v83_apply, val_main_v82_apply,
    show idx_main_v82 (idx_main_v83 (ix2 r j)) = ix1 j from funext fun a => Fin.ext (by match a with | ⟨0, _⟩ => rfl)]
  rfl

/-! ### The normalisation: mean, variance -/

/-- The mean of the fourth layer's row: the sum from the zero word, divided by the word 128. -/
theorem mean_apply (r : Fin 50000) : V88 (ix2 r (0 : Fin 1)) = Cert.Spec.mean (H4 r) := by
  have hs : (∑ k : Fin 128, V84 (idx_main_v85 (idx_main_v86 (ix2 r (0 : Fin 1))) k)) = ∑ k : Fin 128, H4 r k :=
    Finset.sum_congr rfl fun k _ => by
      rw [show idx_main_v85 (idx_main_v86 (ix2 r (0 : Fin 1))) k = ix2 r k from funext fun a => Fin.ext (by match a with | ⟨0, _⟩ => rfl | ⟨1, _⟩ => rfl), h4_apply]
  rw [val_main_v88_apply, val_main_v86_apply, val_main_v85_apply, hs, val_main_cst_8_apply, val_main_v87_apply,
    val_main_cst_9_apply]
  simp only [Ideal.ofBits_def, Ideal.hostDivf_def, Ideal.ofBits_zero_f32, zero_add]
  rfl

/-- The squared deviation from the mean, as the product the reference forms. -/
theorem sq_apply (r : Fin 50000) (j : Fin 128) :
    V91 (ix2 r j) = (H4 r j - Cert.Spec.mean (H4 r)) * (H4 r j - Cert.Spec.mean (H4 r)) := by
  rw [val_main_v91_apply, val_main_v90_apply, h4_apply, val_main_v89_apply,
    show idx_main_v89 (ix2 r j) = ix2 r (0 : Fin 1) from funext fun a => Fin.ext (by match a with | ⟨0, _⟩ => rfl | ⟨1, _⟩ => rfl), mean_apply]
  rfl

/-- The variance of the fourth layer's row: the mean of the squared deviations. -/
theorem var_apply (r : Fin 50000) :
    V95 (ix2 r (0 : Fin 1))
      = Cert.Spec.mean (fun l => (H4 r l - Cert.Spec.mean (H4 r)) * (H4 r l - Cert.Spec.mean (H4 r))) := by
  have hs : (∑ k : Fin 128, V91 (idx_main_v92 (idx_main_v93 (ix2 r (0 : Fin 1))) k))
      = ∑ k : Fin 128, (H4 r k - Cert.Spec.mean (H4 r)) * (H4 r k - Cert.Spec.mean (H4 r)) :=
    Finset.sum_congr rfl fun k _ => by
      rw [show idx_main_v92 (idx_main_v93 (ix2 r (0 : Fin 1))) k = ix2 r k from funext fun a => Fin.ext (by match a with | ⟨0, _⟩ => rfl | ⟨1, _⟩ => rfl), sq_apply]
  rw [val_main_v95_apply, val_main_v93_apply, val_main_v92_apply, hs, val_main_cst_10_apply, val_main_v94_apply,
    val_main_cst_11_apply]
  simp only [Ideal.ofBits_def, Ideal.hostDivf_def, Ideal.ofBits_zero_f32, zero_add]
  rfl

/-- The normalised row with scale, shift and the residual, before it is recognised as `Spec.nodeRow`. -/
theorem out_eq (r : Fin 50000) (q : Fin 128) :
    val_main_v109 (F := Ideal) x0 x1 x2 x3 x4 x5 x6 x7 x8 x9 x10 x11 x12 x13 x14 x15 x16 x17 x18 x19 x20 x21 x22 x23 x24 (ix2 r q)
      = x0 (ix2 r q) + Cert.Spec.layerNorm (H4 r) (fun n => x23 (ix1 n)) (fun n => x24 (ix1 n)) q := by
  rw [val_main_v109_apply, val_main_v108_apply, val_main_v105_apply, val_main_v102_apply, val_main_v97_apply, h4_apply,
    val_main_v96_apply, show idx_main_v96 (ix2 r q) = ix2 r (0 : Fin 1) from funext fun a => Fin.ext (by match a with | ⟨0, _⟩ => rfl | ⟨1, _⟩ => rfl), mean_apply,
    val_main_v101_apply, val_main_v100_apply, val_main_v99_apply,
    show idx_main_v101 (ix2 r q) = ix2 r (0 : Fin 1) from funext fun a => Fin.ext (by match a with | ⟨0, _⟩ => rfl | ⟨1, _⟩ => rfl), var_apply,
    val_main_v98_apply, val_main_cst_12_apply,
    val_main_v104_apply, val_main_v103_apply,
    show idx_main_v103 (idx_main_v104 (ix2 r q)) = ix1 q from funext fun a => Fin.ext (by match a with | ⟨0, _⟩ => rfl),
    val_main_v107_apply, val_main_v106_apply,
    show idx_main_v106 (idx_main_v107 (ix2 r q)) = ix1 q from funext fun a => Fin.ext (by match a with | ⟨0, _⟩ => rfl)]
  rfl

end Layers

/-- The reference's result, entry by entry: row `r` depends only on row `r` of the node features, of the aggregated
    messages and of the gathered graph features, through the row function `Spec.nodeRow` (the residual included). The
    first layer contracts the concatenated row of 384 features against the whole first weight matrix; a sum over 384 is
    the sum of the three partial sums over 128 (`Spec.sum_384`), which is the form `Spec.nodeRow` has. -/
theorem out_apply (x0 : (⟨S50000x128, .f32⟩ : BufTy).Contents (Elt Ideal)) (x1 : (⟨S2x800000, .i32⟩ : BufTy).Contents (Elt Ideal)) (x2 : (⟨S800000x128, .f32⟩ : BufTy).Contents (Elt Ideal))
    (x3 : (⟨S64x128, .f32⟩ : BufTy).Contents (Elt Ideal)) (x4 : (⟨S50000, .i32⟩ : BufTy).Contents (Elt Ideal))
    (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal))
    (x9 : (⟨S100x100, .f32⟩ : BufTy).Contents (Elt Ideal)) (x10 : (⟨S100, .f32⟩ : BufTy).Contents (Elt Ideal)) (x11 : (⟨S100x128, .f32⟩ : BufTy).Contents (Elt Ideal))
    (x12 x13 x14 : (⟨S128, .f32⟩ : BufTy).Contents (Elt Ideal))
    (x15 : (⟨S384x100, .f32⟩ : BufTy).Contents (Elt Ideal)) (x16 : (⟨S100, .f32⟩ : BufTy).Contents (Elt Ideal)) (x17 : (⟨S100x100, .f32⟩ : BufTy).Contents (Elt Ideal)) (x18 : (⟨S100, .f32⟩ : BufTy).Contents (Elt Ideal))
    (x19 : (⟨S100x100, .f32⟩ : BufTy).Contents (Elt Ideal)) (x20 : (⟨S100, .f32⟩ : BufTy).Contents (Elt Ideal)) (x21 : (⟨S100x128, .f32⟩ : BufTy).Contents (Elt Ideal))
    (x22 x23 x24 : (⟨S128, .f32⟩ : BufTy).Contents (Elt Ideal)) (r : Fin 50000) (q : Fin 128) :
    val_main_v109 (F := Ideal) x0 x1 x2 x3 x4 x5 x6 x7 x8 x9 x10 x11 x12 x13 x14 x15 x16 x17 x18 x19 x20 x21 x22 x23 x24 (ix2 r q)
      = Cert.Spec.nodeRow (fun k => x0 (ix2 r k))
          (fun k => val_main_v57 (F := Ideal) x0 x1 x2 x5 x6 x7 x8 x9 x10 x11 x12 x13 x14 (ix2 r k))
          (fun k => val_main_v64 (F := Ideal) x3 x4 (ix2 r k))
          (fun k n => x15 (ix2 (Fin.castAdd 128 (Fin.castAdd 128 k) : Fin 384) n))
          (fun k n => x15 (ix2 (Fin.castAdd 128 (Fin.natAdd 128 k) : Fin 384) n))
          (fun k n => x15 (ix2 (Fin.natAdd 256 k : Fin 384) n))
          (fun n => x16 (ix1 n)) (fun k n => x17 (ix2 k n)) (fun n => x18 (ix1 n)) (fun k n => x19 (ix2 k n)) (fun n => x20 (ix1 n))
          (fun k n => x21 (ix2 k n)) (fun n => x22 (ix1 n)) (fun n => x23 (ix1 n)) (fun n => x24 (ix1 n)) q := by
  rw [out_eq]
  unfold preNorm hidden3 hidden2 hidden1 firstSums
  generalize val_main_v57 (F := Ideal) x0 x1 x2 x5 x6 x7 x8 x9 x10 x11 x12 x13 x14 = A
  generalize val_main_v64 (F := Ideal) x3 x4 = G
  rfl

end Cert.ReferenceIdeal.RefNode

end
-- ==== Proof.RefValue.lean ====
import proofs.«403091_j49546742726708_1_alg».proof.Proof.Gen.ReferenceIdeal.Read
import proofs.«403091_j49546742726708_1_alg».proof.Proof.SpecArrays
import proofs.«403091_j49546742726708_1_alg».proof.Proof.RefEdge
import proofs.«403091_j49546742726708_1_alg».proof.Proof.RefNode

noncomputable section

namespace Cert.ReferenceIdeal.RefValue

open Cert.ReferenceIdeal Cert.ReferenceIdeal.Gen Cert.ReferenceIdeal.Read Idealize.ShloMosaic Idealize.ShloMosaic.ValueIdx Idealize.ShloMosaic.TcCoe Idealize.SL.Sem

variable (m : (ℓ : Loc nD τ sig) → Buf (Elt Ideal) ℓ)

/-- The reference's messages as a whole array: the edge network of the gathered source rows and the edge rows. -/
theorem msg_eq (c : Dev nD) :
    val_main_v54 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      = Cert.Spec.msgArr (val_main_v10 (F := Ideal) (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  funext i
  obtain ⟨r, q, rfl⟩ : ∃ (r : Fin 800000) (q : Fin 128), i = ix2 r q := ⟨i 0, i 1, eq_ix2 i⟩
  exact RefEdge.msg_apply _ _ _ _ _ _ _ _ _ _ _ _ _ r q

/-- The reference's result as a function of the 25 argument arrays: the node network of the node rows, of the scatter-add into zeros of the messages at every edge's destination index, and of the gathered graph rows. -/
def refOut (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S64x128, .f32⟩ : BufTy).Contents (Elt Ideal)) (x4 : (⟨S50000, .i32⟩ : BufTy).Contents (Elt Ideal)) (x5 : (⟨S256x100, .f32⟩ : BufTy).Contents (Elt Ideal)) (x6 : (⟨S100, .f32⟩ : BufTy).Contents (Elt Ideal)) (x7 : (⟨S100x100, .f32⟩ : BufTy).Contents (Elt Ideal)) (x8 : (⟨S100, .f32⟩ : BufTy).Contents (Elt Ideal)) (x9 : (⟨S100x100, .f32⟩ : BufTy).Contents (Elt Ideal)) (x10 : (⟨S100, .f32⟩ : BufTy).Contents (Elt Ideal)) (x11 : (⟨S100x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S384x100, .f32⟩ : BufTy).Contents (Elt Ideal)) (x16 : (⟨S100, .f32⟩ : BufTy).Contents (Elt Ideal)) (x17 : (⟨S100x100, .f32⟩ : BufTy).Contents (Elt Ideal)) (x18 : (⟨S100, .f32⟩ : BufTy).Contents (Elt Ideal)) (x19 : (⟨S100x100, .f32⟩ : BufTy).Contents (Elt Ideal)) (x20 : (⟨S100, .f32⟩ : BufTy).Contents (Elt Ideal)) (x21 : (⟨S100x128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) : Cert.Spec.Arr2 50000 128 :=
  Cert.Spec.outArr (x0)
        (Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (shapeCast _ (extractStridedSlice S1x800000 ![1, 0] x1 slices_S2x800000_S1x800000_1_0) shapeCasts_S1x800000_S800000))
          (Cert.Spec.msgArr
            (Host.gather gather_S50000x128_S800000x1_S800000x128_1_0_n_n_0_1_1128 (x0)
              (broadcastInDim S800000x1 ![0] bcast_S800000_S800000x1_0
                (select (cmpi .slt (shapeCast _ (extractStridedSlice S1x800000 ![0, 0] x1 slices_S2x800000_S1x800000_0_0) shapeCasts_S1x800000_S800000) (broadcastInDim S800000 ![] bcast_S_S800000 (constantI S_ 32 0#32)))
                  (addi (shapeCast _ (extractStridedSlice S1x800000 ![0, 0] x1 slices_S2x800000_S1x800000_0_0) shapeCasts_S1x800000_S800000) (broadcastInDim S800000 ![] bcast_S_S800000 (constantI S_ 32 50000#32))) (shapeCast _ (extractStridedSlice S1x800000 ![0, 0] x1 slices_S2x800000_S1x800000_0_0) shapeCasts_S1x800000_S800000))))
            (x2) (x5) (x6) (x7) (x8) (x9)
            (x10) (x11) (x12) (x13) (x14)))
        (Host.gather gather_S64x128_S50000x1_S50000x128_1_0_n_n_0_1_1128 (x3)
          (broadcastInDim S50000x1 ![0] bcast_S50000_S50000x1_0
            (select (cmpi .slt (x4) (broadcastInDim S50000 ![] bcast_S_S50000 (constantI S_ 32 0#32)))
              (addi (x4) (broadcastInDim S50000 ![] bcast_S_S50000 (constantI S_ 32 64#32))) (x4))))
        (x15) (x16) (x17) (x18) (x19)
        (x20) (x21) (x22) (x23) (x24)

/-- The reference's run ends at that function of the launch memory's argument arrays. -/
theorem result_eq (c : Dev nD) :
    Cert.ReferenceIdeal.Value.res_main_v109 (F := Ideal) m c
      = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [val_main_v109_eq]
  funext i
  obtain ⟨r, q, rfl⟩ : ∃ (r : Fin 50000) (q : Fin 128), i = ix2 r q := ⟨i 0, i 1, eq_ix2 i⟩
  rw [RefNode.out_apply]
  have hagg : val_main_v57 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 (shapeCast _ (extractStridedSlice S1x800000 ![1, 0] (m ((c.tc : Thread nD τ).loc main_arg1)) slices_S2x800000_S1x800000_1_0) shapeCasts_S1x800000_S800000))
          (Cert.Spec.msgArr (val_main_v10 (F := Ideal) (m ((c.tc : Thread nD τ).loc main_arg0)) (m ((c.tc : Thread nD τ).loc main_arg1))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
    unfold val_main_v57
    rw [msg_eq m c]
    rfl
  rw [hagg]
  rfl

end Cert.ReferenceIdeal.RefValue

end
-- ==== Proof.lean ====
/-
  Equivalence over the extended reals of a two-stage graph network layer and its reference.

  Both programs compute, for every edge, a four-layer perceptron with a layer normalisation on the concatenation of
  the source node's row (a gather of the node array at the edge's source index) and the edge's row; add the
  results up per destination node (a scatter-add into zeros); and for every node apply a second such network to the
  concatenation of the node's row, its aggregated messages and its graph's row (a gather at the node's graph index),
  adding the node's row to the result.

  The kernel program runs each network as a pipelined region over row blocks (8000 edge rows, 5000 node rows per grid
  point) and, instead of concatenating, cuts the first weight matrix into row blocks of 128 rows and adds the partial
  products: a sum over 256 or 384 indices is the sum of its partial sums over 128 (commutativity and associativity of
  addition on the extended reals: no finiteness is used, so the precondition's finiteness conjuncts are never opened).
  Casts to bf16 are the identity at the ideal instance, so the matrix products agree entry by entry.

  The kernel's host code gathers with `take` in its default mode, which replaces a row whose index is out of range by
  a fill word, where the reference's indexing clamps. The precondition therefore says that every source index lies in
  [0, 50000) and every graph index in [0, 64) — the ranges of the arrays they index —: then no row is replaced and both
  programs hold the same gather.

  The modules: `Spec` and `SpecArrays` state the row functions and the whole-array functions; `EdgeBlock` / `NodeBlock`
  read one block of a region's output entry by entry; `EdgeArray` / `NodeArray` assemble the blocks into the region's
  output array; `HostReads` and `TakeInRange` say what each region finds in the buffers it reads; `KernelRun` is the
  kernel program's run with its result named, `KernelValue` that result as a term of the launch memory; `RefEdge` /
  `RefNode` read the reference's stages entry by entry and `RefValue` states its result as the same term.
-/
import proofs.«403091_j49546742726708_1_alg».proof.Defs
import proofs.«403091_j49546742726708_1_alg».proof.Proof.Gen.Kernel
import proofs.«403091_j49546742726708_1_alg».proof.Proof.Gen.Kernel.Skeleton
import proofs.«403091_j49546742726708_1_alg».proof.Proof.Gen.Kernel.Launch
import proofs.«403091_j49546742726708_1_alg».proof.Proof.Gen.Kernel.Points
import proofs.«403091_j49546742726708_1_alg».proof.Proof.Gen.Kernel.Frame
import proofs.«403091_j49546742726708_1_alg».proof.Proof.Gen.KernelIdeal
import proofs.«403091_j49546742726708_1_alg».proof.Proof.Gen.KernelIdeal.Skeleton
import proofs.«403091_j49546742726708_1_alg».proof.Proof.Gen.KernelIdeal.Launch
import proofs.«403091_j49546742726708_1_alg».proof.Proof.Gen.KernelIdeal.Points
import proofs.«403091_j49546742726708_1_alg».proof.Proof.Gen.KernelIdeal.Frame
import proofs.«403091_j49546742726708_1_alg».proof.Proof.Gen.ReferenceIdeal
import proofs.«403091_j49546742726708_1_alg».proof.Proof.Gen.ReferenceIdeal.Run
import proofs.«403091_j49546742726708_1_alg».proof.Proof.Gen.Pre_finite_inputs
import proofs.«403091_j49546742726708_1_alg».proof.Proof.KernelRun
import proofs.«403091_j49546742726708_1_alg».proof.Proof.KernelValue
import proofs.«403091_j49546742726708_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing in the kernel program. -/
theorem preserves : Cert.preserves_Kernel_KernelIdeal := trivial

/-- The two programs' results are one function of the argument arrays: the same operations on the same operands in the
    same order (the two printed programs name their layout witnesses separately; the witnesses are propositions). -/
theorem outs_agree (x0 : (⟨Cert.KernelIdeal.S50000x128, .f32⟩ : BufTy).Contents (Elt Ideal)) (x1 : (⟨Cert.KernelIdeal.S2x800000, .i32⟩ : BufTy).Contents (Elt Ideal)) (x2 : (⟨Cert.KernelIdeal.S800000x128, .f32⟩ : BufTy).Contents (Elt Ideal)) (x3 : (⟨Cert.KernelIdeal.S64x128, .f32⟩ : BufTy).Contents (Elt Ideal)) (x4 : (⟨Cert.KernelIdeal.S50000, .i32⟩ : BufTy).Contents (Elt Ideal)) (x5 : (⟨Cert.KernelIdeal.S256x100, .f32⟩ : BufTy).Contents (Elt Ideal)) (x6 : (⟨Cert.KernelIdeal.S100, .f32⟩ : BufTy).Contents (Elt Ideal)) (x7 : (⟨Cert.KernelIdeal.S100x100, .f32⟩ : BufTy).Contents (Elt Ideal)) (x8 : (⟨Cert.KernelIdeal.S100, .f32⟩ : BufTy).Contents (Elt Ideal)) (x9 : (⟨Cert.KernelIdeal.S100x100, .f32⟩ : BufTy).Contents (Elt Ideal)) (x10 : (⟨Cert.KernelIdeal.S100, .f32⟩ : BufTy).Contents (Elt Ideal)) (x11 : (⟨Cert.KernelIdeal.S100x128, .f32⟩ : BufTy).Contents (Elt Ideal)) (x12 : (⟨Cert.KernelIdeal.S128, .f32⟩ : BufTy).Contents (Elt Ideal)) (x13 : (⟨Cert.KernelIdeal.S128, .f32⟩ : BufTy).Contents (Elt Ideal)) (x14 : (⟨Cert.KernelIdeal.S128, .f32⟩ : BufTy).Contents (Elt Ideal)) (x15 : (⟨Cert.KernelIdeal.S384x100, .f32⟩ : BufTy).Contents (Elt Ideal)) (x16 : (⟨Cert.KernelIdeal.S100, .f32⟩ : BufTy).Contents (Elt Ideal)) (x17 : (⟨Cert.KernelIdeal.S100x100, .f32⟩ : BufTy).Contents (Elt Ideal)) (x18 : (⟨Cert.KernelIdeal.S100, .f32⟩ : BufTy).Contents (Elt Ideal)) (x19 : (⟨Cert.KernelIdeal.S100x100, .f32⟩ : BufTy).Contents (Elt Ideal)) (x20 : (⟨Cert.KernelIdeal.S100, .f32⟩ : BufTy).Contents (Elt Ideal)) (x21 : (⟨Cert.KernelIdeal.S100x128, .f32⟩ : BufTy).Contents (Elt Ideal)) (x22 : (⟨Cert.KernelIdeal.S128, .f32⟩ : BufTy).Contents (Elt Ideal)) (x23 : (⟨Cert.KernelIdeal.S128, .f32⟩ : BufTy).Contents (Elt Ideal)) (x24 : (⟨Cert.KernelIdeal.S128, .f32⟩ : BufTy).Contents (Elt Ideal)) :
    Cert.ReferenceIdeal.RefValue.refOut x0 x1 x2 x3 x4 x5 x6 x7 x8 x9 x10 x11 x12 x13 x14 x15 x16 x17 x18 x19 x20 x21 x22 x23 x24 = Cert.KernelIdeal.KernelValue.kerOut x0 x1 x2 x3 x4 x5 x6 x7 x8 x9 x10 x11 x12 x13 x14 x15 x16 x17 x18 x19 x20 x21 x22 x23 x24 := rfl

/-- The same, for argument arrays given twice and equal one by one (the form in which the two launch memories agree). -/
theorem outs_agree_of (x0 : (⟨Cert.KernelIdeal.S50000x128, .f32⟩ : BufTy).Contents (Elt Ideal)) (x1 : (⟨Cert.KernelIdeal.S2x800000, .i32⟩ : BufTy).Contents (Elt Ideal)) (x2 : (⟨Cert.KernelIdeal.S800000x128, .f32⟩ : BufTy).Contents (Elt Ideal)) (x3 : (⟨Cert.KernelIdeal.S64x128, .f32⟩ : BufTy).Contents (Elt Ideal)) (x4 : (⟨Cert.KernelIdeal.S50000, .i32⟩ : BufTy).Contents (Elt Ideal)) (x5 : (⟨Cert.KernelIdeal.S256x100, .f32⟩ : BufTy).Contents (Elt Ideal)) (x6 : (⟨Cert.KernelIdeal.S100, .f32⟩ : BufTy).Contents (Elt Ideal)) (x7 : (⟨Cert.KernelIdeal.S100x100, .f32⟩ : BufTy).Contents (Elt Ideal)) (x8 : (⟨Cert.KernelIdeal.S100, .f32⟩ : BufTy).Contents (Elt Ideal)) (x9 : (⟨Cert.KernelIdeal.S100x100, .f32⟩ : BufTy).Contents (Elt Ideal)) (x10 : (⟨Cert.KernelIdeal.S100, .f32⟩ : BufTy).Contents (Elt Ideal)) (x11 : (⟨Cert.KernelIdeal.S100x128, .f32⟩ : BufTy).Contents (Elt Ideal)) (x12 : (⟨Cert.KernelIdeal.S128, .f32⟩ : BufTy).Contents (Elt Ideal)) (x13 : (⟨Cert.KernelIdeal.S128, .f32⟩ : BufTy).Contents (Elt Ideal)) (x14 : (⟨Cert.KernelIdeal.S128, .f32⟩ : BufTy).Contents (Elt Ideal)) (x15 : (⟨Cert.KernelIdeal.S384x100, .f32⟩ : BufTy).Contents (Elt Ideal)) (x16 : (⟨Cert.KernelIdeal.S100, .f32⟩ : BufTy).Contents (Elt Ideal)) (x17 : (⟨Cert.KernelIdeal.S100x100, .f32⟩ : BufTy).Contents (Elt Ideal)) (x18 : (⟨Cert.KernelIdeal.S100, .f32⟩ : BufTy).Contents (Elt Ideal)) (x19 : (⟨Cert.KernelIdeal.S100x100, .f32⟩ : BufTy).Contents (Elt Ideal)) (x20 : (⟨Cert.KernelIdeal.S100, .f32⟩ : BufTy).Contents (Elt Ideal)) (x21 : (⟨Cert.KernelIdeal.S100x128, .f32⟩ : BufTy).Contents (Elt Ideal)) (x22 : (⟨Cert.KernelIdeal.S128, .f32⟩ : BufTy).Contents (Elt Ideal)) (x23 : (⟨Cert.KernelIdeal.S128, .f32⟩ : BufTy).Contents (Elt Ideal)) (x24 : (⟨Cert.KernelIdeal.S128, .f32⟩ : BufTy).Contents (Elt Ideal))
    (y0 : (⟨Cert.ReferenceIdeal.S50000x128, .f32⟩ : BufTy).Contents (Elt Ideal)) (y1 : (⟨Cert.ReferenceIdeal.S2x800000, .i32⟩ : BufTy).Contents (Elt Ideal)) (y2 : (⟨Cert.ReferenceIdeal.S800000x128, .f32⟩ : BufTy).Contents (Elt Ideal)) (y3 : (⟨Cert.ReferenceIdeal.S64x128, .f32⟩ : BufTy).Contents (Elt Ideal)) (y4 : (⟨Cert.ReferenceIdeal.S50000, .i32⟩ : BufTy).Contents (Elt Ideal)) (y5 : (⟨Cert.ReferenceIdeal.S256x100, .f32⟩ : BufTy).Contents (Elt Ideal)) (y6 : (⟨Cert.ReferenceIdeal.S100, .f32⟩ : BufTy).Contents (Elt Ideal)) (y7 : (⟨Cert.ReferenceIdeal.S100x100, .f32⟩ : BufTy).Contents (Elt Ideal)) (y8 : (⟨Cert.ReferenceIdeal.S100, .f32⟩ : BufTy).Contents (Elt Ideal)) (y9 : (⟨Cert.ReferenceIdeal.S100x100, .f32⟩ : BufTy).Contents (Elt Ideal)) (y10 : (⟨Cert.ReferenceIdeal.S100, .f32⟩ : BufTy).Contents (Elt Ideal)) (y11 : (⟨Cert.ReferenceIdeal.S100x128, .f32⟩ : BufTy).Contents (Elt Ideal)) (y12 : (⟨Cert.ReferenceIdeal.S128, .f32⟩ : BufTy).Contents (Elt Ideal)) (y13 : (⟨Cert.ReferenceIdeal.S128, .f32⟩ : BufTy).Contents (Elt Ideal)) (y14 : (⟨Cert.ReferenceIdeal.S128, .f32⟩ : BufTy).Contents (Elt Ideal)) (y15 : (⟨Cert.ReferenceIdeal.S384x100, .f32⟩ : BufTy).Contents (Elt Ideal)) (y16 : (⟨Cert.ReferenceIdeal.S100, .f32⟩ : BufTy).Contents (Elt Ideal)) (y17 : (⟨Cert.ReferenceIdeal.S100x100, .f32⟩ : BufTy).Contents (Elt Ideal)) (y18 : (⟨Cert.ReferenceIdeal.S100, .f32⟩ : BufTy).Contents (Elt Ideal)) (y19 : (⟨Cert.ReferenceIdeal.S100x100, .f32⟩ : BufTy).Contents (Elt Ideal)) (y20 : (⟨Cert.ReferenceIdeal.S100, .f32⟩ : BufTy).Contents (Elt Ideal)) (y21 : (⟨Cert.ReferenceIdeal.S100x128, .f32⟩ : BufTy).Contents (Elt Ideal)) (y22 : (⟨Cert.ReferenceIdeal.S128, .f32⟩ : BufTy).Contents (Elt Ideal)) (y23 : (⟨Cert.ReferenceIdeal.S128, .f32⟩ : BufTy).Contents (Elt Ideal)) (y24 : (⟨Cert.ReferenceIdeal.S128, .f32⟩ : BufTy).Contents (Elt Ideal))
    (h0 : y0 = x0) (h1 : y1 = x1) (h2 : y2 = x2) (h3 : y3 = x3) (h4 : y4 = x4) (h5 : y5 = x5) (h6 : y6 = x6) (h7 : y7 = x7) (h8 : y8 = x8) (h9 : y9 = x9) (h10 : y10 = x10) (h11 : y11 = x11) (h12 : y12 = x12) (h13 : y13 = x13) (h14 : y14 = x14) (h15 : y15 = x15) (h16 : y16 = x16) (h17 : y17 = x17) (h18 : y18 = x18) (h19 : y19 = x19) (h20 : y20 = x20) (h21 : y21 = x21) (h22 : y22 = x22) (h23 : y23 = x23) (h24 : y24 = x24) :
    Cert.ReferenceIdeal.RefValue.refOut y0 y1 y2 y3 y4 y5 y6 y7 y8 y9 y10 y11 y12 y13 y14 y15 y16 y17 y18 y19 y20 y21 y22 y23 y24 = Cert.KernelIdeal.KernelValue.kerOut x0 x1 x2 x3 x4 x5 x6 x7 x8 x9 x10 x11 x12 x13 x14 x15 x16 x17 x18 x19 x20 x21 x22 x23 x24 := by
  subst h0 h1 h2 h3 h4 h5 h6 h7 h8 h9 h10 h11 h12 h13 h14 h15 h16 h17 h18 h19 h20 h21 h22 h23 h24
  exact outs_agree _ _ _ _ _ _ _ _ _ _ _ _ _ _ _ _ _ _ _ _ _ _ _ _ _

/-- From memories that agree on the arguments and satisfy the precondition, both idealized programs end with the same
    result: the node network of the node rows, the scatter-added messages and the gathered graph rows. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KernelValue.result_eq m ρ hpre c), (h c).2⟩)
      (Cert.KernelIdeal.NamedRun.run_named (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  rw [Cert.ReferenceIdeal.RefValue.result_eq m' c]
  exact outs_agree_of _ _ _ _ _ _ _ _ _ _ _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22 h23 h24

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
